-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S200000x128 : Shape := ⟨2, ![200000, 128]⟩
abbrev S200000 : Shape := ⟨1, ![200000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg16 : FVec F S128x128 .f32) (main_arg17 : FVec F S128 .f32) (main_arg18 : FVec F S128 .f32) (main_arg19 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S128 .f32) (main_arg10 : FVec F S128 .f32) (main_arg11 : FVec F S128 .f32) (main_arg12 : FVec F S256x128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg12
  let main_cst_18 : FVec F S_ .f32 := constant S_ .f32 0x7F800000#32
  let main_v50 : FVec F S256x128 .f32 := broadcastInDim S256x128 ![] bcast_S_S256x128 main_cst_18
  fn_part3 (F := F) main_arg13 main_arg14 main_arg15 main_arg16 main_arg17 main_arg18 main_arg19 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S256x128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x128 .f32) (main_arg1 : FVec F S200000x128 .f32) (main_arg2 : IVec S200000 32) (main_arg3 : IVec S200000 32) (main_arg4 : FVec F S384x128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S256x128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S200000x128 : Shape := ⟨2, ![200000, 128]⟩
abbrev S200000 : Shape := ⟨1, ![200000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S200000x1 : Shape := ⟨2, ![200000, 1]⟩
abbrev S200000x384 : Shape := ⟨2, ![200000, 384]⟩
abbrev S1x128 : Shape := ⟨2, ![1, 128]⟩
abbrev S5000x384 : Shape := ⟨2, ![5000, 384]⟩
abbrev S5000x128 : Shape := ⟨2, ![5000, 128]⟩
abbrev S5000 : Shape := ⟨1, ![5000]⟩
abbrev S5000x1 : Shape := ⟨2, ![5000, 1]⟩
abbrev S50000x256 : Shape := ⟨2, ![50000, 256]⟩
abbrev S5000x256 : Shape := ⟨2, ![5000, 256]⟩

abbrev nBuf : Space → Nat
  | .hbm => 57
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S200000x128, .f32⟩
  | .hbm, ⟨2, _⟩ => ⟨S200000, .i32⟩
  | .hbm, ⟨3, _⟩ => ⟨S200000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S_, .i32⟩
  | .hbm, ⟨21, _⟩ => ⟨S200000, .i32⟩
  | .hbm, ⟨22, _⟩ => ⟨S200000, .i1⟩
  | .hbm, ⟨23, _⟩ => ⟨S_, .i32⟩
  | .hbm, ⟨24, _⟩ => ⟨S200000, .i32⟩
  | .hbm, ⟨25, _⟩ => ⟨S200000, .i32⟩
  | .hbm, ⟨26, _⟩ => ⟨S200000, .i32⟩
  | .hbm, ⟨27, _⟩ => ⟨S200000x1, .i32⟩
  | .hbm, ⟨28, _⟩ => ⟨S200000x128, .f32⟩
  | .hbm, ⟨29, _⟩ => ⟨S_, .i32⟩
  | .hbm, ⟨30, _⟩ => ⟨S200000, .i32⟩
  | .hbm, ⟨31, _⟩ => ⟨S200000, .i1⟩
  | .hbm, ⟨32, _⟩ => ⟨S_, .i32⟩
  | .hbm, ⟨33, _⟩ => ⟨S200000, .i32⟩
  | .hbm, ⟨34, _⟩ => ⟨S200000, .i32⟩
  | .hbm, ⟨35, _⟩ => ⟨S200000, .i32⟩
  | .hbm, ⟨36, _⟩ => ⟨S200000x1, .i32⟩
  | .hbm, ⟨37, _⟩ => ⟨S200000x128, .f32⟩
  | .hbm, ⟨38, _⟩ => ⟨S200000x384, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S200000x128, .f32⟩
  | .hbm, ⟨45, _⟩ => ⟨S200000x128, .f32⟩
  | .hbm, ⟨46, _⟩ => ⟨S_, .f32⟩
  | .hbm, ⟨47, _⟩ => ⟨S50000x128, .f32⟩
  | .hbm, ⟨48, _⟩ => ⟨S200000x1, .i32⟩
  | .hbm, ⟨49, _⟩ => ⟨S50000x128, .f32⟩
  | .hbm, ⟨50, _⟩ => ⟨S50000x256, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S50000x128, .f32⟩
  | .local _ .vmem, ⟨0, _⟩ => ⟨S5000x384, .f32⟩
  | .local _ .vmem, ⟨1, _⟩ => ⟨S5000x384, .f32⟩
  | .local _ .vmem, ⟨2, _⟩ => ⟨S384x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x256, .f32⟩
  | .local _ .vmem, ⟨15, _⟩ => ⟨S5000x256, .f32⟩
  | .local _ .vmem, ⟨16, _⟩ => ⟨S256x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20_0 : Ref sig .tc := ⟨.hbm, 44, rfl⟩
abbrev main_v20_1 : Ref sig .tc := ⟨.hbm, 45, rfl⟩
abbrev main_cst : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x128_S200000x384_d1 : Shape.Concatenates [S200000x128, S200000x128, S200000x128] S200000x384 1
  shapeCasts_S128_S1x128 : S128.ShapeCasts S1x128
  inb_S5000x384_S5000x384_0_0 : ∀ a, (![0, 0] : Fin 2 → Nat) a + S5000x384.size a ≤ S5000x384.size a
  h_S5000x384 : 0 < S5000x384.numel
  shapeCasts_S5000x384_S5000x384 : S5000x384.ShapeCasts S5000x384
  slices_S5000x384_o0_256_S5000x128 : S5000x384.Slices ![0, 256] S5000x128
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  reduces_S5000x128_S5000 : S5000x128.Reduces [1] S5000
  shapeCasts_S5000_S5000x1 : S5000.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  concatenates_S50000x128_S50000x128_S50000x256_d1 : Shape.Concatenates [S50000x128, S50000x128] S50000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  slices_S5000x256_o0_0_S5000x128 : S5000x256.Slices ![0, 0] S5000x128
  inb_S256x128_S256x128_0_0 : ∀ a, (![0, 0] : Fin 2 → Nat) a + S256x128.size a ≤ S256x128.size a
  h_S256x128 : 0 < S256x128.numel
  gather_S50000x128_S200000x1_S200000x128_1_0_n_n_0_1_1128_wf : GatherDims.WF S50000x128 S200000x1 S200000x128 [1] [0] [] [0] [] 1 ![1, 128]
  dot_S5000x384_S384x128_S5000x128_1_0_0_1_n_n_wf : DotDims.WF S5000x384 S384x128 S5000x128 [1] [0] [0] [1] [] []
  dot_S5000x128_S128x128_S5000x128_1_0_0_1_n_n_wf : DotDims.WF S5000x128 S128x128 S5000x128 [1] [0] [0] [1] [] []
  scatter_S50000x128_S200000x1_S200000x128_1_0_0_1_wf : ScatterDims.WF S50000x128 S200000x1 S200000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x384.size a ≤ S200000x384.size a
  hwx0_0 : ∀ i : grid0.Coords, EltTy.bits .f32 = 32 ∨ (Rect.block (s := S200000x384) S5000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S200000x128.size a
  hwx0_9 : ∀ i : grid0.Coords, EltTy.bits .f32 = 32 ∨ (Rect.block (s := S200000x128) S5000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S200000x128.size a
  hwx0_10 : ∀ i : grid0.Coords, EltTy.bits .f32 = 32 ∨ (Rect.block (s := S200000x128) S5000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)

variable [Facts₀]

def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v14) S5000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20_0) S5000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v20_1) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v24) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg16) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v30) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S200000x128 : Shape := ⟨2, ![200000, 128]⟩
abbrev S200000 : Shape := ⟨1, ![200000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S200000x1 : Shape := ⟨2, ![200000, 1]⟩
abbrev S200000x384 : Shape := ⟨2, ![200000, 384]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S200000x128, .f32⟩
  | 2 => ⟨S200000, .i32⟩
  | 3 => ⟨S200000, .i32⟩
  | 4 => ⟨S384x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S256x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128, .f32⟩
  | 19 => ⟨S128, .f32⟩
  | 20 => ⟨S_, .i32⟩
  | 21 => ⟨S200000, .i32⟩
  | 22 => ⟨S200000, .i1⟩
  | 23 => ⟨S_, .i32⟩
  | 24 => ⟨S200000, .i32⟩
  | 25 => ⟨S200000, .i32⟩
  | 26 => ⟨S200000, .i32⟩
  | 27 => ⟨S200000x1, .i32⟩
  | 28 => ⟨S200000x128, .f32⟩
  | 29 => ⟨S_, .i32⟩
  | 30 => ⟨S200000, .i32⟩
  | 31 => ⟨S200000, .i1⟩
  | 32 => ⟨S_, .i32⟩
  | 33 => ⟨S200000, .i32⟩
  | 34 => ⟨S200000, .i32⟩
  | 35 => ⟨S200000, .i32⟩
  | 36 => ⟨S200000x1, .i32⟩
  | 37 => ⟨S200000x128, .f32⟩
  | 38 => ⟨S200000x384, .f32⟩
  | 39 => ⟨S200000x128, .f32⟩
  | 40 => ⟨S1x128, .f32⟩
  | 41 => ⟨S200000x128, .f32⟩
  | 42 => ⟨S200000x128, .f32⟩
  | 43 => ⟨S_, .f32⟩
  | 44 => ⟨S200000x128, .f32⟩
  | 45 => ⟨S200000x128, .f32⟩
  | 46 => ⟨S200000x128, .f32⟩
  | 47 => ⟨S1x128, .f32⟩
  | 48 => ⟨S200000x128, .f32⟩
  | 49 => ⟨S200000x128, .f32⟩
  | 50 => ⟨S_, .f32⟩
  | 51 => ⟨S200000x128, .f32⟩
  | 52 => ⟨S200000x128, .f32⟩
  | 53 => ⟨S200000x128, .f32⟩
  | 54 => ⟨S1x128, .f32⟩
  | 55 => ⟨S200000x128, .f32⟩
  | 56 => ⟨S200000x128, .f32⟩
  | 57 => ⟨S_, .f32⟩
  | 58 => ⟨S200000, .f32⟩
  | 59 => ⟨S200000x1, .f32⟩
  | 60 => ⟨S_, .f32⟩
  | 61 => ⟨S200000x1, .f32⟩
  | 62 => ⟨S200000x1, .f32⟩
  | 63 => ⟨S200000x128, .f32⟩
  | 64 => ⟨S200000x128, .f32⟩
  | 65 => ⟨S200000x128, .f32⟩
  | 66 => ⟨S_, .f32⟩
  | 67 => ⟨S200000, .f32⟩
  | 68 => ⟨S200000x1, .f32⟩
  | 69 => ⟨S_, .f32⟩
  | 70 => ⟨S200000x1, .f32⟩
  | 71 => ⟨S200000x1, .f32⟩
  | 72 => ⟨S200000x128, .f32⟩
  | 73 => ⟨S200000x128, .f32⟩
  | 74 => ⟨S_, .f32⟩
  | 75 => ⟨S200000x1, .f32⟩
  | 76 => ⟨S200000x1, .f32⟩
  | 77 => ⟨S200000x1, .f32⟩
  | 78 => ⟨S200000x128, .f32⟩
  | 79 => ⟨S200000x128, .f32⟩
  | 80 => ⟨S1x128, .f32⟩
  | 81 => ⟨S200000x128, .f32⟩
  | 82 => ⟨S200000x128, .f32⟩
  | 83 => ⟨S1x128, .f32⟩
  | 84 => ⟨S200000x128, .f32⟩
  | 85 => ⟨S200000x128, .f32⟩
  | 86 => ⟨S_, .f32⟩
  | 87 => ⟨S50000x128, .f32⟩
  | 88 => ⟨S200000x1, .i32⟩
  | 89 => ⟨S50000x128, .f32⟩
  | 90 => ⟨S50000x256, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000, .f32⟩
  | 111 => ⟨S50000x1, .f32⟩
  | 112 => ⟨S_, .f32⟩
  | 113 => ⟨S50000x1, .f32⟩
  | 114 => ⟨S50000x1, .f32⟩
  | 115 => ⟨S50000x128, .f32⟩
  | 116 => ⟨S50000x128, .f32⟩
  | 117 => ⟨S50000x128, .f32⟩
  | 118 => ⟨S_, .f32⟩
  | 119 => ⟨S50000, .f32⟩
  | 120 => ⟨S50000x1, .f32⟩
  | 121 => ⟨S_, .f32⟩
  | 122 => ⟨S50000x1, .f32⟩
  | 123 => ⟨S50000x1, .f32⟩
  | 124 => ⟨S50000x128, .f32⟩
  | 125 => ⟨S50000x128, .f32⟩
  | 126 => ⟨S_, .f32⟩
  | 127 => ⟨S50000x1, .f32⟩
  | _ => ⟨S50000x128, .f32⟩

abbrev hbmTy0_1 (i : Nat) : BufTy := match i % 128 with
  | 0 => ⟨S50000x1, .f32⟩
  | 1 => ⟨S50000x1, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S50000x128, .f32⟩
  | 11 => ⟨S200000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_call0_cst : Ref sig .tc := ⟨.hbm, 43, rfl⟩
abbrev main_call0_v0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_call1_cst : Ref sig .tc := ⟨.hbm, 50, rfl⟩
abbrev main_call1_v0 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst : Ref sig .tc := ⟨.hbm, 57, rfl⟩
abbrev main_v29 : Ref sig .tc := ⟨.hbm, 58, rfl⟩
abbrev main_v30 : Ref sig .tc := ⟨.hbm, 59, rfl⟩
abbrev main_cst_3 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_4 : Ref sig .tc := ⟨.hbm, 66, rfl⟩
abbrev main_v36 : Ref sig .tc := ⟨.hbm, 67, rfl⟩
abbrev main_v37 : Ref sig .tc := ⟨.hbm, 68, rfl⟩
abbrev main_cst_5 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_6 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_7 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call2_cst : Ref sig .tc := ⟨.hbm, 95, rfl⟩
abbrev main_call2_v0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call3_cst : Ref sig .tc := ⟨.hbm, 102, rfl⟩
abbrev main_call3_v0 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_8 : Ref sig .tc := ⟨.hbm, 109, rfl⟩
abbrev main_v71 : Ref sig .tc := ⟨.hbm, 110, rfl⟩
abbrev main_v72 : Ref sig .tc := ⟨.hbm, 111, rfl⟩
abbrev main_cst_9 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_10 : Ref sig .tc := ⟨.hbm, 118, rfl⟩
abbrev main_v78 : Ref sig .tc := ⟨.hbm, 119, rfl⟩
abbrev main_v79 : Ref sig .tc := ⟨.hbm, 120, rfl⟩
abbrev main_cst_11 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_12 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x128_S200000x384_d1 : Shape.Concatenates [S200000x128, S200000x128, S200000x128] S200000x384 1
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  reducesTo_S200000x128_S200000_d1 : S200000x128.ReducesTo [1] S200000
  h_S_ : 0 < S_.numel
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S200000x1_S200000x128_1_0_n_n_0_1_1128_wf : GatherDims.WF S50000x128 S200000x1 S200000x128 [1] [0] [] [0] [] 1 ![1, 128]
  dot_S200000x384_S384x128_S200000x128_1_0_0_1_n_n_wf : DotDims.WF S200000x384 S384x128 S200000x128 [1] [0] [0] [1] [] []
  dot_S200000x128_S128x128_S200000x128_1_0_0_1_n_n_wf : DotDims.WF S200000x128 S128x128 S200000x128 [1] [0] [0] [1] [] []
  scatter_S50000x128_S200000x1_S200000x128_1_0_0_1_wf : ScatterDims.WF S50000x128 S200000x1 S200000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x384_S384x128_S200000x128_1_0_0_1_n_n : DotDims S200000x384 S384x128 S200000x128 where
  lhsContracting := [1]
  rhsContracting := [0]
  lhsNonContracting := [0]
  rhsNonContracting := [1]
  lhsBatch := []
  rhsBatch := []
  wf := dot_S200000x384_S384x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.K.Reg0.lean ====
/-
  Region 0 of the program (the edge perceptron's pallas_call), at any float family and at any contents `V` of the core's
  buffers at the region's entry: each window's block at a grid point, what the body leaves in each output window's
  staging buffer as a function of the input blocks, the body's triple, the pipeline's proof data and the body obligation
  at a generic point. Every input window keeps its block (fetched there or not: the weights and the bias rows are fetched
  once and never move); the body overwrites each output buffer whole.
-/
import proofs.«166836_j55508157333731_1_alg».proof.Proof.Gen.Kernel.Launch
import proofs.«166836_j55508157333731_1_alg».proof.Proof.Gen.Kernel.Skeleton
import proofs.«166836_j55508157333731_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof data
    whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof data
    whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof data
    whose array is `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_S5000x384 : Rect S5000x384 := Rect.unit (s := S5000x384) ![0, 0] S5000x384.size inb_S5000x384_S5000x384_0_0
abbrev r0_S384x128 : Rect S384x128 := Rect.unit (s := S384x128) ![0, 0] S384x128.size inb_S384x128_S384x128_0_0
abbrev r0_S1x128 : Rect S1x128 := Rect.unit (s := S1x128) ![0, 0] S1x128.size inb_S1x128_S1x128_0_0
abbrev r0_S128x128 : Rect S128x128 := Rect.unit (s := S128x128) ![0, 0] S128x128.size inb_S128x128_S128x128_0_0
abbrev r0_S5000x128 : Rect S5000x128 := Rect.unit (s := S5000x128) ![0, 0] S5000x128.size inb_S5000x128_S5000x128_0_0

/-! ## What the body leaves in each output window's buffer -/

/-- Window 9's staging buffer after the body, from the input windows' blocks: its one store as a piece. -/
def out0_9 (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (x7 : Vec F S1x128 .f32) (x8 : Vec F S1x128 .f32) : Vec F S5000x128 .f32 :=
  View.canon [⟨r0_S5000x128, k0_pay1 (k0_pay5 (View.ld x0 r0_S5000x384) (View.ld x1 r0_S384x128) (View.ld x2 r0_S1x128) (View.ld x3 r0_S128x128) (View.ld x4 r0_S1x128) (View.ld x5 r0_S128x128) (View.ld x6 r0_S1x128)) (k0_pay6 (View.ld x0 r0_S5000x384) (View.ld x1 r0_S384x128) (View.ld x2 r0_S1x128) (View.ld x3 r0_S128x128) (View.ld x4 r0_S1x128) (View.ld x5 r0_S128x128) (View.ld x6 r0_S1x128)) (View.ld x7 r0_S1x128) (View.ld x8 r0_S1x128)⟩]

/-- The store is of the whole buffer, so it covers it. -/
theorem cover0_9 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y

/-- Window 10's staging buffer after the body, from the input windows' blocks: its one store as a piece. -/
def out0_10 (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (x7 : Vec F S1x128 .f32) (x8 : Vec F S1x128 .f32) : Vec F S5000x128 .f32 :=
  View.canon [⟨r0_S5000x128, k0_pay2 (k0_pay4 (View.ld x0 r0_S5000x384)) (k0_pay5 (View.ld x0 r0_S5000x384) (View.ld x1 r0_S384x128) (View.ld x2 r0_S1x128) (View.ld x3 r0_S128x128) (View.ld x4 r0_S1x128) (View.ld x5 r0_S128x128) (View.ld x6 r0_S1x128)) (k0_pay6 (View.ld x0 r0_S5000x384) (View.ld x1 r0_S384x128) (View.ld x2 r0_S1x128) (View.ld x3 r0_S128x128) (View.ld x4 r0_S1x128) (View.ld x5 r0_S128x128) (View.ld x6 r0_S1x128)) (View.ld x7 r0_S1x128) (View.ld x8 r0_S1x128)⟩]

/-- The store is of the whole buffer, so it covers it. -/
theorem cover0_10 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y

/-! ## The body's triple -/

set_option maxHeartbeats 4000000 in
/-- The kernel body on whole staging memrefs, the inputs' at read contents `xW` and the outputs' at anything, runs to the
    continuation holding the inputs' as they were and each output's at `out0_W` of the inputs'. -/
theorem sound_kernel0 (c : Dev nD) (E : Set ℕ) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10 arg11 harg11) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover0_9 _)
  iexists _; isplitr
  swap; · iexact H10
  ipureintro
  try dsimp only
  exact View.read_writes_eq_canon _ _ _ (cover0_10 _)

/-! ## The pipeline's proof data -/

/-- The proof data of this pipeline on core `c`: the arrays as the region finds them; after the body at point `t` each
    input's buffer at its block and each output's at `out0_W` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the program (the node perceptron's pallas_call), at any float family and at any contents `V` of the core's
  buffers at the region's entry: each window's block at a grid point, what the body leaves in each output window's
  staging buffer as a function of the input blocks, the body's triple, the pipeline's proof data and the body obligation
  at a generic point. Every input window keeps its block (fetched there or not: the weights and the bias rows are fetched
  once and never move); the body overwrites each output buffer whole.
-/
import proofs.«166836_j55508157333731_1_alg».proof.Proof.Gen.Kernel.Launch
import proofs.«166836_j55508157333731_1_alg».proof.Proof.Gen.Kernel.Skeleton
import proofs.«166836_j55508157333731_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof data
    whose array is `V`'s and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof data
    whose array is `V`'s and whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_S5000x256 : Rect S5000x256 := Rect.unit (s := S5000x256) ![0, 0] S5000x256.size inb_S5000x256_S5000x256_0_0
abbrev r1_S256x128 : Rect S256x128 := Rect.unit (s := S256x128) ![0, 0] S256x128.size inb_S256x128_S256x128_0_0
abbrev r1_S1x128 : Rect S1x128 := Rect.unit (s := S1x128) ![0, 0] S1x128.size inb_S1x128_S1x128_0_0
abbrev r1_S128x128 : Rect S128x128 := Rect.unit (s := S128x128) ![0, 0] S128x128.size inb_S128x128_S128x128_0_0
abbrev r1_S5000x128 : Rect S5000x128 := Rect.unit (s := S5000x128) ![0, 0] S5000x128.size inb_S5000x128_S5000x128_0_0

/-! ## What the body leaves in each output window's buffer -/

/-- Window 9's staging buffer after the body, from the input windows' blocks: its one store as a piece. -/
def out1_9 (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (x7 : Vec F S1x128 .f32) (x8 : Vec F S1x128 .f32) : Vec F S5000x128 .f32 :=
  View.canon [⟨r1_S5000x128, k1_pay1 (k1_pay3 (View.ld x0 r1_S5000x256)) (k1_pay4 (View.ld x0 r1_S5000x256) (View.ld x1 r1_S256x128) (View.ld x2 r1_S1x128) (View.ld x3 r1_S128x128) (View.ld x4 r1_S1x128) (View.ld x5 r1_S128x128) (View.ld x6 r1_S1x128)) (k1_pay5 (View.ld x0 r1_S5000x256) (View.ld x1 r1_S256x128) (View.ld x2 r1_S1x128) (View.ld x3 r1_S128x128) (View.ld x4 r1_S1x128) (View.ld x5 r1_S128x128) (View.ld x6 r1_S1x128)) (View.ld x7 r1_S1x128) (View.ld x8 r1_S1x128)⟩]

/-- The store is of the whole buffer, so it covers it. -/
theorem cover1_9 (p0 : Vec F S5000x128 .f32) (y : S5000x128.Idx) :
    ∃ pc ∈ ([⟨r1_S5000x128, p0⟩] : List (View.Piece (Elt F) S5000x128 .f32)), y ∈ pc.1.set :=
  View.cover_of_tiled [⟨r1_S5000x128, p0⟩] S5000x128.size (by rfl) y

/-! ## The body's triple -/

set_option maxHeartbeats 4000000 in
/-- The kernel body on whole staging memrefs, the inputs' at read contents `xW` and the outputs' at anything, runs to the
    continuation holding the inputs' as they were and each output's at `out1_W` of the inputs'. -/
theorem sound_kernel1 (c : Dev nD) (E : Set ℕ) (i : grid1.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__node_mlp_kernel i arg1 harg1 arg2 harg2 arg3 harg3 arg4 harg4 arg5 harg5 arg6 harg6 arg7 harg7 arg8 harg8 arg9 harg9 arg10 harg10) K := by
  simp only [cc1__node_mlp_kernel_eq_skeleton]; unfold cc1__node_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-! ## The pipeline's proof data -/

/-- The proof data of this pipeline on core `c`: the arrays as the region finds them; after the body at point `t` each
    input's buffer at its block and each output's at `out1_W` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The program's run from the launch to the return: two stretches of host operations and two kernel regions, in order.
  The core's buffer contents at each boundary are a fold from the launch memory — after a host stretch, the stretch's
  operations applied; after a region, the region's arrays at what its write-backs leave and every other buffer as it was —
  and every weakly fair execution terminates with EVERY unscoped buffer at the last boundary's contents. Read at an
  argument the fold walks back to the launch memory (no item writes an argument); read at a result it is the array a
  region's output window leaves.
-/
import proofs.«166836_j55508157333731_1_alg».proof.Proof.K.Reg0
import proofs.«166836_j55508157333731_1_alg».proof.Proof.K.Reg1
import proofs.«166836_j55508157333731_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev Vin0 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vout0 : (c : Dev nD) → (b : Ref sig .tc) → Buf (Elt F) ((c : Thread nD τ).loc b) := fun c b => W2 m ρ c b
theorem hF0 (c : Dev nD) (w : Fin cfg0.W) : (dat0 (Vin0 m ρ) c).arrAt w cfg0.N = Vout0 m ρ c (Pipeline.arrRef spec0 w) :=
  (W2_arr m ρ c w).symm
theorem hrest0 (c : Dev nD) : ∀ b, b ∉ Finset.univ.image (Pipeline.arrRef spec0) → Vout0 m ρ c b = Vin0 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev Vin1 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (Vin1 m ρ) c).arrAt w cfg1.N
theorem W4_arr (c : Dev nD) (w : Fin cfg1.W) :
    W4 m ρ c (Proc.devRef .tc (Pipeline.arrRef spec1 w)) = (dat1 (Vin1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vout1 : (c : Dev nD) → (b : Ref sig .tc) → Buf (Elt F) ((c : Thread nD τ).loc b) := fun c b => W4 m ρ c b
theorem hF1 (c : Dev nD) (w : Fin cfg1.W) : (dat1 (Vin1 m ρ) c).arrAt w cfg1.N = Vout1 m ρ c (Pipeline.arrRef spec1 w) :=
  (W4_arr m ρ c w).symm
theorem hrest1 (c : Dev nD) : ∀ b, b ∉ Finset.univ.image (Pipeline.arrRef spec1) → Vout1 m ρ c b = Vin1 m ρ c b :=
  fun b hb => W4_of_ne m ρ c b fun w e => hb (Finset.mem_image.mpr ⟨w, Finset.mem_univ _, e⟩)

/-! ## What no host stretch writes, it leaves -/

/-- A buffer none of the first stretch's operations writes is after it as at launch. -/
theorem W1_of (c : Dev nD) (b : Ref sig .tc) (h : b ∉ hostOps0_W) : W1 m ρ c (Proc.devRef .tc b) = W0 m ρ c (Proc.devRef .tc b) :=
  StableHlo.after_of_writes_sub hostOps0 _ hostOps0_writes h
/-- A buffer none of the second stretch's operations writes is after it as at region 0's exit. -/
theorem W3_of (c : Dev nD) (b : Ref sig .tc) (h : b ∉ hostOps1_W) : W3 m ρ c (Proc.devRef .tc b) = W2 m ρ c (Proc.devRef .tc b) :=
  StableHlo.after_of_writes_sub hostOps1 _ hostOps1_writes h

/-- An array a region only reads (an input window's) is at its exit as at its entry. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (Vin0 m ρ) c).arrAt_in w hin _).trans (A_eq0 (Vin0 m ρ) c w))
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (Vin1 m ρ) c).arrAt_in w hin _).trans (A_eq1 (Vin1 m ρ) c w))

/-! ### The arguments end as launched -/

theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <| (W2_of_ne m ρ c main_arg0 (by decide)).trans <| (W1_of m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <| (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <| (W2_of_ne m ρ c main_arg2 (by decide)).trans <| (W1_of m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <| (W2_of_ne m ρ c main_arg3 (by decide)).trans <| (W1_of m ρ c main_arg3 (by decide)).trans rfl
theorem W4_main_arg4 (c : Dev nD) : W4 m ρ c (Proc.devRef .tc main_arg4) = m ((c : Thread nD τ).loc main_arg4) :=
  (W4_of_ne m ρ c main_arg4 (by decide)).trans <| (W3_of m ρ c main_arg4 (by decide)).trans <| (W2_in m ρ c 1 rfl).trans <| (W1_of m ρ c main_arg4 (by decide)).trans rfl
theorem W4_main_arg5 (c : Dev nD) : W4 m ρ c (Proc.devRef .tc main_arg5) = m ((c : Thread nD τ).loc main_arg5) :=
  (W4_of_ne m ρ c main_arg5 (by decide)).trans <| (W3_of m ρ c main_arg5 (by decide)).trans <| (W2_of_ne m ρ c main_arg5 (by decide)).trans <| (W1_of m ρ c main_arg5 (by decide)).trans rfl
theorem W4_main_arg6 (c : Dev nD) : W4 m ρ c (Proc.devRef .tc main_arg6) = m ((c : Thread nD τ).loc main_arg6) :=
  (W4_of_ne m ρ c main_arg6 (by decide)).trans <| (W3_of m ρ c main_arg6 (by decide)).trans <| (W2_in m ρ c 3 rfl).trans <| (W1_of m ρ c main_arg6 (by decide)).trans rfl
theorem W4_main_arg7 (c : Dev nD) : W4 m ρ c (Proc.devRef .tc main_arg7) = m ((c : Thread nD τ).loc main_arg7) :=
  (W4_of_ne m ρ c main_arg7 (by decide)).trans <| (W3_of m ρ c main_arg7 (by decide)).trans <| (W2_of_ne m ρ c main_arg7 (by decide)).trans <| (W1_of m ρ c main_arg7 (by decide)).trans rfl
theorem W4_main_arg8 (c : Dev nD) : W4 m ρ c (Proc.devRef .tc main_arg8) = m ((c : Thread nD τ).loc main_arg8) :=
  (W4_of_ne m ρ c main_arg8 (by decide)).trans <| (W3_of m ρ c main_arg8 (by decide)).trans <| (W2_in m ρ c 5 rfl).trans <| (W1_of m ρ c main_arg8 (by decide)).trans rfl
theorem W4_main_arg9 (c : Dev nD) : W4 m ρ c (Proc.devRef .tc main_arg9) = m ((c : Thread nD τ).loc main_arg9) :=
  (W4_of_ne m ρ c main_arg9 (by decide)).trans <| (W3_of m ρ c main_arg9 (by decide)).trans <| (W2_of_ne m ρ c main_arg9 (by decide)).trans <| (W1_of m ρ c main_arg9 (by decide)).trans rfl
theorem W4_main_arg10 (c : Dev nD) : W4 m ρ c (Proc.devRef .tc main_arg10) = m ((c : Thread nD τ).loc main_arg10) :=
  (W4_of_ne m ρ c main_arg10 (by decide)).trans <| (W3_of m ρ c main_arg10 (by decide)).trans <| (W2_of_ne m ρ c main_arg10 (by decide)).trans <| (W1_of m ρ c main_arg10 (by decide)).trans rfl
theorem W4_main_arg11 (c : Dev nD) : W4 m ρ c (Proc.devRef .tc main_arg11) = m ((c : Thread nD τ).loc main_arg11) :=
  (W4_of_ne m ρ c main_arg11 (by decide)).trans <| (W3_of m ρ c main_arg11 (by decide)).trans <| (W2_of_ne m ρ c main_arg11 (by decide)).trans <| (W1_of m ρ c main_arg11 (by decide)).trans rfl
theorem W4_main_arg12 (c : Dev nD) : W4 m ρ c (Proc.devRef .tc main_arg12) = m ((c : Thread nD τ).loc main_arg12) :=
  (W4_in m ρ c 1 rfl).trans <| (W3_of m ρ c main_arg12 (by decide)).trans <| (W2_of_ne m ρ c main_arg12 (by decide)).trans <| (W1_of m ρ c main_arg12 (by decide)).trans rfl
theorem W4_main_arg13 (c : Dev nD) : W4 m ρ c (Proc.devRef .tc main_arg13) = m ((c : Thread nD τ).loc main_arg13) :=
  (W4_of_ne m ρ c main_arg13 (by decide)).trans <| (W3_of m ρ c main_arg13 (by decide)).trans <| (W2_of_ne m ρ c main_arg13 (by decide)).trans <| (W1_of m ρ c main_arg13 (by decide)).trans rfl
theorem W4_main_arg14 (c : Dev nD) : W4 m ρ c (Proc.devRef .tc main_arg14) = m ((c : Thread nD τ).loc main_arg14) :=
  (W4_in m ρ c 3 rfl).trans <| (W3_of m ρ c main_arg14 (by decide)).trans <| (W2_of_ne m ρ c main_arg14 (by decide)).trans <| (W1_of m ρ c main_arg14 (by decide)).trans rfl
theorem W4_main_arg15 (c : Dev nD) : W4 m ρ c (Proc.devRef .tc main_arg15) = m ((c : Thread nD τ).loc main_arg15) :=
  (W4_of_ne m ρ c main_arg15 (by decide)).trans <| (W3_of m ρ c main_arg15 (by decide)).trans <| (W2_of_ne m ρ c main_arg15 (by decide)).trans <| (W1_of m ρ c main_arg15 (by decide)).trans rfl
theorem W4_main_arg16 (c : Dev nD) : W4 m ρ c (Proc.devRef .tc main_arg16) = m ((c : Thread nD τ).loc main_arg16) :=
  (W4_in m ρ c 5 rfl).trans <| (W3_of m ρ c main_arg16 (by decide)).trans <| (W2_of_ne m ρ c main_arg16 (by decide)).trans <| (W1_of m ρ c main_arg16 (by decide)).trans rfl
theorem W4_main_arg17 (c : Dev nD) : W4 m ρ c (Proc.devRef .tc main_arg17) = m ((c : Thread nD τ).loc main_arg17) :=
  (W4_of_ne m ρ c main_arg17 (by decide)).trans <| (W3_of m ρ c main_arg17 (by decide)).trans <| (W2_of_ne m ρ c main_arg17 (by decide)).trans <| (W1_of m ρ c main_arg17 (by decide)).trans rfl
theorem W4_main_arg18 (c : Dev nD) : W4 m ρ c (Proc.devRef .tc main_arg18) = m ((c : Thread nD τ).loc main_arg18) :=
  (W4_of_ne m ρ c main_arg18 (by decide)).trans <| (W3_of m ρ c main_arg18 (by decide)).trans <| (W2_of_ne m ρ c main_arg18 (by decide)).trans <| (W1_of m ρ c main_arg18 (by decide)).trans rfl
theorem W4_main_arg19 (c : Dev nD) : W4 m ρ c (Proc.devRef .tc main_arg19) = m ((c : Thread nD τ).loc main_arg19) :=
  (W4_of_ne m ρ c main_arg19 (by decide)).trans <| (W3_of m ρ c main_arg19 (by decide)).trans <| (W2_of_ne m ρ c main_arg19 (by decide)).trans <| (W1_of m ρ c main_arg19 (by decide)).trans rfl

/-! ### The results are what the regions' output windows leave -/

/-- The node result is the array region 1's output window leaves. -/
theorem W4_main_v30 (c : Dev nD) : W4 m ρ c (Proc.devRef .tc main_v30) = (dat1 (Vin1 m ρ) c).arrAt 9 cfg1.N :=
  W4_arr m ρ c 9
/-- The edge result is the array region 0's second output window leaves: nothing after region 0 writes it. -/
theorem W4_main_v20_1 (c : Dev nD) : W4 m ρ c (Proc.devRef .tc main_v20_1) = (dat0 (Vin0 m ρ) c).arrAt 10 cfg0.N :=
  (W4_of_ne m ρ c main_v20_1 (by decide)).trans <| (W3_of m ρ c main_v20_1 (by decide)).trans (W2_arr m ρ c 10)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A host stretch as an item of the run, over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W4 m ρ c) ∗ ∃ r, prngReg c r)

/-! ## The regions as items of the run -/

set_option backward.isDefEq.respectTransparency.types false in
/-- Region 0 over the thread state "every unscoped buffer at the boundary's contents, the generator register at some
    state, nothing owed": its arrays split out of the unscoped buffers at entry and put back at the exit contents; the
    generator register goes into the invariant and comes out; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at the exit contents; the
    generator register goes into the invariant and comes out; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's four items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program IS the run of its items. -/
theorem main_run (c : Dev nD) : main (F := F) c = Pipeline.Seg.run (segs m ρ) := (main_chain c).trans (by chain_rfl)

set_option backward.isDefEq.respectTransparency.types false in
/-- From any memory with zero counters every weakly fair execution of the program terminates, nothing faulting, with
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.KI.Reg0.lean ====
/-
  Region 0 of the program (the edge perceptron's pallas_call), at any float family and at any contents `V` of the core's
  buffers at the region's entry: each window's block at a grid point, what the body leaves in each output window's
  staging buffer as a function of the input blocks, the body's triple, the pipeline's proof data and the body obligation
  at a generic point. Every input window keeps its block (fetched there or not: the weights and the bias rows are fetched
  once and never move); the body overwrites each output buffer whole.
-/
import proofs.«166836_j55508157333731_1_alg».proof.Proof.Gen.KernelIdeal.Launch
import proofs.«166836_j55508157333731_1_alg».proof.Proof.Gen.KernelIdeal.Skeleton
import proofs.«166836_j55508157333731_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof data
    whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof data
    whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof data
    whose array is `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_S5000x384 : Rect S5000x384 := Rect.unit (s := S5000x384) ![0, 0] S5000x384.size inb_S5000x384_S5000x384_0_0
abbrev r0_S384x128 : Rect S384x128 := Rect.unit (s := S384x128) ![0, 0] S384x128.size inb_S384x128_S384x128_0_0
abbrev r0_S1x128 : Rect S1x128 := Rect.unit (s := S1x128) ![0, 0] S1x128.size inb_S1x128_S1x128_0_0
abbrev r0_S128x128 : Rect S128x128 := Rect.unit (s := S128x128) ![0, 0] S128x128.size inb_S128x128_S128x128_0_0
abbrev r0_S5000x128 : Rect S5000x128 := Rect.unit (s := S5000x128) ![0, 0] S5000x128.size inb_S5000x128_S5000x128_0_0

/-! ## What the body leaves in each output window's buffer -/

/-- Window 9's staging buffer after the body, from the input windows' blocks: its one store as a piece. -/
def out0_9 (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (x7 : Vec F S1x128 .f32) (x8 : Vec F S1x128 .f32) : Vec F S5000x128 .f32 :=
  View.canon [⟨r0_S5000x128, k0_pay1 (k0_pay5 (View.ld x0 r0_S5000x384) (View.ld x1 r0_S384x128) (View.ld x2 r0_S1x128) (View.ld x3 r0_S128x128) (View.ld x4 r0_S1x128) (View.ld x5 r0_S128x128) (View.ld x6 r0_S1x128)) (k0_pay6 (View.ld x0 r0_S5000x384) (View.ld x1 r0_S384x128) (View.ld x2 r0_S1x128) (View.ld x3 r0_S128x128) (View.ld x4 r0_S1x128) (View.ld x5 r0_S128x128) (View.ld x6 r0_S1x128)) (View.ld x7 r0_S1x128) (View.ld x8 r0_S1x128)⟩]

/-- The store is of the whole buffer, so it covers it. -/
theorem cover0_9 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y

/-- Window 10's staging buffer after the body, from the input windows' blocks: its one store as a piece. -/
def out0_10 (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (x7 : Vec F S1x128 .f32) (x8 : Vec F S1x128 .f32) : Vec F S5000x128 .f32 :=
  View.canon [⟨r0_S5000x128, k0_pay2 (k0_pay4 (View.ld x0 r0_S5000x384)) (k0_pay5 (View.ld x0 r0_S5000x384) (View.ld x1 r0_S384x128) (View.ld x2 r0_S1x128) (View.ld x3 r0_S128x128) (View.ld x4 r0_S1x128) (View.ld x5 r0_S128x128) (View.ld x6 r0_S1x128)) (k0_pay6 (View.ld x0 r0_S5000x384) (View.ld x1 r0_S384x128) (View.ld x2 r0_S1x128) (View.ld x3 r0_S128x128) (View.ld x4 r0_S1x128) (View.ld x5 r0_S128x128) (View.ld x6 r0_S1x128)) (View.ld x7 r0_S1x128) (View.ld x8 r0_S1x128)⟩]

/-- The store is of the whole buffer, so it covers it. -/
theorem cover0_10 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y

/-! ## The body's triple -/

set_option maxHeartbeats 4000000 in
/-- The kernel body on whole staging memrefs, the inputs' at read contents `xW` and the outputs' at anything, runs to the
    continuation holding the inputs' as they were and each output's at `out0_W` of the inputs'. -/
theorem sound_kernel0 (c : Dev nD) (E : Set ℕ) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole) (arg11 : Memref sig .tc .vmem S5000x128 .f32) (harg11 : arg11.IsWhole)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10 arg11 harg11) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover0_9 _)
  iexists _; isplitr
  swap; · iexact H10
  ipureintro
  try dsimp only
  exact View.read_writes_eq_canon _ _ _ (cover0_10 _)

/-! ## The pipeline's proof data -/

/-- The proof data of this pipeline on core `c`: the arrays as the region finds them; after the body at point `t` each
    input's buffer at its block and each output's at `out0_W` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the program (the node perceptron's pallas_call), at any float family and at any contents `V` of the core's
  buffers at the region's entry: each window's block at a grid point, what the body leaves in each output window's
  staging buffer as a function of the input blocks, the body's triple, the pipeline's proof data and the body obligation
  at a generic point. Every input window keeps its block (fetched there or not: the weights and the bias rows are fetched
  once and never move); the body overwrites each output buffer whole.
-/
import proofs.«166836_j55508157333731_1_alg».proof.Proof.Gen.KernelIdeal.Launch
import proofs.«166836_j55508157333731_1_alg».proof.Proof.Gen.KernelIdeal.Skeleton
import proofs.«166836_j55508157333731_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof data
    whose array is `V`'s and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof data
    whose array is `V`'s and whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_S5000x256 : Rect S5000x256 := Rect.unit (s := S5000x256) ![0, 0] S5000x256.size inb_S5000x256_S5000x256_0_0
abbrev r1_S256x128 : Rect S256x128 := Rect.unit (s := S256x128) ![0, 0] S256x128.size inb_S256x128_S256x128_0_0
abbrev r1_S1x128 : Rect S1x128 := Rect.unit (s := S1x128) ![0, 0] S1x128.size inb_S1x128_S1x128_0_0
abbrev r1_S128x128 : Rect S128x128 := Rect.unit (s := S128x128) ![0, 0] S128x128.size inb_S128x128_S128x128_0_0
abbrev r1_S5000x128 : Rect S5000x128 := Rect.unit (s := S5000x128) ![0, 0] S5000x128.size inb_S5000x128_S5000x128_0_0

/-! ## What the body leaves in each output window's buffer -/

/-- Window 9's staging buffer after the body, from the input windows' blocks: its one store as a piece. -/
def out1_9 (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (x7 : Vec F S1x128 .f32) (x8 : Vec F S1x128 .f32) : Vec F S5000x128 .f32 :=
  View.canon [⟨r1_S5000x128, k1_pay1 (k1_pay3 (View.ld x0 r1_S5000x256)) (k1_pay4 (View.ld x0 r1_S5000x256) (View.ld x1 r1_S256x128) (View.ld x2 r1_S1x128) (View.ld x3 r1_S128x128) (View.ld x4 r1_S1x128) (View.ld x5 r1_S128x128) (View.ld x6 r1_S1x128)) (k1_pay5 (View.ld x0 r1_S5000x256) (View.ld x1 r1_S256x128) (View.ld x2 r1_S1x128) (View.ld x3 r1_S128x128) (View.ld x4 r1_S1x128) (View.ld x5 r1_S128x128) (View.ld x6 r1_S1x128)) (View.ld x7 r1_S1x128) (View.ld x8 r1_S1x128)⟩]

/-- The store is of the whole buffer, so it covers it. -/
theorem cover1_9 (p0 : Vec F S5000x128 .f32) (y : S5000x128.Idx) :
    ∃ pc ∈ ([⟨r1_S5000x128, p0⟩] : List (View.Piece (Elt F) S5000x128 .f32)), y ∈ pc.1.set :=
  View.cover_of_tiled [⟨r1_S5000x128, p0⟩] S5000x128.size (by rfl) y

/-! ## The body's triple -/

set_option maxHeartbeats 4000000 in
/-- The kernel body on whole staging memrefs, the inputs' at read contents `xW` and the outputs' at anything, runs to the
    continuation holding the inputs' as they were and each output's at `out1_W` of the inputs'. -/
theorem sound_kernel1 (c : Dev nD) (E : Set ℕ) (i : grid1.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__node_mlp_kernel i arg1 harg1 arg2 harg2 arg3 harg3 arg4 harg4 arg5 harg5 arg6 harg6 arg7 harg7 arg8 harg8 arg9 harg9 arg10 harg10) K := by
  simp only [cc1__node_mlp_kernel_eq_skeleton]; unfold cc1__node_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-! ## The pipeline's proof data -/

/-- The proof data of this pipeline on core `c`: the arrays as the region finds them; after the body at point `t` each
    input's buffer at its block and each output's at `out1_W` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The program's run from the launch to the return: two stretches of host operations and two kernel regions, in order.
  The core's buffer contents at each boundary are a fold from the launch memory — after a host stretch, the stretch's
  operations applied; after a region, the region's arrays at what its write-backs leave and every other buffer as it was —
  and every weakly fair execution terminates with EVERY unscoped buffer at the last boundary's contents. Read at an
  argument the fold walks back to the launch memory (no item writes an argument); read at a result it is the array a
  region's output window leaves.
-/
import proofs.«166836_j55508157333731_1_alg».proof.Proof.KI.Reg0
import proofs.«166836_j55508157333731_1_alg».proof.Proof.KI.Reg1
import proofs.«166836_j55508157333731_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev Vin0 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vout0 : (c : Dev nD) → (b : Ref sig .tc) → Buf (Elt F) ((c : Thread nD τ).loc b) := fun c b => W2 m ρ c b
theorem hF0 (c : Dev nD) (w : Fin cfg0.W) : (dat0 (Vin0 m ρ) c).arrAt w cfg0.N = Vout0 m ρ c (Pipeline.arrRef spec0 w) :=
  (W2_arr m ρ c w).symm
theorem hrest0 (c : Dev nD) : ∀ b, b ∉ Finset.univ.image (Pipeline.arrRef spec0) → Vout0 m ρ c b = Vin0 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev Vin1 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (Vin1 m ρ) c).arrAt w cfg1.N
theorem W4_arr (c : Dev nD) (w : Fin cfg1.W) :
    W4 m ρ c (Proc.devRef .tc (Pipeline.arrRef spec1 w)) = (dat1 (Vin1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vout1 : (c : Dev nD) → (b : Ref sig .tc) → Buf (Elt F) ((c : Thread nD τ).loc b) := fun c b => W4 m ρ c b
theorem hF1 (c : Dev nD) (w : Fin cfg1.W) : (dat1 (Vin1 m ρ) c).arrAt w cfg1.N = Vout1 m ρ c (Pipeline.arrRef spec1 w) :=
  (W4_arr m ρ c w).symm
theorem hrest1 (c : Dev nD) : ∀ b, b ∉ Finset.univ.image (Pipeline.arrRef spec1) → Vout1 m ρ c b = Vin1 m ρ c b :=
  fun b hb => W4_of_ne m ρ c b fun w e => hb (Finset.mem_image.mpr ⟨w, Finset.mem_univ _, e⟩)

/-! ## What no host stretch writes, it leaves -/

/-- A buffer none of the first stretch's operations writes is after it as at launch. -/
theorem W1_of (c : Dev nD) (b : Ref sig .tc) (h : b ∉ hostOps0_W) : W1 m ρ c (Proc.devRef .tc b) = W0 m ρ c (Proc.devRef .tc b) :=
  StableHlo.after_of_writes_sub hostOps0 _ hostOps0_writes h
/-- A buffer none of the second stretch's operations writes is after it as at region 0's exit. -/
theorem W3_of (c : Dev nD) (b : Ref sig .tc) (h : b ∉ hostOps1_W) : W3 m ρ c (Proc.devRef .tc b) = W2 m ρ c (Proc.devRef .tc b) :=
  StableHlo.after_of_writes_sub hostOps1 _ hostOps1_writes h

/-- An array a region only reads (an input window's) is at its exit as at its entry. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (Vin0 m ρ) c).arrAt_in w hin _).trans (A_eq0 (Vin0 m ρ) c w))
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (Vin1 m ρ) c).arrAt_in w hin _).trans (A_eq1 (Vin1 m ρ) c w))

/-! ### The arguments end as launched -/

theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <| (W2_of_ne m ρ c main_arg0 (by decide)).trans <| (W1_of m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <| (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <| (W2_of_ne m ρ c main_arg2 (by decide)).trans <| (W1_of m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <| (W2_of_ne m ρ c main_arg3 (by decide)).trans <| (W1_of m ρ c main_arg3 (by decide)).trans rfl
theorem W4_main_arg4 (c : Dev nD) : W4 m ρ c (Proc.devRef .tc main_arg4) = m ((c : Thread nD τ).loc main_arg4) :=
  (W4_of_ne m ρ c main_arg4 (by decide)).trans <| (W3_of m ρ c main_arg4 (by decide)).trans <| (W2_in m ρ c 1 rfl).trans <| (W1_of m ρ c main_arg4 (by decide)).trans rfl
theorem W4_main_arg5 (c : Dev nD) : W4 m ρ c (Proc.devRef .tc main_arg5) = m ((c : Thread nD τ).loc main_arg5) :=
  (W4_of_ne m ρ c main_arg5 (by decide)).trans <| (W3_of m ρ c main_arg5 (by decide)).trans <| (W2_of_ne m ρ c main_arg5 (by decide)).trans <| (W1_of m ρ c main_arg5 (by decide)).trans rfl
theorem W4_main_arg6 (c : Dev nD) : W4 m ρ c (Proc.devRef .tc main_arg6) = m ((c : Thread nD τ).loc main_arg6) :=
  (W4_of_ne m ρ c main_arg6 (by decide)).trans <| (W3_of m ρ c main_arg6 (by decide)).trans <| (W2_in m ρ c 3 rfl).trans <| (W1_of m ρ c main_arg6 (by decide)).trans rfl
theorem W4_main_arg7 (c : Dev nD) : W4 m ρ c (Proc.devRef .tc main_arg7) = m ((c : Thread nD τ).loc main_arg7) :=
  (W4_of_ne m ρ c main_arg7 (by decide)).trans <| (W3_of m ρ c main_arg7 (by decide)).trans <| (W2_of_ne m ρ c main_arg7 (by decide)).trans <| (W1_of m ρ c main_arg7 (by decide)).trans rfl
theorem W4_main_arg8 (c : Dev nD) : W4 m ρ c (Proc.devRef .tc main_arg8) = m ((c : Thread nD τ).loc main_arg8) :=
  (W4_of_ne m ρ c main_arg8 (by decide)).trans <| (W3_of m ρ c main_arg8 (by decide)).trans <| (W2_in m ρ c 5 rfl).trans <| (W1_of m ρ c main_arg8 (by decide)).trans rfl
theorem W4_main_arg9 (c : Dev nD) : W4 m ρ c (Proc.devRef .tc main_arg9) = m ((c : Thread nD τ).loc main_arg9) :=
  (W4_of_ne m ρ c main_arg9 (by decide)).trans <| (W3_of m ρ c main_arg9 (by decide)).trans <| (W2_of_ne m ρ c main_arg9 (by decide)).trans <| (W1_of m ρ c main_arg9 (by decide)).trans rfl
theorem W4_main_arg10 (c : Dev nD) : W4 m ρ c (Proc.devRef .tc main_arg10) = m ((c : Thread nD τ).loc main_arg10) :=
  (W4_of_ne m ρ c main_arg10 (by decide)).trans <| (W3_of m ρ c main_arg10 (by decide)).trans <| (W2_of_ne m ρ c main_arg10 (by decide)).trans <| (W1_of m ρ c main_arg10 (by decide)).trans rfl
theorem W4_main_arg11 (c : Dev nD) : W4 m ρ c (Proc.devRef .tc main_arg11) = m ((c : Thread nD τ).loc main_arg11) :=
  (W4_of_ne m ρ c main_arg11 (by decide)).trans <| (W3_of m ρ c main_arg11 (by decide)).trans <| (W2_of_ne m ρ c main_arg11 (by decide)).trans <| (W1_of m ρ c main_arg11 (by decide)).trans rfl
theorem W4_main_arg12 (c : Dev nD) : W4 m ρ c (Proc.devRef .tc main_arg12) = m ((c : Thread nD τ).loc main_arg12) :=
  (W4_in m ρ c 1 rfl).trans <| (W3_of m ρ c main_arg12 (by decide)).trans <| (W2_of_ne m ρ c main_arg12 (by decide)).trans <| (W1_of m ρ c main_arg12 (by decide)).trans rfl
theorem W4_main_arg13 (c : Dev nD) : W4 m ρ c (Proc.devRef .tc main_arg13) = m ((c : Thread nD τ).loc main_arg13) :=
  (W4_of_ne m ρ c main_arg13 (by decide)).trans <| (W3_of m ρ c main_arg13 (by decide)).trans <| (W2_of_ne m ρ c main_arg13 (by decide)).trans <| (W1_of m ρ c main_arg13 (by decide)).trans rfl
theorem W4_main_arg14 (c : Dev nD) : W4 m ρ c (Proc.devRef .tc main_arg14) = m ((c : Thread nD τ).loc main_arg14) :=
  (W4_in m ρ c 3 rfl).trans <| (W3_of m ρ c main_arg14 (by decide)).trans <| (W2_of_ne m ρ c main_arg14 (by decide)).trans <| (W1_of m ρ c main_arg14 (by decide)).trans rfl
theorem W4_main_arg15 (c : Dev nD) : W4 m ρ c (Proc.devRef .tc main_arg15) = m ((c : Thread nD τ).loc main_arg15) :=
  (W4_of_ne m ρ c main_arg15 (by decide)).trans <| (W3_of m ρ c main_arg15 (by decide)).trans <| (W2_of_ne m ρ c main_arg15 (by decide)).trans <| (W1_of m ρ c main_arg15 (by decide)).trans rfl
theorem W4_main_arg16 (c : Dev nD) : W4 m ρ c (Proc.devRef .tc main_arg16) = m ((c : Thread nD τ).loc main_arg16) :=
  (W4_in m ρ c 5 rfl).trans <| (W3_of m ρ c main_arg16 (by decide)).trans <| (W2_of_ne m ρ c main_arg16 (by decide)).trans <| (W1_of m ρ c main_arg16 (by decide)).trans rfl
theorem W4_main_arg17 (c : Dev nD) : W4 m ρ c (Proc.devRef .tc main_arg17) = m ((c : Thread nD τ).loc main_arg17) :=
  (W4_of_ne m ρ c main_arg17 (by decide)).trans <| (W3_of m ρ c main_arg17 (by decide)).trans <| (W2_of_ne m ρ c main_arg17 (by decide)).trans <| (W1_of m ρ c main_arg17 (by decide)).trans rfl
theorem W4_main_arg18 (c : Dev nD) : W4 m ρ c (Proc.devRef .tc main_arg18) = m ((c : Thread nD τ).loc main_arg18) :=
  (W4_of_ne m ρ c main_arg18 (by decide)).trans <| (W3_of m ρ c main_arg18 (by decide)).trans <| (W2_of_ne m ρ c main_arg18 (by decide)).trans <| (W1_of m ρ c main_arg18 (by decide)).trans rfl
theorem W4_main_arg19 (c : Dev nD) : W4 m ρ c (Proc.devRef .tc main_arg19) = m ((c : Thread nD τ).loc main_arg19) :=
  (W4_of_ne m ρ c main_arg19 (by decide)).trans <| (W3_of m ρ c main_arg19 (by decide)).trans <| (W2_of_ne m ρ c main_arg19 (by decide)).trans <| (W1_of m ρ c main_arg19 (by decide)).trans rfl

/-! ### The results are what the regions' output windows leave -/

/-- The node result is the array region 1's output window leaves. -/
theorem W4_main_v30 (c : Dev nD) : W4 m ρ c (Proc.devRef .tc main_v30) = (dat1 (Vin1 m ρ) c).arrAt 9 cfg1.N :=
  W4_arr m ρ c 9
/-- The edge result is the array region 0's second output window leaves: nothing after region 0 writes it. -/
theorem W4_main_v20_1 (c : Dev nD) : W4 m ρ c (Proc.devRef .tc main_v20_1) = (dat0 (Vin0 m ρ) c).arrAt 10 cfg0.N :=
  (W4_of_ne m ρ c main_v20_1 (by decide)).trans <| (W3_of m ρ c main_v20_1 (by decide)).trans (W2_arr m ρ c 10)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A host stretch as an item of the run, over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W4 m ρ c) ∗ ∃ r, prngReg c r)

/-! ## The regions as items of the run -/

set_option backward.isDefEq.respectTransparency.types false in
/-- Region 0 over the thread state "every unscoped buffer at the boundary's contents, the generator register at some
    state, nothing owed": its arrays split out of the unscoped buffers at entry and put back at the exit contents; the
    generator register goes into the invariant and comes out; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at the exit contents; the
    generator register goes into the invariant and comes out; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's four items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program IS the run of its items. -/
theorem main_run (c : Dev nD) : main (F := F) c = Pipeline.Seg.run (segs m ρ) := (main_chain c).trans (by chain_rfl)

set_option backward.isDefEq.respectTransparency.types false in
/-- From any memory with zero counters every weakly fair execution of the program terminates, nothing faulting, with
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.LibNary3.lean ====
/-
  A host operation over a literal family of THREE operand buffers (a three-way concatenate), read back.

  What such an operation leaves in its result buffer is its function applied to the three operands' contents, each AT
  ITS OWN buffer — not under a binder over the family's index —, so that reading the line of operations back can go on
  into each operand's own contents. The evaluation loop below is the library's, with this reading added.
-/
import Idealize.ShloMosaic.Lib.StableHlo.Run

noncomputable section

namespace Cert.GNN

open Idealize.ShloMosaic Idealize.ShloMosaic.StableHlo

variable {τ : Topo} {sig : RefSig} {Val : EltTy → Type} {x a b y : Ref sig .tc}

/-- The result of an operation over the literal family `![x, a, b]`: its function at the three buffers' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result buffer un-indexed, for the one-pass form below. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The evaluation as ONE simplification pass (each shared operand visited once), for a line whose only operation over
    a family of buffers is over three. -/
macro "after_results_simp3" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Cert.GNN.nary3_result',
      Idealize.ShloMosaic.StableHlo.unaryIndexed_result', Idealize.ShloMosaic.StableHlo.binaryIndexed_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne', Idealize.ShloMosaic.StableHlo.unaryIndexed_result_ne',
      Idealize.ShloMosaic.StableHlo.binaryIndexed_result_ne']))

/-- Read a buffer's contents after a line of host operations: each operation's result at its own buffer is its
    function's value, at any other buffer what was there; a three-operand operation by `nary3_result`. -/
macro "after_results3" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.quaternary_result] | rw [Idealize.ShloMosaic.StableHlo.reshape_result]
               | rw [Idealize.ShloMosaic.StableHlo.binaryIndexed_result] | rw [Cert.GNN.nary3_result]
               | rw [Idealize.ShloMosaic.StableHlo.nary_result] | rw [Idealize.ShloMosaic.StableHlo.unaryIndexed_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.quaternary_result_ne]; rotate_left; decide)
               | (rw [Idealize.ShloMosaic.StableHlo.reshape_result_ne]; rotate_left; decide)
               | (rw [Idealize.ShloMosaic.StableHlo.binaryIndexed_result_ne]; rotate_left; decide)
               | (rw [Idealize.ShloMosaic.StableHlo.nary_result_ne]; rotate_left; decide)
               | (rw [Idealize.ShloMosaic.StableHlo.unaryIndexed_result_ne]; rotate_left; decide))))

end Cert.GNN

end
-- ==== Proof.Bridge.Host0.lean ====
/-
  The idealized kernel's buffers at region 0's entry, in terms of the launch memory: the first host stretch gathers the
  sender and receiver rows, joins them with the edge features, and reshapes each bias, scale and shift vector to one row.
-/
import proofs.«166836_j55508157333731_1_alg».proof.Proof.KI.Run
import proofs.«166836_j55508157333731_1_alg».proof.Proof.Gen.ReferenceIdeal.Read
import proofs.«166836_j55508157333731_1_alg».proof.Proof.LibNary3
import Idealize.ShloMosaic.Lib.ValueIdx
import Idealize.ShloMosaic.Lib.ValueLayout
import Idealize.ShloMosaic.Lib.Pipeline.Value

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen Cert.KernelIdeal.Hand Cert.GNN

variable (m : (ℓ : Loc nD τ sig) → Buf (Elt Ideal) ℓ) (ρ : Dev nD → PrngReg) (c : Dev nD)

/-- The row input of region 0 is the reference's concatenated edge input of the same arguments. -/
theorem edge_in :
    (Vin0 m ρ c main_v14 : S200000x384.Idx → EReal)
      = Cert.ReferenceIdeal.Read.val_main_v14 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps0 (W0 m ρ c) (Proc.devRef .tc main_v14) = _
  after_results_simp3
  rfl

/-- A vector of 128 viewed as one row reads the same entry. -/
theorem rowCast_apply {α : Type} (x : S128.Idx → α) (h : S128.ShapeCasts S1x128) (q : Fin 128) :
    shapeCast S1x128 x h (ix2 0 q) = x (ix1 q) :=
  shapeCast_apply x h (ix2 0 q) (ix1 q) (by
    rw [Shape.rowMajor_val_one, Shape.rowMajor_val_two]
    show q.val = 0 * 128 + q.val
    omega)

/-- The one-row window `main_v15` holds argument 5, feature by feature. -/
theorem row_v15 (q : Fin 128) :
    (Vin0 m ρ c main_v15 : S1x128.Idx → EReal) (ix2 0 q) = (m ((c.tc : Thread nD τ).loc main_arg5)) (ix1 q) := by
  show StableHlo.after hostOps0 (W0 m ρ c) (Proc.devRef .tc main_v15) (ix2 0 q) = _
  after_results_simp3
  exact rowCast_apply _ _ q

/-- The one-row window `main_v16` holds argument 7, feature by feature. -/
theorem row_v16 (q : Fin 128) :
    (Vin0 m ρ c main_v16 : S1x128.Idx → EReal) (ix2 0 q) = (m ((c.tc : Thread nD τ).loc main_arg7)) (ix1 q) := by
  show StableHlo.after hostOps0 (W0 m ρ c) (Proc.devRef .tc main_v16) (ix2 0 q) = _
  after_results_simp3
  exact rowCast_apply _ _ q

/-- The one-row window `main_v17` holds argument 9, feature by feature. -/
theorem row_v17 (q : Fin 128) :
    (Vin0 m ρ c main_v17 : S1x128.Idx → EReal) (ix2 0 q) = (m ((c.tc : Thread nD τ).loc main_arg9)) (ix1 q) := by
  show StableHlo.after hostOps0 (W0 m ρ c) (Proc.devRef .tc main_v17) (ix2 0 q) = _
  after_results_simp3
  exact rowCast_apply _ _ q

/-- The one-row window `main_v18` holds argument 10, feature by feature. -/
theorem row_v18 (q : Fin 128) :
    (Vin0 m ρ c main_v18 : S1x128.Idx → EReal) (ix2 0 q) = (m ((c.tc : Thread nD τ).loc main_arg10)) (ix1 q) := by
  show StableHlo.after hostOps0 (W0 m ρ c) (Proc.devRef .tc main_v18) (ix2 0 q) = _
  after_results_simp3
  exact rowCast_apply _ _ q

/-- The one-row window `main_v19` holds argument 11, feature by feature. -/
theorem row_v19 (q : Fin 128) :
    (Vin0 m ρ c main_v19 : S1x128.Idx → EReal) (ix2 0 q) = (m ((c.tc : Thread nD τ).loc main_arg11)) (ix1 q) := by
  show StableHlo.after hostOps0 (W0 m ρ c) (Proc.devRef .tc main_v19) (ix2 0 q) = _
  after_results_simp3
  exact rowCast_apply _ _ q

/-- No host operation writes the weight argument 4. -/
theorem w_arg4 : (Vin0 m ρ c main_arg4 : S384x128.Idx → EReal) = (m ((c.tc : Thread nD τ).loc main_arg4)) := by
  exact (W1_of m ρ c main_arg4 (by decide)).trans rfl

/-- No host operation writes the weight argument 6. -/
theorem w_arg6 : (Vin0 m ρ c main_arg6 : S128x128.Idx → EReal) = (m ((c.tc : Thread nD τ).loc main_arg6)) := by
  exact (W1_of m ρ c main_arg6 (by decide)).trans rfl

/-- No host operation writes the weight argument 8. -/
theorem w_arg8 : (Vin0 m ρ c main_arg8 : S128x128.Idx → EReal) = (m ((c.tc : Thread nD τ).loc main_arg8)) := by
  exact (W1_of m ρ c main_arg8 (by decide)).trans rfl

end Cert.Bridge

end
-- ==== Proof.Bridge.Host1.lean ====
/-
  The idealized kernel's buffers at region 1's entry: the second host stretch scatter-adds region 0's first output over the
  receivers into a zero array, joins the node features with it, and reshapes each bias, scale and shift vector to one row.
-/
import proofs.«166836_j55508157333731_1_alg».proof.Proof.KI.Run
import proofs.«166836_j55508157333731_1_alg».proof.Proof.Gen.ReferenceIdeal.Read
import proofs.«166836_j55508157333731_1_alg».proof.Proof.LibNary3
import Idealize.ShloMosaic.Lib.ValueIdx
import Idealize.ShloMosaic.Lib.ValueLayout
import Idealize.ShloMosaic.Lib.Pipeline.Value

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen Cert.KernelIdeal.Hand Cert.GNN

variable (m : (ℓ : Loc nD τ sig) → Buf (Elt Ideal) ℓ) (ρ : Dev nD → PrngReg) (c : Dev nD)

namespace Host1

/-! ## Arguments at region 0's exit

No operation of the first host stretch writes an argument and region 0's arrays are not among these, so each is at
region 0's exit what the launch memory holds. -/

/-- The node features. -/
theorem W2_arg0 : W2 m ρ c (Proc.devRef .tc main_arg0) = m ((c.tc : Thread nD τ).loc main_arg0) :=
  (W2_of_ne m ρ c main_arg0 (by decide)).trans <| (W1_of m ρ c main_arg0 (by decide)).trans rfl
/-- The receivers. -/
theorem W2_arg3 : W2 m ρ c (Proc.devRef .tc main_arg3) = m ((c.tc : Thread nD τ).loc main_arg3) :=
  (W2_of_ne m ρ c main_arg3 (by decide)).trans <| (W1_of m ρ c main_arg3 (by decide)).trans rfl
/-- The first bias of the node perceptron. -/
theorem W2_arg13 : W2 m ρ c (Proc.devRef .tc main_arg13) = m ((c.tc : Thread nD τ).loc main_arg13) :=
  (W2_of_ne m ρ c main_arg13 (by decide)).trans <| (W1_of m ρ c main_arg13 (by decide)).trans rfl
/-- Its second bias. -/
theorem W2_arg15 : W2 m ρ c (Proc.devRef .tc main_arg15) = m ((c.tc : Thread nD τ).loc main_arg15) :=
  (W2_of_ne m ρ c main_arg15 (by decide)).trans <| (W1_of m ρ c main_arg15 (by decide)).trans rfl
/-- Its third bias. -/
theorem W2_arg17 : W2 m ρ c (Proc.devRef .tc main_arg17) = m ((c.tc : Thread nD τ).loc main_arg17) :=
  (W2_of_ne m ρ c main_arg17 (by decide)).trans <| (W1_of m ρ c main_arg17 (by decide)).trans rfl
/-- Its scale. -/
theorem W2_arg18 : W2 m ρ c (Proc.devRef .tc main_arg18) = m ((c.tc : Thread nD τ).loc main_arg18) :=
  (W2_of_ne m ρ c main_arg18 (by decide)).trans <| (W1_of m ρ c main_arg18 (by decide)).trans rfl
/-- Its shift. -/
theorem W2_arg19 : W2 m ρ c (Proc.devRef .tc main_arg19) = m ((c.tc : Thread nD τ).loc main_arg19) :=
  (W2_of_ne m ρ c main_arg19 (by decide)).trans <| (W1_of m ρ c main_arg19 (by decide)).trans rfl

/-! ## Two small readings -/

/-- A vector of 128 entries reshaped to one row reads at `(0, q)` its entry `q`. -/
theorem row_of_vec (x : S128.Idx → EReal) (q : Fin 128) :
    shapeCast S1x128 x shapeCasts_S128_S1x128 (ix2 0 q) = x (ix1 q) :=
  shapeCast_a_1a_apply x _ 0 q

/-- Two pieces joined along an axis: equal pieces give equal joins. -/
theorem concat2_congr {α : Type} (t : Shape) (a : Fin t.rank) (s₁ s₂ : Shape) {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

end Host1

open Host1

/-- The row input of region 1 is the reference's concatenated node input, once region 0's first output is the reference's
    edge perceptron output. -/
theorem node_in
    (hE : (W2 m ρ c (Proc.devRef .tc main_v20_0) : S200000x128.Idx → EReal)
      = Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :
    (Vin1 m ρ c main_v24 : S50000x256.Idx → EReal)
      = Cert.ReferenceIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have e0 : StableHlo.after (hostOps1.take 4) (W2 m ρ c) (Proc.devRef .tc main_arg0) = m ((c.tc : Thread nD τ).loc main_arg0) := by
    show StableHlo.after [_, _, _, _] _ _ = _
    after_results_simp3
    exact W2_arg0 m ρ c
  have e23 : StableHlo.after (hostOps1.take 4) (W2 m ρ c) (Proc.devRef .tc main_v23)
      = Cert.ReferenceIdeal.Read.val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
    show StableHlo.after [_, _, _, _] _ _ = _
    after_results_simp3
    rw [W2_arg3 m ρ c, hE]
    rfl
  show StableHlo.after hostOps1 (W2 m ρ c) (Proc.devRef .tc main_v24) = _
  after_results_simp3
  exact concat2_congr _ _ _ _ _ e0 e23

/-- The one-row window `main_v25` holds argument 13, feature by feature. -/
theorem row_v25 (q : Fin 128) :
    (Vin1 m ρ c main_v25 : S1x128.Idx → EReal) (ix2 0 q) = (m ((c.tc : Thread nD τ).loc main_arg13)) (ix1 q) := by
  show StableHlo.after hostOps1 (W2 m ρ c) (Proc.devRef .tc main_v25) (ix2 0 q) = _
  after_results_simp3
  rw [W2_arg13 m ρ c]
  exact row_of_vec _ q

/-- The one-row window `main_v26` holds argument 15, feature by feature. -/
theorem row_v26 (q : Fin 128) :
    (Vin1 m ρ c main_v26 : S1x128.Idx → EReal) (ix2 0 q) = (m ((c.tc : Thread nD τ).loc main_arg15)) (ix1 q) := by
  show StableHlo.after hostOps1 (W2 m ρ c) (Proc.devRef .tc main_v26) (ix2 0 q) = _
  after_results_simp3
  rw [W2_arg15 m ρ c]
  exact row_of_vec _ q

/-- The one-row window `main_v27` holds argument 17, feature by feature. -/
theorem row_v27 (q : Fin 128) :
    (Vin1 m ρ c main_v27 : S1x128.Idx → EReal) (ix2 0 q) = (m ((c.tc : Thread nD τ).loc main_arg17)) (ix1 q) := by
  show StableHlo.after hostOps1 (W2 m ρ c) (Proc.devRef .tc main_v27) (ix2 0 q) = _
  after_results_simp3
  rw [W2_arg17 m ρ c]
  exact row_of_vec _ q

/-- The one-row window `main_v28` holds argument 18, feature by feature. -/
theorem row_v28 (q : Fin 128) :
    (Vin1 m ρ c main_v28 : S1x128.Idx → EReal) (ix2 0 q) = (m ((c.tc : Thread nD τ).loc main_arg18)) (ix1 q) := by
  show StableHlo.after hostOps1 (W2 m ρ c) (Proc.devRef .tc main_v28) (ix2 0 q) = _
  after_results_simp3
  rw [W2_arg18 m ρ c]
  exact row_of_vec _ q

/-- The one-row window `main_v29` holds argument 19, feature by feature. -/
theorem row_v29 (q : Fin 128) :
    (Vin1 m ρ c main_v29 : S1x128.Idx → EReal) (ix2 0 q) = (m ((c.tc : Thread nD τ).loc main_arg19)) (ix1 q) := by
  show StableHlo.after hostOps1 (W2 m ρ c) (Proc.devRef .tc main_v29) (ix2 0 q) = _
  after_results_simp3
  rw [W2_arg19 m ρ c]
  exact row_of_vec _ q

/-- Nothing before region 1 writes the weight argument 12. -/
theorem w_arg12 : (Vin1 m ρ c main_arg12 : S256x128.Idx → EReal) = (m ((c.tc : Thread nD τ).loc main_arg12)) := by
  exact (W3_of m ρ c main_arg12 (by decide)).trans <| (W2_of_ne m ρ c main_arg12 (by decide)).trans <|
    (W1_of m ρ c main_arg12 (by decide)).trans rfl

/-- Nothing before region 1 writes the weight argument 14. -/
theorem w_arg14 : (Vin1 m ρ c main_arg14 : S128x128.Idx → EReal) = (m ((c.tc : Thread nD τ).loc main_arg14)) := by
  exact (W3_of m ρ c main_arg14 (by decide)).trans <| (W2_of_ne m ρ c main_arg14 (by decide)).trans <|
    (W1_of m ρ c main_arg14 (by decide)).trans rfl

/-- Nothing before region 1 writes the weight argument 16. -/
theorem w_arg16 : (Vin1 m ρ c main_arg16 : S128x128.Idx → EReal) = (m ((c.tc : Thread nD τ).loc main_arg16)) := by
  exact (W3_of m ρ c main_arg16 (by decide)).trans <| (W2_of_ne m ρ c main_arg16 (by decide)).trans <|
    (W1_of m ρ c main_arg16 (by decide)).trans rfl

end Cert.Bridge

end
-- ==== Proof.Spec.lean ====
/-
  The row-wise network both programs compute.

  Each multilayer perceptron of the graph-network step acts on one row at a time: a row `x` of `K` input features goes
  through three affine layers of width 128, the first two followed by `max · 0`, and the 128 outputs are normalised
  over the row — subtract the row's mean, multiply by the reciprocal square root of the row's variance plus a small
  constant, scale by `g` and shift by `beta`. Everything is over the extended reals: a product and a row sum are
  exact, the mean and the variance divide the row sum by the float 128, and the three float constants (zero, 128 and
  the small constant) stay as the binary words both programs print, so neither side is ever evaluated.
-/
import Idealize.ShloMosaic.PureOps.Ideal.Laws
import Idealize.ShloMosaic.Lib.ValueIdx

noncomputable section

namespace Cert.GNN

open Idealize.ShloMosaic

/-- One affine layer at output feature `q`: the row against column `q` of the weights, plus the bias. -/
def lin {K : ℕ} (x : Fin K → EReal) (W : Fin K → Fin 128 → EReal) (b : Fin 128 → EReal) (q : Fin 128) : EReal :=
  (∑ k : Fin K, x k * W k q) + b q

/-- The rectifier, against the float zero as printed. -/
def relu (y : EReal) : EReal := max y (Ideal.ofBits .f32 0x00000000#32)

/-- The three affine layers, the first two rectified. -/
def hid {K : ℕ} (x : Fin K → EReal) (W1 : Fin K → Fin 128 → EReal) (b1 : Fin 128 → EReal)
    (W2 : Fin 128 → Fin 128 → EReal) (b2 : Fin 128 → EReal) (W3 : Fin 128 → Fin 128 → EReal) (b3 : Fin 128 → EReal) :
    Fin 128 → EReal :=
  lin (fun j => relu (lin (fun j' => relu (lin x W1 b1 j')) W2 b2 j)) W3 b3

/-- A row's mean: its sum over the float 128. -/
def mean (h : Fin 128 → EReal) : EReal := Ideal.div (∑ k : Fin 128, h k) (Ideal.ofBits .f32 0x43000000#32)

/-- A row's variance: the mean of the squared deviations from the mean. -/
def var (h : Fin 128 → EReal) : EReal :=
  Ideal.div (∑ k : Fin 128, (h k - mean h) * (h k - mean h)) (Ideal.ofBits .f32 0x43000000#32)

/-- The row normalised, scaled and shifted, at feature `q`. -/
def ln (h g beta : Fin 128 → EReal) (q : Fin 128) : EReal :=
  (h q - mean h) * Ideal.rsqrt (var h + Ideal.ofBits .f32 0x3727C5AC#32) * g q + beta q

/-- The whole perceptron on one row. -/
def mlpRow {K : ℕ} (x : Fin K → EReal) (W1 : Fin K → Fin 128 → EReal) (b1 : Fin 128 → EReal)
    (W2 : Fin 128 → Fin 128 → EReal) (b2 : Fin 128 → EReal) (W3 : Fin 128 → Fin 128 → EReal) (b3 : Fin 128 → EReal)
    (g beta : Fin 128 → EReal) : Fin 128 → EReal :=
  ln (hid x W1 b1 W2 b2 W3 b3) g beta

end Cert.GNN

end
-- ==== Proof.KI.Arr.lean ====
/-
  From blocks to arrays, at the ideal values: what each region's output window leaves in its array after the last grid
  point, as ONE function of the region-entry contents of the input windows' arrays. Point `t` of a region works on rows
  [5000 t, 5000 t + 5000): its row-input block is those rows of the input array, every weight and bias window is its whole
  array at every point, and the output block it writes back is those rows of the result; the 40 (or 10) blocks cover
  the array. The body's arithmetic enters only through its reading at an entry, taken here as a hypothesis.
-/
import proofs.«166836_j55508157333731_1_alg».proof.Proof.KI.Reg0
import proofs.«166836_j55508157333731_1_alg».proof.Proof.KI.Reg1
import proofs.«166836_j55508157333731_1_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.GNN

-- the core's buffer contents when the region is entered
variable (V : (c : Dev nD) → (b : Ref sig .tc) → Buf (Elt Ideal) ((c : Thread nD τ).loc b))

/-- The pair of zero offsets is the constant zero function. -/
theorem zero_pair : (![0, 0] : Fin 2 → Nat) = fun _ => 0 :=
  funext fun a => by match a with | ⟨0, _⟩ => rfl | ⟨1, _⟩ => rfl

/-! ## Region 0: the edge perceptron -/

/-- The edge perceptron on row `i` of the region's row input, feature `q`, over the region-entry contents. -/
def edgeRow (c : Dev nD) (i : Fin 200000) (q : Fin 128) : EReal :=
  mlpRow (fun k : Fin 384 => V c main_v14 (ix2 i k)) (fun k q' => V c main_arg4 (ix2 k q')) (fun q' => V c main_v15 (ix2 0 q'))
    (fun k q' => V c main_arg6 (ix2 k q')) (fun q' => V c main_v16 (ix2 0 q')) (fun k q' => V c main_arg8 (ix2 k q')) (fun q' => V c main_v17 (ix2 0 q'))
    (fun q' => V c main_v18 (ix2 0 q')) (fun q' => V c main_v19 (ix2 0 q')) q

/-- What region 0's first output window leaves: the perceptron, row by row. -/
def edgeG9 (c : Dev nD) : S200000x128.Idx → EReal := fun j => edgeRow V c (j 0) (j 1)

/-- What region 0's second output window leaves: the perceptron plus the row input's last 128 columns. -/
def edgeG10 (c : Dev nD) : S200000x128.Idx → EReal := fun j =>
  edgeRow V c (j 0) (j 1) + V c main_v14 (ix2 (j 0) ⟨256 + (j 1).val, by have h : (j 1).val < 128 := (j 1).isLt; omega⟩)

/-! ### Where each window's block sits -/

/-- Region 0's index maps over its 40 points: the row input and the outputs are at block (t, 0), every weight and
    bias window at block (0, 0). -/
theorem edge_index_maps : ∀ t : Fin cfg0.N,
    win0_9.index t (0 : Fin 2) = t.val ∧ win0_9.index t (1 : Fin 2) = 0
    ∧ win0_10.index t (0 : Fin 2) = t.val ∧ win0_10.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The row input's block at point t is rows 5000 t … 5000 t + 4999 of its array. -/
theorem edge_blk0 (c : Dev nD) (t : Fin cfg0.N) (p : Fin 5000) (k : Fin 384) (i : Fin 200000)
    (hi : i.val = t.val * 5000 + p.val) :
    (iblk0 V c 0 t : Vec Ideal S5000x384 .f32) (ix2 p k) = (V c main_v14 : S200000x384.Idx → EReal) (ix2 i k) := by
  obtain ⟨-, -, -, -, e0, e1, -⟩ := edge_index_maps t
  unfold iblk0; rw [View.read_apply]
  show V c main_v14 _ = V c main_v14 _
  congr 1; funext a; apply Fin.ext
  match a with
  | ⟨0, _⟩ => show win0_0.index t (0 : Fin 2) * 5000 + 1 * p.val = i.val; rw [e0, hi]; omega
  | ⟨1, _⟩ => show win0_0.index t (1 : Fin 2) * 384 + 1 * k.val = k.val; rw [e1]; omega

/-- The first layer's weights: the block is the whole array at every point. -/
theorem edge_blk1 (c : Dev nD) (t : Fin cfg0.N) (k : Fin 384) (q : Fin 128) :
    (iblk0 V c 1 t : Vec Ideal S384x128 .f32) (ix2 k q) = (V c main_arg4 : S384x128.Idx → EReal) (ix2 k q) := by
  obtain ⟨-, -, -, -, -, -, e0, e1, -⟩ := edge_index_maps t
  unfold iblk0; rw [View.read_apply]
  show V c main_arg4 _ = V c main_arg4 _
  congr 1; funext a; apply Fin.ext
  match a with
  | ⟨0, _⟩ => show win0_1.index t (0 : Fin 2) * 384 + 1 * k.val = k.val; rw [e0]; omega
  | ⟨1, _⟩ => show win0_1.index t (1 : Fin 2) * 128 + 1 * q.val = q.val; rw [e1]; omega

/-- The first layer's bias row. -/
theorem edge_blk2 (c : Dev nD) (t : Fin cfg0.N) (k : Fin 1) (q : Fin 128) :
    (iblk0 V c 2 t : Vec Ideal S1x128 .f32) (ix2 k q) = (V c main_v15 : S1x128.Idx → EReal) (ix2 k q) := by
  obtain ⟨-, -, -, -, -, -, -, -, e0, e1, -⟩ := edge_index_maps t
  unfold iblk0; rw [View.read_apply]
  show V c main_v15 _ = V c main_v15 _
  congr 1; funext a; apply Fin.ext
  match a with
  | ⟨0, _⟩ => show win0_2.index t (0 : Fin 2) * 1 + 1 * k.val = k.val; rw [e0]; omega
  | ⟨1, _⟩ => show win0_2.index t (1 : Fin 2) * 128 + 1 * q.val = q.val; rw [e1]; omega

/-- The second layer's weights. -/
theorem edge_blk3 (c : Dev nD) (t : Fin cfg0.N) (k : Fin 128) (q : Fin 128) :
    (iblk0 V c 3 t : Vec Ideal S128x128 .f32) (ix2 k q) = (V c main_arg6 : S128x128.Idx → EReal) (ix2 k q) := by
  obtain ⟨-, -, -, -, -, -, -, -, -, -, e0, e1, -⟩ := edge_index_maps t
  unfold iblk0; rw [View.read_apply]
  show V c main_arg6 _ = V c main_arg6 _
  congr 1; funext a; apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The second layer's bias row. -/
theorem edge_blk4 (c : Dev nD) (t : Fin cfg0.N) (k : Fin 1) (q : Fin 128) :
    (iblk0 V c 4 t : Vec Ideal S1x128 .f32) (ix2 k q) = (V c main_v16 : S1x128.Idx → EReal) (ix2 k q) := by
  obtain ⟨-, -, -, -, -, -, -, -, -, -, -, -, e0, e1, -⟩ := edge_index_maps t
  unfold iblk0; rw [View.read_apply]
  show V c main_v16 _ = V c main_v16 _
  congr 1; funext a; apply Fin.ext
  match a with
  | ⟨0, _⟩ => show win0_4.index t (0 : Fin 2) * 1 + 1 * k.val = k.val; rw [e0]; omega
  | ⟨1, _⟩ => show win0_4.index t (1 : Fin 2) * 128 + 1 * q.val = q.val; rw [e1]; omega

/-- The third layer's weights. -/
theorem edge_blk5 (c : Dev nD) (t : Fin cfg0.N) (k : Fin 128) (q : Fin 128) :
    (iblk0 V c 5 t : Vec Ideal S128x128 .f32) (ix2 k q) = (V c main_arg8 : S128x128.Idx → EReal) (ix2 k q) := by
  obtain ⟨-, -, -, -, -, -, -, -, -, -, -, -, -, -, e0, e1, -⟩ := edge_index_maps t
  unfold iblk0; rw [View.read_apply]
  show V c main_arg8 _ = V c main_arg8 _
  congr 1; funext a; apply Fin.ext
  match a with
  | ⟨0, _⟩ => show win0_5.index t (0 : Fin 2) * 128 + 1 * k.val = k.val; rw [e0]; omega
  | ⟨1, _⟩ => show win0_5.index t (1 : Fin 2) * 128 + 1 * q.val = q.val; rw [e1]; omega

/-- The third layer's bias row. -/
theorem edge_blk6 (c : Dev nD) (t : Fin cfg0.N) (k : Fin 1) (q : Fin 128) :
    (iblk0 V c 6 t : Vec Ideal S1x128 .f32) (ix2 k q) = (V c main_v17 : S1x128.Idx → EReal) (ix2 k q) := by
  obtain ⟨-, -, -, -, -, -, -, -, -, -, -, -, -, -, -, -, e0, e1, -⟩ := edge_index_maps t
  unfold iblk0; rw [View.read_apply]
  show V c main_v17 _ = V c main_v17 _
  congr 1; funext a; apply Fin.ext
  match a with
  | ⟨0, _⟩ => show win0_6.index t (0 : Fin 2) * 1 + 1 * k.val = k.val; rw [e0]; omega
  | ⟨1, _⟩ => show win0_6.index t (1 : Fin 2) * 128 + 1 * q.val = q.val; rw [e1]; omega

/-- The normalisation's scale row. -/
theorem edge_blk7 (c : Dev nD) (t : Fin cfg0.N) (k : Fin 1) (q : Fin 128) :
    (iblk0 V c 7 t : Vec Ideal S1x128 .f32) (ix2 k q) = (V c main_v18 : S1x128.Idx → EReal) (ix2 k q) := by
  obtain ⟨-, -, -, -, -, -, -, -, -, -, -, -, -, -, -, -, -, -, e0, e1, -⟩ := edge_index_maps t
  unfold iblk0; rw [View.read_apply]
  show V c main_v18 _ = V c main_v18 _
  congr 1; funext a; apply Fin.ext
  match a with
  | ⟨0, _⟩ => show win0_7.index t (0 : Fin 2) * 1 + 1 * k.val = k.val; rw [e0]; omega
  | ⟨1, _⟩ => show win0_7.index t (1 : Fin 2) * 128 + 1 * q.val = q.val; rw [e1]; omega

/-- The normalisation's shift row. -/
theorem edge_blk8 (c : Dev nD) (t : Fin cfg0.N) (k : Fin 1) (q : Fin 128) :
    (iblk0 V c 8 t : Vec Ideal S1x128 .f32) (ix2 k q) = (V c main_v19 : S1x128.Idx → EReal) (ix2 k q) := by
  obtain ⟨-, -, -, -, -, -, -, -, -, -, -, -, -, -, -, -, -, -, -, -, e0, e1⟩ := edge_index_maps t
  unfold iblk0; rw [View.read_apply]
  show V c main_v19 _ = V c main_v19 _
  congr 1; funext a; apply Fin.ext
  match a with
  | ⟨0, _⟩ => show win0_8.index t (0 : Fin 2) * 1 + 1 * k.val = k.val; rw [e0]; omega
  | ⟨1, _⟩ => show win0_8.index t (1 : Fin 2) * 128 + 1 * q.val = q.val; rw [e1]; omega

/-- Point t's row p of the loaded blocks is row 5000 t + p of the arrays: the perceptron on it is the array's. -/
theorem edge_row_at (c : Dev nD) (t : Fin cfg0.N) (p : Fin 5000) (q : Fin 128) (i : Fin 200000)
    (hi : i.val = t.val * 5000 + p.val) :
    mlpRow (fun k : Fin 384 => (iblk0 V c 0 t : Vec Ideal S5000x384 .f32) (ix2 p k))
        (fun k q' => (iblk0 V c 1 t : Vec Ideal S384x128 .f32) (ix2 k q')) (fun q' => (iblk0 V c 2 t : Vec Ideal S1x128 .f32) (ix2 0 q'))
        (fun k q' => (iblk0 V c 3 t : Vec Ideal S128x128 .f32) (ix2 k q')) (fun q' => (iblk0 V c 4 t : Vec Ideal S1x128 .f32) (ix2 0 q'))
        (fun k q' => (iblk0 V c 5 t : Vec Ideal S128x128 .f32) (ix2 k q')) (fun q' => (iblk0 V c 6 t : Vec Ideal S1x128 .f32) (ix2 0 q'))
        (fun q' => (iblk0 V c 7 t : Vec Ideal S1x128 .f32) (ix2 0 q')) (fun q' => (iblk0 V c 8 t : Vec Ideal S1x128 .f32) (ix2 0 q')) q
      = edgeRow V c i q := by
  unfold edgeRow
  simp only [edge_blk0 V c t p _ i hi, edge_blk1, edge_blk2, edge_blk3, edge_blk4, edge_blk5, edge_blk6, edge_blk7, edge_blk8]

/-! ### The first output -/

/-- The body's first result at entry (p, q) of point t, over the arrays: row 5000 t + p. -/
theorem edge_pay9_at
    (hpay : (∀ (x0 : Vec Ideal S5000x384 .f32) (w1 : Vec Ideal S384x128 .f32) (b1 : Vec Ideal S1x128 .f32)
      (w2 : Vec Ideal S128x128 .f32) (b2 : Vec Ideal S1x128 .f32) (w3 : Vec Ideal S128x128 .f32) (b3 : Vec Ideal S1x128 .f32)
      (g be : Vec Ideal S1x128 .f32) (p : Fin 5000) (q : Fin 128),
      k0_pay1 (F := Ideal) (k0_pay5 x0 w1 b1 w2 b2 w3 b3) (k0_pay6 x0 w1 b1 w2 b2 w3 b3) g be (ix2 p q)
        = mlpRow (fun k : Fin 384 => x0 (ix2 p k)) (fun k q' => w1 (ix2 k q')) (fun q' => b1 (ix2 0 q'))
            (fun k q' => w2 (ix2 k q')) (fun q' => b2 (ix2 0 q')) (fun k q' => w3 (ix2 k q')) (fun q' => b3 (ix2 0 q'))
            (fun q' => g (ix2 0 q')) (fun q' => be (ix2 0 q')) q))
    (c : Dev nD) (t : Fin cfg0.N) (j : S5000x128.Idx) (i : S200000x128.Idx)
    (h0 : (i 0).val = t.val * 5000 + (j 0).val) (h1 : (i 1).val = (j 1).val) :
    k0_pay1 (F := Ideal) (k0_pay5 (iblk0 V c 0 t) (iblk0 V c 1 t) (iblk0 V c 2 t) (iblk0 V c 3 t) (iblk0 V c 4 t) (iblk0 V c 5 t) (iblk0 V c 6 t)) (k0_pay6 (iblk0 V c 0 t) (iblk0 V c 1 t) (iblk0 V c 2 t) (iblk0 V c 3 t) (iblk0 V c 4 t) (iblk0 V c 5 t) (iblk0 V c 6 t))
        (iblk0 V c 7 t) (iblk0 V c 8 t) j = edgeG9 V c i := by
  obtain ⟨p, q, rfl⟩ : ∃ (p : Fin 5000) (q : Fin 128), j = ix2 p q := ⟨j 0, j 1, eq_ix2 j⟩
  refine (hpay _ _ _ _ _ _ _ _ _ p q).trans ?_
  refine (edge_row_at V c t p q (i 0) h0).trans ?_
  show edgeRow V c (i 0) q = edgeRow V c (i 0) (i 1)
  congr 1
  exact Fin.ext h1.symm

/-- What point t writes back through this output window is block t of the whole-array function. -/
theorem edge_flushed9
    (hpay : (∀ (x0 : Vec Ideal S5000x384 .f32) (w1 : Vec Ideal S384x128 .f32) (b1 : Vec Ideal S1x128 .f32)
      (w2 : Vec Ideal S128x128 .f32) (b2 : Vec Ideal S1x128 .f32) (w3 : Vec Ideal S128x128 .f32) (b3 : Vec Ideal S1x128 .f32)
      (g be : Vec Ideal S1x128 .f32) (p : Fin 5000) (q : Fin 128),
      k0_pay1 (F := Ideal) (k0_pay5 x0 w1 b1 w2 b2 w3 b3) (k0_pay6 x0 w1 b1 w2 b2 w3 b3) g be (ix2 p q)
        = mlpRow (fun k : Fin 384 => x0 (ix2 p k)) (fun k q' => w1 (ix2 k q')) (fun q' => b1 (ix2 0 q'))
            (fun k q' => w2 (ix2 k q')) (fun q' => b2 (ix2 0 q')) (fun k q' => w3 (ix2 k q')) (fun q' => b3 (ix2 0 q'))
            (fun q' => g (ix2 0 q')) (fun q' => be (ix2 0 q')) q))
    (c : Dev nD) (t : Fin cfg0.N) :
    (dat0 V c).flushed 9 t = ((cfg0.win 9).blk t).view.read (Elt Ideal) (edgeG9 V c) := by
  show (cfg0.win 9).cut (grid0.coords t) ((dat0 V c).after 9 t) = _
  rw [after0_9]
  unfold out0_9
  rw [View.canon_unit_zero zero_pair]
  simp only [View.ld_unit_zero (S := S5000x384) zero_pair, View.ld_unit_zero (S := S384x128) zero_pair,
    View.ld_unit_zero (S := S1x128) zero_pair, View.ld_unit_zero (S := S128x128) zero_pair]
  obtain ⟨e0, e1, -⟩ := edge_index_maps t
  funext j
  refine edge_pay9_at V hpay c t j (((cfg0.win 9).blk t).view.emb j) ?_ ?_
  · show win0_9.index t (0 : Fin 2) * 5000 + 1 * (j 0).val = t.val * 5000 + (j 0).val
    rw [e0]; omega
  · show win0_9.index t (1 : Fin 2) * 128 + 1 * (j 1).val = (j 1).val
    rw [e1]; omega

/-- An index of this output's array is in point t's block iff each coordinate is in the block's range on its axis. -/
theorem edge_mem_blk9 (t : Fin cfg0.N) (i : S200000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v20_0).slice (win0_9.rect t)).set ↔ _
  rw [View.set_slice_whole, Rect.mem_set_unit]
  exact Iff.rfl

/-- Row r of this output's array is in the block of point r / 5000: the 40 blocks cover the array. -/
theorem edge_cover9 (i : S200000x128.Idx) :
    ∃ t : Fin cfg0.N, (cfg0.win 9).flush t = true ∧ i ∈ ((cfg0.win 9).blk t).view.set := by
  have hi0 : (i 0).val < 200000 := (i 0).isLt
  have hi1 : (i 1).val < 128 := (i 1).isLt
  have hN : cfg0.N = 40 := rfl
  let t : Fin cfg0.N := ⟨(i 0).val / 5000, by rw [hN]; omega⟩
  have ht : t.val = (i 0).val / 5000 := rfl
  obtain ⟨e0, e1, -⟩ := edge_index_maps t
  refine ⟨t, flush0_9 t, ?_⟩
  rw [edge_mem_blk9]
  intro a
  match a with
  | ⟨0, _⟩ => show win0_9.index t (0 : Fin 2) * 5000 ≤ (i 0).val ∧ (i 0).val < win0_9.index t (0 : Fin 2) * 5000 + 5000; rw [e0, ht]; omega
  | ⟨1, _⟩ => show win0_9.index t (1 : Fin 2) * 128 ≤ (i 1).val ∧ (i 1).val < win0_9.index t (1 : Fin 2) * 128 + 128; rw [e1]; omega

theorem arr0_9
    (hpay : (∀ (x0 : Vec Ideal S5000x384 .f32) (w1 : Vec Ideal S384x128 .f32) (b1 : Vec Ideal S1x128 .f32)
      (w2 : Vec Ideal S128x128 .f32) (b2 : Vec Ideal S1x128 .f32) (w3 : Vec Ideal S128x128 .f32) (b3 : Vec Ideal S1x128 .f32)
      (g be : Vec Ideal S1x128 .f32) (p : Fin 5000) (q : Fin 128),
      k0_pay1 (F := Ideal) (k0_pay5 x0 w1 b1 w2 b2 w3 b3) (k0_pay6 x0 w1 b1 w2 b2 w3 b3) g be (ix2 p q)
        = mlpRow (fun k : Fin 384 => x0 (ix2 p k)) (fun k q' => w1 (ix2 k q')) (fun q' => b1 (ix2 0 q'))
            (fun k q' => w2 (ix2 k q')) (fun q' => b2 (ix2 0 q')) (fun k q' => w3 (ix2 k q')) (fun q' => b3 (ix2 0 q'))
            (fun q' => g (ix2 0 q')) (fun q' => be (ix2 0 q')) q))
    (c : Dev nD) : (dat0 V c).arrAt 9 cfg0.N = edgeG9 V c :=
  (dat0 V c).arrAt_eq_of_cover 9 (edgeG9 V c) (fun t _ => edge_flushed9 V hpay c t) edge_cover9

/-! ### The second output -/

/-- The body's second result at entry (p, q) of point t, over the arrays: row 5000 t + p. -/
theorem edge_pay10_at
    (hpay : (∀ (x0 : Vec Ideal S5000x384 .f32) (w1 : Vec Ideal S384x128 .f32) (b1 : Vec Ideal S1x128 .f32)
      (w2 : Vec Ideal S128x128 .f32) (b2 : Vec Ideal S1x128 .f32) (w3 : Vec Ideal S128x128 .f32) (b3 : Vec Ideal S1x128 .f32)
      (g be : Vec Ideal S1x128 .f32) (p : Fin 5000) (q : Fin 128),
      k0_pay2 (F := Ideal) (k0_pay4 x0) (k0_pay5 x0 w1 b1 w2 b2 w3 b3) (k0_pay6 x0 w1 b1 w2 b2 w3 b3) g be (ix2 p q)
        = mlpRow (fun k : Fin 384 => x0 (ix2 p k)) (fun k q' => w1 (ix2 k q')) (fun q' => b1 (ix2 0 q'))
            (fun k q' => w2 (ix2 k q')) (fun q' => b2 (ix2 0 q')) (fun k q' => w3 (ix2 k q')) (fun q' => b3 (ix2 0 q'))
            (fun q' => g (ix2 0 q')) (fun q' => be (ix2 0 q')) q
          + x0 (ix2 p ⟨256 + q.val, by have := q.2; omega⟩)))
    (c : Dev nD) (t : Fin cfg0.N) (j : S5000x128.Idx) (i : S200000x128.Idx)
    (h0 : (i 0).val = t.val * 5000 + (j 0).val) (h1 : (i 1).val = (j 1).val) :
    k0_pay2 (F := Ideal) (k0_pay4 (iblk0 V c 0 t)) (k0_pay5 (iblk0 V c 0 t) (iblk0 V c 1 t) (iblk0 V c 2 t) (iblk0 V c 3 t) (iblk0 V c 4 t) (iblk0 V c 5 t) (iblk0 V c 6 t)) (k0_pay6 (iblk0 V c 0 t) (iblk0 V c 1 t) (iblk0 V c 2 t) (iblk0 V c 3 t) (iblk0 V c 4 t) (iblk0 V c 5 t) (iblk0 V c 6 t))
        (iblk0 V c 7 t) (iblk0 V c 8 t) j = edgeG10 V c i := by
  obtain ⟨p, q, rfl⟩ : ∃ (p : Fin 5000) (q : Fin 128), j = ix2 p q := ⟨j 0, j 1, eq_ix2 j⟩
  refine (hpay _ _ _ _ _ _ _ _ _ p q).trans ?_
  have hq : q = i 1 := Fin.ext h1.symm
  subst hq
  exact congrArg₂ (· + ·) (edge_row_at V c t p (i 1) (i 0) h0)
    (edge_blk0 V c t p ⟨256 + (i 1).val, by have h : (i 1).val < 128 := (i 1).isLt; omega⟩ (i 0) h0)

/-- What point t writes back through this output window is block t of the whole-array function. -/
theorem edge_flushed10
    (hpay : (∀ (x0 : Vec Ideal S5000x384 .f32) (w1 : Vec Ideal S384x128 .f32) (b1 : Vec Ideal S1x128 .f32)
      (w2 : Vec Ideal S128x128 .f32) (b2 : Vec Ideal S1x128 .f32) (w3 : Vec Ideal S128x128 .f32) (b3 : Vec Ideal S1x128 .f32)
      (g be : Vec Ideal S1x128 .f32) (p : Fin 5000) (q : Fin 128),
      k0_pay2 (F := Ideal) (k0_pay4 x0) (k0_pay5 x0 w1 b1 w2 b2 w3 b3) (k0_pay6 x0 w1 b1 w2 b2 w3 b3) g be (ix2 p q)
        = mlpRow (fun k : Fin 384 => x0 (ix2 p k)) (fun k q' => w1 (ix2 k q')) (fun q' => b1 (ix2 0 q'))
            (fun k q' => w2 (ix2 k q')) (fun q' => b2 (ix2 0 q')) (fun k q' => w3 (ix2 k q')) (fun q' => b3 (ix2 0 q'))
            (fun q' => g (ix2 0 q')) (fun q' => be (ix2 0 q')) q
          + x0 (ix2 p ⟨256 + q.val, by have := q.2; omega⟩)))
    (c : Dev nD) (t : Fin cfg0.N) :
    (dat0 V c).flushed 10 t = ((cfg0.win 10).blk t).view.read (Elt Ideal) (edgeG10 V c) := by
  show (cfg0.win 10).cut (grid0.coords t) ((dat0 V c).after 10 t) = _
  rw [after0_10]
  unfold out0_10
  rw [View.canon_unit_zero zero_pair]
  simp only [View.ld_unit_zero (S := S5000x384) zero_pair, View.ld_unit_zero (S := S384x128) zero_pair,
    View.ld_unit_zero (S := S1x128) zero_pair, View.ld_unit_zero (S := S128x128) zero_pair]
  obtain ⟨-, -, e0, e1, -⟩ := edge_index_maps t
  funext j
  refine edge_pay10_at V hpay c t j (((cfg0.win 10).blk t).view.emb j) ?_ ?_
  · show win0_10.index t (0 : Fin 2) * 5000 + 1 * (j 0).val = t.val * 5000 + (j 0).val
    rw [e0]; omega
  · show win0_10.index t (1 : Fin 2) * 128 + 1 * (j 1).val = (j 1).val
    rw [e1]; omega

/-- An index of this output's array is in point t's block iff each coordinate is in the block's range on its axis. -/
theorem edge_mem_blk10 (t : Fin cfg0.N) (i : S200000x128.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v20_1).slice (win0_10.rect t)).set ↔ _
  rw [View.set_slice_whole, Rect.mem_set_unit]
  exact Iff.rfl

/-- Row r of this output's array is in the block of point r / 5000: the 40 blocks cover the array. -/
theorem edge_cover10 (i : S200000x128.Idx) :
    ∃ t : Fin cfg0.N, (cfg0.win 10).flush t = true ∧ i ∈ ((cfg0.win 10).blk t).view.set := by
  have hi0 : (i 0).val < 200000 := (i 0).isLt
  have hi1 : (i 1).val < 128 := (i 1).isLt
  have hN : cfg0.N = 40 := rfl
  let t : Fin cfg0.N := ⟨(i 0).val / 5000, by rw [hN]; omega⟩
  have ht : t.val = (i 0).val / 5000 := rfl
  obtain ⟨-, -, e0, e1, -⟩ := edge_index_maps t
  refine ⟨t, flush0_10 t, ?_⟩
  rw [edge_mem_blk10]
  intro a
  match a with
  | ⟨0, _⟩ => show win0_10.index t (0 : Fin 2) * 5000 ≤ (i 0).val ∧ (i 0).val < win0_10.index t (0 : Fin 2) * 5000 + 5000; rw [e0, ht]; omega
  | ⟨1, _⟩ => show win0_10.index t (1 : Fin 2) * 128 ≤ (i 1).val ∧ (i 1).val < win0_10.index t (1 : Fin 2) * 128 + 128; rw [e1]; omega

theorem arr0_10
    (hpay : (∀ (x0 : Vec Ideal S5000x384 .f32) (w1 : Vec Ideal S384x128 .f32) (b1 : Vec Ideal S1x128 .f32)
      (w2 : Vec Ideal S128x128 .f32) (b2 : Vec Ideal S1x128 .f32) (w3 : Vec Ideal S128x128 .f32) (b3 : Vec Ideal S1x128 .f32)
      (g be : Vec Ideal S1x128 .f32) (p : Fin 5000) (q : Fin 128),
      k0_pay2 (F := Ideal) (k0_pay4 x0) (k0_pay5 x0 w1 b1 w2 b2 w3 b3) (k0_pay6 x0 w1 b1 w2 b2 w3 b3) g be (ix2 p q)
        = mlpRow (fun k : Fin 384 => x0 (ix2 p k)) (fun k q' => w1 (ix2 k q')) (fun q' => b1 (ix2 0 q'))
            (fun k q' => w2 (ix2 k q')) (fun q' => b2 (ix2 0 q')) (fun k q' => w3 (ix2 k q')) (fun q' => b3 (ix2 0 q'))
            (fun q' => g (ix2 0 q')) (fun q' => be (ix2 0 q')) q
          + x0 (ix2 p ⟨256 + q.val, by have := q.2; omega⟩)))
    (c : Dev nD) : (dat0 V c).arrAt 10 cfg0.N = edgeG10 V c :=
  (dat0 V c).arrAt_eq_of_cover 10 (edgeG10 V c) (fun t _ => edge_flushed10 V hpay c t) edge_cover10

/-! ## Region 1: the node perceptron -/

/-- The node perceptron on row `i` of the region's row input, feature `q`, over the region-entry contents. -/
def nodeRow (c : Dev nD) (i : Fin 50000) (q : Fin 128) : EReal :=
  mlpRow (fun k : Fin 256 => V c main_v24 (ix2 i k)) (fun k q' => V c main_arg12 (ix2 k q')) (fun q' => V c main_v25 (ix2 0 q'))
    (fun k q' => V c main_arg14 (ix2 k q')) (fun q' => V c main_v26 (ix2 0 q')) (fun k q' => V c main_arg16 (ix2 k q')) (fun q' => V c main_v27 (ix2 0 q'))
    (fun q' => V c main_v28 (ix2 0 q')) (fun q' => V c main_v29 (ix2 0 q')) q

/-- What region 1's output window leaves: the perceptron plus the row input's first 128 columns. -/
def nodeG (c : Dev nD) : S50000x128.Idx → EReal := fun j =>
  nodeRow V c (j 0) (j 1) + V c main_v24 (ix2 (j 0) ⟨(j 1).val, by have h : (j 1).val < 128 := (j 1).isLt; omega⟩)

/-! ### Where each window's block sits -/

/-- Region 1's index maps over its 10 points: the row input and the output are at block (t, 0), every weight and
    bias window at block (0, 0). -/
theorem node_index_maps : ∀ t : Fin cfg1.N,
    win1_9.index t (0 : Fin 2) = t.val ∧ win1_9.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- The row input's block at point t is rows 5000 t … 5000 t + 4999 of its array. -/
theorem node_blk0 (c : Dev nD) (t : Fin cfg1.N) (p : Fin 5000) (k : Fin 256) (i : Fin 50000)
    (hi : i.val = t.val * 5000 + p.val) :
    (iblk1 V c 0 t : Vec Ideal S5000x256 .f32) (ix2 p k) = (V c main_v24 : S50000x256.Idx → EReal) (ix2 i k) := by
  obtain ⟨-, -, e0, e1, -⟩ := node_index_maps t
  unfold iblk1; rw [View.read_apply]
  show V c main_v24 _ = V c main_v24 _
  congr 1; funext a; apply Fin.ext
  match a with
  | ⟨0, _⟩ => show win1_0.index t (0 : Fin 2) * 5000 + 1 * p.val = i.val; rw [e0, hi]; omega
  | ⟨1, _⟩ => show win1_0.index t (1 : Fin 2) * 256 + 1 * k.val = k.val; rw [e1]; omega

/-- The first layer's weights: the block is the whole array at every point. -/
theorem node_blk1 (c : Dev nD) (t : Fin cfg1.N) (k : Fin 256) (q : Fin 128) :
    (iblk1 V c 1 t : Vec Ideal S256x128 .f32) (ix2 k q) = (V c main_arg12 : S256x128.Idx → EReal) (ix2 k q) := by
  obtain ⟨-, -, -, -, e0, e1, -⟩ := node_index_maps t
  unfold iblk1; rw [View.read_apply]
  show V c main_arg12 _ = V c main_arg12 _
  congr 1; funext a; apply Fin.ext
  match a with
  | ⟨0, _⟩ => show win1_1.index t (0 : Fin 2) * 256 + 1 * k.val = k.val; rw [e0]; omega
  | ⟨1, _⟩ => show win1_1.index t (1 : Fin 2) * 128 + 1 * q.val = q.val; rw [e1]; omega

/-- The first layer's bias row. -/
theorem node_blk2 (c : Dev nD) (t : Fin cfg1.N) (k : Fin 1) (q : Fin 128) :
    (iblk1 V c 2 t : Vec Ideal S1x128 .f32) (ix2 k q) = (V c main_v25 : S1x128.Idx → EReal) (ix2 k q) := by
  obtain ⟨-, -, -, -, -, -, e0, e1, -⟩ := node_index_maps t
  unfold iblk1; rw [View.read_apply]
  show V c main_v25 _ = V c main_v25 _
  congr 1; funext a; apply Fin.ext
  match a with
  | ⟨0, _⟩ => show win1_2.index t (0 : Fin 2) * 1 + 1 * k.val = k.val; rw [e0]; omega
  | ⟨1, _⟩ => show win1_2.index t (1 : Fin 2) * 128 + 1 * q.val = q.val; rw [e1]; omega

/-- The second layer's weights. -/
theorem node_blk3 (c : Dev nD) (t : Fin cfg1.N) (k : Fin 128) (q : Fin 128) :
    (iblk1 V c 3 t : Vec Ideal S128x128 .f32) (ix2 k q) = (V c main_arg14 : S128x128.Idx → EReal) (ix2 k q) := by
  obtain ⟨-, -, -, -, -, -, -, -, e0, e1, -⟩ := node_index_maps t
  unfold iblk1; rw [View.read_apply]
  show V c main_arg14 _ = V c main_arg14 _
  congr 1; funext a; apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The second layer's bias row. -/
theorem node_blk4 (c : Dev nD) (t : Fin cfg1.N) (k : Fin 1) (q : Fin 128) :
    (iblk1 V c 4 t : Vec Ideal S1x128 .f32) (ix2 k q) = (V c main_v26 : S1x128.Idx → EReal) (ix2 k q) := by
  obtain ⟨-, -, -, -, -, -, -, -, -, -, e0, e1, -⟩ := node_index_maps t
  unfold iblk1; rw [View.read_apply]
  show V c main_v26 _ = V c main_v26 _
  congr 1; funext a; apply Fin.ext
  match a with
  | ⟨0, _⟩ => show win1_4.index t (0 : Fin 2) * 1 + 1 * k.val = k.val; rw [e0]; omega
  | ⟨1, _⟩ => show win1_4.index t (1 : Fin 2) * 128 + 1 * q.val = q.val; rw [e1]; omega

/-- The third layer's weights. -/
theorem node_blk5 (c : Dev nD) (t : Fin cfg1.N) (k : Fin 128) (q : Fin 128) :
    (iblk1 V c 5 t : Vec Ideal S128x128 .f32) (ix2 k q) = (V c main_arg16 : S128x128.Idx → EReal) (ix2 k q) := by
  obtain ⟨-, -, -, -, -, -, -, -, -, -, -, -, e0, e1, -⟩ := node_index_maps t
  unfold iblk1; rw [View.read_apply]
  show V c main_arg16 _ = V c main_arg16 _
  congr 1; funext a; apply Fin.ext
  match a with
  | ⟨0, _⟩ => show win1_5.index t (0 : Fin 2) * 128 + 1 * k.val = k.val; rw [e0]; omega
  | ⟨1, _⟩ => show win1_5.index t (1 : Fin 2) * 128 + 1 * q.val = q.val; rw [e1]; omega

/-- The third layer's bias row. -/
theorem node_blk6 (c : Dev nD) (t : Fin cfg1.N) (k : Fin 1) (q : Fin 128) :
    (iblk1 V c 6 t : Vec Ideal S1x128 .f32) (ix2 k q) = (V c main_v27 : S1x128.Idx → EReal) (ix2 k q) := by
  obtain ⟨-, -, -, -, -, -, -, -, -, -, -, -, -, -, e0, e1, -⟩ := node_index_maps t
  unfold iblk1; rw [View.read_apply]
  show V c main_v27 _ = V c main_v27 _
  congr 1; funext a; apply Fin.ext
  match a with
  | ⟨0, _⟩ => show win1_6.index t (0 : Fin 2) * 1 + 1 * k.val = k.val; rw [e0]; omega
  | ⟨1, _⟩ => show win1_6.index t (1 : Fin 2) * 128 + 1 * q.val = q.val; rw [e1]; omega

/-- The normalisation's scale row. -/
theorem node_blk7 (c : Dev nD) (t : Fin cfg1.N) (k : Fin 1) (q : Fin 128) :
    (iblk1 V c 7 t : Vec Ideal S1x128 .f32) (ix2 k q) = (V c main_v28 : S1x128.Idx → EReal) (ix2 k q) := by
  obtain ⟨-, -, -, -, -, -, -, -, -, -, -, -, -, -, -, -, e0, e1, -⟩ := node_index_maps t
  unfold iblk1; rw [View.read_apply]
  show V c main_v28 _ = V c main_v28 _
  congr 1; funext a; apply Fin.ext
  match a with
  | ⟨0, _⟩ => show win1_7.index t (0 : Fin 2) * 1 + 1 * k.val = k.val; rw [e0]; omega
  | ⟨1, _⟩ => show win1_7.index t (1 : Fin 2) * 128 + 1 * q.val = q.val; rw [e1]; omega

/-- The normalisation's shift row. -/
theorem node_blk8 (c : Dev nD) (t : Fin cfg1.N) (k : Fin 1) (q : Fin 128) :
    (iblk1 V c 8 t : Vec Ideal S1x128 .f32) (ix2 k q) = (V c main_v29 : S1x128.Idx → EReal) (ix2 k q) := by
  obtain ⟨-, -, -, -, -, -, -, -, -, -, -, -, -, -, -, -, -, -, e0, e1⟩ := node_index_maps t
  unfold iblk1; rw [View.read_apply]
  show V c main_v29 _ = V c main_v29 _
  congr 1; funext a; apply Fin.ext
  match a with
  | ⟨0, _⟩ => show win1_8.index t (0 : Fin 2) * 1 + 1 * k.val = k.val; rw [e0]; omega
  | ⟨1, _⟩ => show win1_8.index t (1 : Fin 2) * 128 + 1 * q.val = q.val; rw [e1]; omega

/-- Point t's row p of the loaded blocks is row 5000 t + p of the arrays: the perceptron on it is the array's. -/
theorem node_row_at (c : Dev nD) (t : Fin cfg1.N) (p : Fin 5000) (q : Fin 128) (i : Fin 50000)
    (hi : i.val = t.val * 5000 + p.val) :
    mlpRow (fun k : Fin 256 => (iblk1 V c 0 t : Vec Ideal S5000x256 .f32) (ix2 p k))
        (fun k q' => (iblk1 V c 1 t : Vec Ideal S256x128 .f32) (ix2 k q')) (fun q' => (iblk1 V c 2 t : Vec Ideal S1x128 .f32) (ix2 0 q'))
        (fun k q' => (iblk1 V c 3 t : Vec Ideal S128x128 .f32) (ix2 k q')) (fun q' => (iblk1 V c 4 t : Vec Ideal S1x128 .f32) (ix2 0 q'))
        (fun k q' => (iblk1 V c 5 t : Vec Ideal S128x128 .f32) (ix2 k q')) (fun q' => (iblk1 V c 6 t : Vec Ideal S1x128 .f32) (ix2 0 q'))
        (fun q' => (iblk1 V c 7 t : Vec Ideal S1x128 .f32) (ix2 0 q')) (fun q' => (iblk1 V c 8 t : Vec Ideal S1x128 .f32) (ix2 0 q')) q
      = nodeRow V c i q := by
  unfold nodeRow
  simp only [node_blk0 V c t p _ i hi, node_blk1, node_blk2, node_blk3, node_blk4, node_blk5, node_blk6, node_blk7, node_blk8]

/-! ### The output -/

/-- The body's result at entry (p, q) of point t, over the arrays: row 5000 t + p. -/
theorem node_pay9_at
    (hpay : (∀ (x0 : Vec Ideal S5000x256 .f32) (w1 : Vec Ideal S256x128 .f32) (b1 : Vec Ideal S1x128 .f32)
      (w2 : Vec Ideal S128x128 .f32) (b2 : Vec Ideal S1x128 .f32) (w3 : Vec Ideal S128x128 .f32) (b3 : Vec Ideal S1x128 .f32)
      (g be : Vec Ideal S1x128 .f32) (p : Fin 5000) (q : Fin 128),
      k1_pay1 (F := Ideal) (k1_pay3 x0) (k1_pay4 x0 w1 b1 w2 b2 w3 b3) (k1_pay5 x0 w1 b1 w2 b2 w3 b3) g be (ix2 p q)
        = mlpRow (fun k : Fin 256 => x0 (ix2 p k)) (fun k q' => w1 (ix2 k q')) (fun q' => b1 (ix2 0 q'))
            (fun k q' => w2 (ix2 k q')) (fun q' => b2 (ix2 0 q')) (fun k q' => w3 (ix2 k q')) (fun q' => b3 (ix2 0 q'))
            (fun q' => g (ix2 0 q')) (fun q' => be (ix2 0 q')) q
          + x0 (ix2 p ⟨q.val, by have := q.2; omega⟩)))
    (c : Dev nD) (t : Fin cfg1.N) (j : S5000x128.Idx) (i : S50000x128.Idx)
    (h0 : (i 0).val = t.val * 5000 + (j 0).val) (h1 : (i 1).val = (j 1).val) :
    k1_pay1 (F := Ideal) (k1_pay3 (iblk1 V c 0 t)) (k1_pay4 (iblk1 V c 0 t) (iblk1 V c 1 t) (iblk1 V c 2 t) (iblk1 V c 3 t) (iblk1 V c 4 t) (iblk1 V c 5 t) (iblk1 V c 6 t)) (k1_pay5 (iblk1 V c 0 t) (iblk1 V c 1 t) (iblk1 V c 2 t) (iblk1 V c 3 t) (iblk1 V c 4 t) (iblk1 V c 5 t) (iblk1 V c 6 t))
        (iblk1 V c 7 t) (iblk1 V c 8 t) j = nodeG V c i := by
  obtain ⟨p, q, rfl⟩ : ∃ (p : Fin 5000) (q : Fin 128), j = ix2 p q := ⟨j 0, j 1, eq_ix2 j⟩
  refine (hpay _ _ _ _ _ _ _ _ _ p q).trans ?_
  have hq : q = i 1 := Fin.ext h1.symm
  subst hq
  exact congrArg₂ (· + ·) (node_row_at V c t p (i 1) (i 0) h0)
    (node_blk0 V c t p ⟨(i 1).val, by have h : (i 1).val < 128 := (i 1).isLt; omega⟩ (i 0) h0)

/-- What point t writes back through this output window is block t of the whole-array function. -/
theorem node_flushed9
    (hpay : (∀ (x0 : Vec Ideal S5000x256 .f32) (w1 : Vec Ideal S256x128 .f32) (b1 : Vec Ideal S1x128 .f32)
      (w2 : Vec Ideal S128x128 .f32) (b2 : Vec Ideal S1x128 .f32) (w3 : Vec Ideal S128x128 .f32) (b3 : Vec Ideal S1x128 .f32)
      (g be : Vec Ideal S1x128 .f32) (p : Fin 5000) (q : Fin 128),
      k1_pay1 (F := Ideal) (k1_pay3 x0) (k1_pay4 x0 w1 b1 w2 b2 w3 b3) (k1_pay5 x0 w1 b1 w2 b2 w3 b3) g be (ix2 p q)
        = mlpRow (fun k : Fin 256 => x0 (ix2 p k)) (fun k q' => w1 (ix2 k q')) (fun q' => b1 (ix2 0 q'))
            (fun k q' => w2 (ix2 k q')) (fun q' => b2 (ix2 0 q')) (fun k q' => w3 (ix2 k q')) (fun q' => b3 (ix2 0 q'))
            (fun q' => g (ix2 0 q')) (fun q' => be (ix2 0 q')) q
          + x0 (ix2 p ⟨q.val, by have := q.2; omega⟩)))
    (c : Dev nD) (t : Fin cfg1.N) :
    (dat1 V c).flushed 9 t = ((cfg1.win 9).blk t).view.read (Elt Ideal) (nodeG V c) := by
  show (cfg1.win 9).cut (grid1.coords t) ((dat1 V c).after 9 t) = _
  rw [after1_9]
  unfold out1_9
  rw [View.canon_unit_zero zero_pair]
  simp only [View.ld_unit_zero (S := S5000x256) zero_pair, View.ld_unit_zero (S := S256x128) zero_pair,
    View.ld_unit_zero (S := S1x128) zero_pair, View.ld_unit_zero (S := S128x128) zero_pair]
  obtain ⟨e0, e1, -⟩ := node_index_maps t
  funext j
  refine node_pay9_at V hpay c t j (((cfg1.win 9).blk t).view.emb j) ?_ ?_
  · show win1_9.index t (0 : Fin 2) * 5000 + 1 * (j 0).val = t.val * 5000 + (j 0).val
    rw [e0]; omega
  · show win1_9.index t (1 : Fin 2) * 128 + 1 * (j 1).val = (j 1).val
    rw [e1]; omega

/-- An index of this output's array is in point t's block iff each coordinate is in the block's range on its axis. -/
theorem node_mem_blk9 (t : Fin cfg1.N) (i : S50000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v30).slice (win1_9.rect t)).set ↔ _
  rw [View.set_slice_whole, Rect.mem_set_unit]
  exact Iff.rfl

/-- Row r of this output's array is in the block of point r / 5000: the 10 blocks cover the array. -/
theorem node_cover9 (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 10 := rfl
  let t : Fin cfg1.N := ⟨(i 0).val / 5000, by rw [hN]; omega⟩
  have ht : t.val = (i 0).val / 5000 := rfl
  obtain ⟨e0, e1, -⟩ := node_index_maps t
  refine ⟨t, flush1_9 t, ?_⟩
  rw [node_mem_blk9]
  intro a
  match a with
  | ⟨0, _⟩ => show win1_9.index t (0 : Fin 2) * 5000 ≤ (i 0).val ∧ (i 0).val < win1_9.index t (0 : Fin 2) * 5000 + 5000; rw [e0, ht]; omega
  | ⟨1, _⟩ => show win1_9.index t (1 : Fin 2) * 128 ≤ (i 1).val ∧ (i 1).val < win1_9.index t (1 : Fin 2) * 128 + 128; rw [e1]; omega

theorem arr1_9
    (hpay : (∀ (x0 : Vec Ideal S5000x256 .f32) (w1 : Vec Ideal S256x128 .f32) (b1 : Vec Ideal S1x128 .f32)
      (w2 : Vec Ideal S128x128 .f32) (b2 : Vec Ideal S1x128 .f32) (w3 : Vec Ideal S128x128 .f32) (b3 : Vec Ideal S1x128 .f32)
      (g be : Vec Ideal S1x128 .f32) (p : Fin 5000) (q : Fin 128),
      k1_pay1 (F := Ideal) (k1_pay3 x0) (k1_pay4 x0 w1 b1 w2 b2 w3 b3) (k1_pay5 x0 w1 b1 w2 b2 w3 b3) g be (ix2 p q)
        = mlpRow (fun k : Fin 256 => x0 (ix2 p k)) (fun k q' => w1 (ix2 k q')) (fun q' => b1 (ix2 0 q'))
            (fun k q' => w2 (ix2 k q')) (fun q' => b2 (ix2 0 q')) (fun k q' => w3 (ix2 k q')) (fun q' => b3 (ix2 0 q'))
            (fun q' => g (ix2 0 q')) (fun q' => be (ix2 0 q')) q
          + x0 (ix2 p ⟨q.val, by have := q.2; omega⟩)))
    (c : Dev nD) : (dat1 V c).arrAt 9 cfg1.N = nodeG V c :=
  (dat1 V c).arrAt_eq_of_cover 9 (nodeG V c) (fun t _ => node_flushed9 V hpay c t) node_cover9

end Cert.KernelIdeal.Hand

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.KI.Pay0.lean ====
/-
  Region 0's kernel body read at an entry, at the ideal values.

  Every layout operation of the body reads one entry of its operand: a reshape to the same shape is the identity, a
  1×128 row broadcast to 5000×128 reads (0, q), a 5000×1 column broadcast reads (p, 0), a vector of 5000 viewed as a
  column reads its entry p, and the column slice [256, 384) reads (p, 256 + q). A lane sum at row p is the sum over
  the 128 features of that row, and a product into the zero accumulator at (p, q) is the sum over the contracted axis.
  Chained, the three affine layers are the specification's `hid` of row p, the kept column its `mean`, and the
  normalisation its `ln`.
-/
import proofs.«166836_j55508157333731_1_alg».proof.Proof.Gen.KernelIdeal.Skeleton
import proofs.«166836_j55508157333731_1_alg».proof.Proof.Spec
import proofs.«166836_j55508157333731_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen Cert.GNN

section Layout
variable {α : Type}

/-- A row of 128 broadcast down 5000 rows reads its one row. -/
theorem bcastRow_apply (v : S1x128.Idx → α) (h : S1x128.Broadcasts S5000x128) (p : Fin 5000) (q : Fin 128) :
    broadcastTo S5000x128 v h (ix2 p q) = v (ix2 0 q) :=
  broadcastTo_apply v h (ix2 p q) (ix2 0 q) fun a => by
    match a with
    | ⟨0, _⟩ => rfl
    | ⟨1, _⟩ => rfl

/-- A column of 5000 broadcast across 128 lanes reads its one column. -/
theorem bcastCol_apply (v : S5000x1.Idx → α) (h : S5000x1.Broadcasts S5000x128) (p : Fin 5000) (q : Fin 128) :
    broadcastTo S5000x128 v h (ix2 p q) = v (ix2 p 0) :=
  broadcastTo_apply v h (ix2 p q) (ix2 p 0) fun a => by
    match a with
    | ⟨0, _⟩ => rfl
    | ⟨1, _⟩ => rfl

/-- A vector of 5000 viewed as a column reads the same entry. -/
theorem castCol_apply (v : S5000.Idx → α) (h : S5000.ShapeCasts S5000x1) (p : Fin 5000) :
    shapeCast S5000x1 v h (ix2 p 0) = v (ix1 p) :=
  shapeCast_apply v h (ix2 p 0) (ix1 p) (by
    rw [Shape.rowMajor_val_one, Shape.rowMajor_val_two]
    show p.val = p.val * 1 + 0
    omega)

/-- The column slice [256, 384) of a 5000×384 block. -/
theorem sliceTail_apply (x : S5000x384.Idx → α) (h : S5000x384.Slices ![0, 256] S5000x128) (p : Fin 5000) (q : Fin 128) :
    extractStridedSlice S5000x128 ![0, 256] x h (ix2 p q) = x (ix2 p ⟨256 + q.val, by have := q.2; omega⟩) :=
  extractStridedSlice_apply ![0, 256] x h (ix2 p q) (ix2 p ⟨256 + q.val, by have := q.2; omega⟩) fun a => by
    match a with
    | ⟨0, _⟩ => show p.val = 0 + p.val; omega
    | ⟨1, _⟩ => rfl

end Layout

/-- The lane sum of a 5000×128 block at row p. -/
theorem laneSum_apply (src : FVec Ideal S5000x128 .f32) (h : S5000x128.Reduces [1] S5000) (hφ : FKind.Formats .f32)
    (hacc : (0x00000000#32 : BitVec 32) = 0x00000000#32) (p : Fin 5000) :
    multiReduction .add [1] S5000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext a
  refine Fin.ext ?_
  match a with
  | ⟨0, _⟩ => rfl
  | ⟨1, _⟩ => rfl

/-- The printed dimension records of the body's products are the plain "rows by columns" ones. -/
theorem dot384_eq : dot_S5000x384_S384x128_S5000x128_1_0_0_1_n_n = DotDims.plain 5000 384 128 := rfl
theorem dot128_eq : dot_S5000x128_S128x128_S5000x128_1_0_0_1_n_n = DotDims.plain 5000 128 128 := rfl

/-- The first product of the body, into the zero accumulator, at (p, q). -/
theorem mm384_apply {φ₁ φ₂ : FTy} (lhs : FVec Ideal S5000x384 φ₁) (rhs : FVec Ideal S384x128 φ₂) (p : Fin 5000) (q : Fin 128) :
    matmul dot_S5000x384_S384x128_S5000x128_1_0_0_1_n_n none lhs rhs (constant S5000x128 .f32 0x00000000#32) (ix2 p q)
      = ∑ k : Fin 384, lhs (ix2 p k) * rhs (ix2 k q) := by
  rw [dot384_eq]
  exact matmul_plain_zero_apply none lhs rhs p q

/-- The second and third products of the body, into the zero accumulator, at (p, q). -/
theorem mm128_apply {φ₁ φ₂ : FTy} (lhs : FVec Ideal S5000x128 φ₁) (rhs : FVec Ideal S128x128 φ₂) (p : Fin 5000) (q : Fin 128) :
    matmul dot_S5000x128_S128x128_S5000x128_1_0_0_1_n_n none lhs rhs (constant S5000x128 .f32 0x00000000#32) (ix2 p q)
      = ∑ k : Fin 128, lhs (ix2 p k) * rhs (ix2 k q) := by
  rw [dot128_eq]
  exact matmul_plain_zero_apply none lhs rhs p q

/-- A bias row as the body broadcasts it: two trivial reshapes, then down the 5000 rows. -/
theorem bias_apply {α : Type} (b : S1x128.Idx → α) (p : Fin 5000) (q : Fin 128) :
    broadcastTo S5000x128 (shapeCast S1x128 (shapeCast S1x128 b shapeCasts_S1x128_S1x128) shapeCasts_S1x128_S1x128)
        broadcasts_S1x128_S5000x128 (ix2 p q) = b (ix2 0 q) := by
  rw [bcastRow_apply, shapeCast_self, shapeCast_self]

/-- The body's first affine layer (384 features in) at (p, q). -/
theorem lin384_apply (a : FVec Ideal S5000x384 .f32) (w : Vec Ideal S384x128 .f32) (b : Vec Ideal S1x128 .f32)
    (p : Fin 5000) (q : Fin 128) :
    addf (matmul dot_S5000x384_S384x128_S5000x128_1_0_0_1_n_n none (truncf .bf16 a bitsLt_bf16_f32)
          (truncf .bf16 w bitsLt_bf16_f32) (constant S5000x128 .f32 0x00000000#32))
        (broadcastTo S5000x128 (shapeCast S1x128 (shapeCast S1x128 b shapeCasts_S1x128_S1x128) shapeCasts_S1x128_S1x128)
          broadcasts_S1x128_S5000x128) (ix2 p q)
      = lin (fun k => a (ix2 p k)) (fun k q' => w (ix2 k q')) (fun q' => b (ix2 0 q')) q := by
  rw [addf_apply, mm384_apply, bias_apply]
  rfl

/-- The body's second and third affine layers (128 features in) at (p, q). -/
theorem lin128_apply (a : FVec Ideal S5000x128 .f32) (w : Vec Ideal S128x128 .f32) (b : Vec Ideal S1x128 .f32)
    (p : Fin 5000) (q : Fin 128) :
    addf (matmul dot_S5000x128_S128x128_S5000x128_1_0_0_1_n_n none (truncf .bf16 a bitsLt_bf16_f32)
          (truncf .bf16 w bitsLt_bf16_f32) (constant S5000x128 .f32 0x00000000#32))
        (broadcastTo S5000x128 (shapeCast S1x128 (shapeCast S1x128 b shapeCasts_S1x128_S1x128) shapeCasts_S1x128_S1x128)
          broadcasts_S1x128_S5000x128) (ix2 p q)
      = lin (fun k => a (ix2 p k)) (fun k q' => w (ix2 k q')) (fun q' => b (ix2 0 q')) q := by
  rw [addf_apply, mm128_apply, bias_apply]
  rfl

/-- The body's max with the zero splat is the rectifier. -/
theorem relu_apply (y : FVec Ideal S5000x128 .f32) (p : Fin 5000) (q : Fin 128) :
    maximumf y (broadcast S5000x128 (FloatOps.ofBits (F := Ideal) .f32 0x00000000#32)) (ix2 p q) = relu (y (ix2 p q)) := rfl

/-- A reciprocal square root at an index is the element's. -/
theorem rsqrt_apply {s : Shape} {φ : FTy} (a : FVec Ideal s φ) (i : s.Idx) : rsqrt a i = Ideal.rsqrt (a i) := rfl

/-- The lane sum of the body over 128, kept as a column and divided by the float 128, at row p: the row's mean. -/
theorem mean_apply (h5 : FVec Ideal S5000x128 .f32) (p : Fin 5000) :
    divf (shapeCast S5000x1 (multiReduction .add [1] S5000 h5 0x00000000#32 reduces_S5000x128_S5000 (.inl rfl) rfl)
          shapeCasts_S5000_S5000x1)
        (broadcast S5000x1 (FloatOps.ofBits (F := Ideal) .f32 0x43000000#32)) (ix2 p 0)
      = mean (fun k => h5 (ix2 p k)) := by
  rw [divf_apply, castCol_apply, laneSum_apply]
  rfl

/-- The body's normalisation of a block whose kept column is its rows' means, at (p, q). -/
theorem ln_apply (v33 : FVec Ideal S5000x128 .f32) (v37 : FVec Ideal S5000x1 .f32) (g be : Vec Ideal S1x128 .f32)
    (p : Fin 5000) (q : Fin 128) (hm : v37 (ix2 p 0) = mean (fun k => v33 (ix2 p k))) :
    k0_pay1 (F := Ideal) v33 v37 g be (ix2 p q)
      = ln (fun k => v33 (ix2 p k)) (fun q' => g (ix2 0 q')) (fun q' => be (ix2 0 q')) q := by
  unfold k0_pay1
  simp only [addf_apply, mulf_apply, subf_apply, bias_apply, bcastCol_apply, rsqrt_apply, divf_apply, castCol_apply,
    broadcast_apply]
  rw [laneSum_apply]
  simp only [mulf_apply, subf_apply, bcastCol_apply, hm]
  rfl

variable (x0 : Vec Ideal S5000x384 .f32) (w1 : Vec Ideal S384x128 .f32) (b1 : Vec Ideal S1x128 .f32)
  (w2 : Vec Ideal S128x128 .f32) (b2 : Vec Ideal S1x128 .f32) (w3 : Vec Ideal S128x128 .f32) (b3 : Vec Ideal S1x128 .f32)
  (g be : Vec Ideal S1x128 .f32)

/-- The three affine layers of the body at row `p`, feature `q`. -/
theorem hid0_apply (p : Fin 5000) (q : Fin 128) :
    k0_pay5 (F := Ideal) x0 w1 b1 w2 b2 w3 b3 (ix2 p q)
      = hid (fun k : Fin 384 => x0 (ix2 p k)) (fun k q' => w1 (ix2 k q')) (fun q' => b1 (ix2 0 q'))
          (fun k q' => w2 (ix2 k q')) (fun q' => b2 (ix2 0 q')) (fun k q' => w3 (ix2 k q')) (fun q' => b3 (ix2 0 q')) q := by
  unfold k0_pay5 k0_pay3
  refine (lin128_apply _ w3 b3 p q).trans ?_
  unfold hid
  refine congrArg (fun f => lin f _ _ q) (funext fun j => ?_)
  refine (relu_apply _ p j).trans (congrArg relu ?_)
  refine (lin128_apply _ w2 b2 p j).trans ?_
  refine congrArg (fun f => lin f _ _ j) (funext fun j' => ?_)
  refine (relu_apply _ p j').trans (congrArg relu ?_)
  refine (lin384_apply _ w1 b1 p j').trans ?_
  rw [shapeCast_self]

/-- The row mean the body keeps, at row `p`. -/
theorem mean0_apply (p : Fin 5000) :
    k0_pay6 (F := Ideal) x0 w1 b1 w2 b2 w3 b3 (ix2 p 0)
      = mean (hid (fun k : Fin 384 => x0 (ix2 p k)) (fun k q' => w1 (ix2 k q')) (fun q' => b1 (ix2 0 q'))
          (fun k q' => w2 (ix2 k q')) (fun q' => b2 (ix2 0 q')) (fun k q' => w3 (ix2 k q')) (fun q' => b3 (ix2 0 q'))) := by
  unfold k0_pay6
  refine (mean_apply _ p).trans ?_
  exact congrArg mean (funext fun k => hid0_apply x0 w1 b1 w2 b2 w3 b3 p k)

/-- What the body stores in its first output (the perceptron alone), at row `p`, feature `q`. -/
theorem edge_mlp_apply (p : Fin 5000) (q : Fin 128) :
    k0_pay1 (F := Ideal) (k0_pay5 x0 w1 b1 w2 b2 w3 b3) (k0_pay6 x0 w1 b1 w2 b2 w3 b3) g be (ix2 p q)
      = mlpRow (fun k : Fin 384 => x0 (ix2 p k)) (fun k q' => w1 (ix2 k q')) (fun q' => b1 (ix2 0 q'))
          (fun k q' => w2 (ix2 k q')) (fun q' => b2 (ix2 0 q')) (fun k q' => w3 (ix2 k q')) (fun q' => b3 (ix2 0 q'))
          (fun q' => g (ix2 0 q')) (fun q' => be (ix2 0 q')) q := by
  have hrow : (fun k : Fin 128 => k0_pay5 (F := Ideal) x0 w1 b1 w2 b2 w3 b3 (ix2 p k))
      = hid (fun k : Fin 384 => x0 (ix2 p k)) (fun k q' => w1 (ix2 k q')) (fun q' => b1 (ix2 0 q'))
          (fun k q' => w2 (ix2 k q')) (fun q' => b2 (ix2 0 q')) (fun k q' => w3 (ix2 k q')) (fun q' => b3 (ix2 0 q')) :=
    funext fun k => hid0_apply x0 w1 b1 w2 b2 w3 b3 p k
  refine (ln_apply _ _ g be p q ?_).trans ?_
  · rw [hrow]; exact mean0_apply x0 w1 b1 w2 b2 w3 b3 p
  · rw [hrow]; rfl

/-- What the body stores in its second output: the perceptron plus the row's last 128 input features. -/
theorem edge_res_apply (p : Fin 5000) (q : Fin 128) :
    k0_pay2 (F := Ideal) (k0_pay4 x0) (k0_pay5 x0 w1 b1 w2 b2 w3 b3) (k0_pay6 x0 w1 b1 w2 b2 w3 b3) g be (ix2 p q)
      = mlpRow (fun k : Fin 384 => x0 (ix2 p k)) (fun k q' => w1 (ix2 k q')) (fun q' => b1 (ix2 0 q'))
          (fun k q' => w2 (ix2 k q')) (fun q' => b2 (ix2 0 q')) (fun k q' => w3 (ix2 k q')) (fun q' => b3 (ix2 0 q'))
          (fun q' => g (ix2 0 q')) (fun q' => be (ix2 0 q')) q
        + x0 (ix2 p ⟨256 + q.val, by have := q.2; omega⟩) := by
  unfold k0_pay2
  rw [addf_apply, edge_mlp_apply]
  unfold k0_pay4 k0_pay3
  rw [sliceTail_apply, shapeCast_self]

end Cert.KernelIdeal.Hand

end
-- ==== Proof.KI.Pay1.lean ====
/-
  Region 1's kernel body read at an entry, at the ideal values.
-/
import proofs.«166836_j55508157333731_1_alg».proof.Proof.Gen.KernelIdeal.Skeleton
import proofs.«166836_j55508157333731_1_alg».proof.Proof.Spec
import proofs.«166836_j55508157333731_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen Cert.GNN

namespace Pay1

/-! ## The layout operations of the body, read at an entry -/

/-- A bias row, cast to its own shape twice and then repeated over the 5000 rows, reads at `(p, q)` the row's entry `q`. -/
theorem biasRow_apply (b : FVec Ideal S1x128 .f32) (hc : S1x128.ShapeCasts S1x128) (hb : S1x128.Broadcasts S5000x128)
    (p : Fin 5000) (q : Fin 128) :
    broadcastTo S5000x128 (shapeCast S1x128 (shapeCast S1x128 b hc) hc) hb (ix2 p q) = b (ix2 0 q) := by
  rw [shapeCast_self, shapeCast_self]
  exact broadcastTo_1b_ab_apply b hb p q

/-- A column repeated over the 128 lanes reads at `(p, q)` the column's entry of row `p`. -/
theorem colBroadcast_apply (v : FVec Ideal S5000x1 .f32) (hb : S5000x1.Broadcasts S5000x128) (p : Fin 5000) (q : Fin 128) :
    broadcastTo S5000x128 v hb (ix2 p q) = v (ix2 p 0) := by
  refine broadcastTo_apply v hb (ix2 p q) (ix2 p (0 : Fin 1)) fun ax => ?_
  match ax with
  | ⟨0, _⟩ =>
    show p.val = if (5000 : ℕ) = 1 then 0 else p.val
    rw [if_neg (by decide)]
  | ⟨1, _⟩ =>
    show (0 : ℕ) = if (1 : ℕ) = 1 then 0 else q.val
    rw [if_pos rfl]

/-- A vector of 5000 entries cast to one column reads at `(p, 0)` the vector's entry `p`. -/
theorem colCast_apply (v : FVec Ideal S5000 .f32) (hc : S5000.ShapeCasts S5000x1) (p : Fin 5000) :
    shapeCast S5000x1 v hc (ix2 p 0) = v (ix1 p) :=
  shapeCast_apply v hc _ _ (by
    rw [Shape.rowMajor_val_one, Shape.rowMajor_val_two]
    show p.val = p.val * 1 + 0
    omega)

/-- The sum over the lanes, read at row `p`: the sum over `k` of the entries `(p, k)`. -/
theorem laneSum_apply (src : FVec Ideal S5000x128 .f32) (h : S5000x128.Reduces [1] S5000) (hφ : FKind.Formats .f32)
    (hacc : (0x00000000#32 : BitVec 32) = FKind.add.neutral .f32 hφ) (p : Fin 5000) :
    multiReduction (F := Ideal) .add [1] S5000 src 0x00000000#32 h hφ hacc (ix1 p) = ∑ k : Fin 128, src (ix2 p k) :=
  (Ideal.multiReduction_add_single src _ h hφ hacc (ix1 p)).trans
    (Finset.sum_congr rfl fun k _ => congrArg src (funext fun c => Fin.ext (by
      match c with
      | ⟨0, _⟩ => rfl
      | ⟨1, _⟩ => rfl)))

/-- A rows-by-columns product into the zero accumulator, read at `(p, q)`. -/
theorem product_apply {K : ℕ} (D : DotDims ⟨2, ![5000, K]⟩ ⟨2, ![K, 128]⟩ S5000x128) (hD : D = DotDims.plain 5000 K 128)
    (lhs : FVec Ideal ⟨2, ![5000, K]⟩ .bf16) (rhs : FVec Ideal ⟨2, ![K, 128]⟩ .bf16) (p : Fin 5000) (q : Fin 128) :
    matmul D none lhs rhs (constant (F := Ideal) S5000x128 .f32 0x00000000#32) (ix2 p q)
      = ∑ k : Fin K, lhs (ix2 p k) * rhs (ix2 k q) := by
  subst hD
  exact matmul_plain_zero_apply none lhs rhs p q

/-! ## The three affine layers -/

/-- One affine layer of the body: the product of the (narrowed) input with the (narrowed) weights into a zero
    accumulator, plus the bias row repeated over the rows. -/
def layer {K : ℕ} (D : DotDims ⟨2, ![5000, K]⟩ ⟨2, ![K, 128]⟩ S5000x128) (a : FVec Ideal ⟨2, ![5000, K]⟩ .f32)
    (w : FVec Ideal ⟨2, ![K, 128]⟩ .f32) (b : FVec Ideal S1x128 .f32) : FVec Ideal S5000x128 .f32 :=
  addf (matmul D none (truncf .bf16 a bitsLt_bf16_f32) (truncf .bf16 w bitsLt_bf16_f32) (constant S5000x128 .f32 0x00000000#32))
    (broadcastTo S5000x128 (shapeCast S1x128 (shapeCast S1x128 b shapeCasts_S1x128_S1x128) shapeCasts_S1x128_S1x128)
      broadcasts_S1x128_S5000x128)

/-- The rectifier of the body: the maximum with the float zero in every entry. -/
def act (v : FVec Ideal S5000x128 .f32) : FVec Ideal S5000x128 .f32 :=
  maximumf v (broadcast S5000x128 (Scalar.ofBits .f32 0x00000000#32))

/-- A layer at `(p, q)` is `lin` of the input's row `p`: narrowing is the identity on the extended reals, the product
    is the sum over the shared axis, and the bias reads its entry `q`. -/
theorem layer_apply {K : ℕ} (D : DotDims ⟨2, ![5000, K]⟩ ⟨2, ![K, 128]⟩ S5000x128) (hD : D = DotDims.plain 5000 K 128)
    (a : FVec Ideal ⟨2, ![5000, K]⟩ .f32) (w : FVec Ideal ⟨2, ![K, 128]⟩ .f32) (b : FVec Ideal S1x128 .f32)
    (p : Fin 5000) (q : Fin 128) (f : Fin K → EReal) (ha : ∀ k, a (ix2 p k) = f k) :
    layer D a w b (ix2 p q) = lin f (fun k q' => w (ix2 k q')) (fun q' => b (ix2 0 q')) q := by
  unfold layer lin
  refine congrArg₂ (· + ·) ?_ (biasRow_apply b _ _ p q)
  refine (product_apply D hD _ _ p q).trans ?_
  exact Finset.sum_congr rfl fun k _ => congrArg (· * w (ix2 k q)) (ha k)

/-- The rectifier at an entry. -/
theorem act_apply (v : FVec Ideal S5000x128 .f32) (p : Fin 5000) (q : Fin 128) : act v (ix2 p q) = relu (v (ix2 p q)) := rfl

/-- The payload of the three layers is the three layers. -/
theorem k1_pay4_eq (x0 : Vec Ideal S5000x256 .f32) (w1 : Vec Ideal S256x128 .f32) (b1 : Vec Ideal S1x128 .f32)
    (w2 : Vec Ideal S128x128 .f32) (b2 : Vec Ideal S1x128 .f32) (w3 : Vec Ideal S128x128 .f32) (b3 : Vec Ideal S1x128 .f32) :
    k1_pay4 (F := Ideal) x0 w1 b1 w2 b2 w3 b3
      = layer dot_S5000x128_S128x128_S5000x128_1_0_0_1_n_n
          (act (layer dot_S5000x128_S128x128_S5000x128_1_0_0_1_n_n
            (act (layer dot_S5000x256_S256x128_S5000x128_1_0_0_1_n_n
              (shapeCast S5000x256 x0 shapeCasts_S5000x256_S5000x256) w1 b1)) w2 b2)) w3 b3 := rfl

/-! ## The row mean -/

/-- The body's mean over the lanes: the lane sum, as one column, over the float 128 in every row. -/
def meanOf (v : FVec Ideal S5000x128 .f32) : FVec Ideal S5000x1 .f32 :=
  divf (shapeCast S5000x1 (multiReduction (F := Ideal) .add [1] S5000 v 0x00000000#32 reduces_S5000x128_S5000 (.inl rfl) rfl)
      shapeCasts_S5000_S5000x1)
    (broadcast S5000x1 (Scalar.ofBits .f32 0x43000000#32))

/-- It reads at `(p, 0)` the mean of row `p`. -/
theorem meanOf_apply (v : FVec Ideal S5000x128 .f32) (p : Fin 5000) (f : Fin 128 → EReal) (hv : ∀ k, v (ix2 p k) = f k) :
    meanOf v (ix2 p 0) = mean f := by
  unfold meanOf mean
  refine congrArg (fun t => Ideal.div t (Ideal.ofBits .f32 0x43000000#32)) ?_
  refine (colCast_apply _ _ p).trans ?_
  refine (laneSum_apply v _ _ _ p).trans ?_
  exact Finset.sum_congr rfl fun k _ => hv k

/-- The payload of the mean is the mean of the payload of the three layers. -/
theorem k1_pay5_eq (x0 : Vec Ideal S5000x256 .f32) (w1 : Vec Ideal S256x128 .f32) (b1 : Vec Ideal S1x128 .f32)
    (w2 : Vec Ideal S128x128 .f32) (b2 : Vec Ideal S1x128 .f32) (w3 : Vec Ideal S128x128 .f32) (b3 : Vec Ideal S1x128 .f32) :
    k1_pay5 (F := Ideal) x0 w1 b1 w2 b2 w3 b3 = meanOf (k1_pay4 (F := Ideal) x0 w1 b1 w2 b2 w3 b3) := rfl

/-! ## The normalisation -/

/-- The normalising payload at `(p, q)`, for any three operands of which the second reads on row `p` as a row `h` and
    the third at `(p, 0)` as the mean of `h`: the row normalised, scaled and shifted, plus the first operand's entry. The
    deviations' squares have the row's variance as their mean; the reciprocal root is taken of the variance plus the
    small constant in the one column and repeated over the lanes. -/
theorem norm_apply (v2 v33 : FVec Ideal S5000x128 .f32) (v37 : FVec Ideal S5000x1 .f32) (g be : Vec Ideal S1x128 .f32)
    (p : Fin 5000) (q : Fin 128) (h : Fin 128 → EReal) (hh : ∀ k, v33 (ix2 p k) = h k) (hm : v37 (ix2 p 0) = mean h) :
    k1_pay1 (F := Ideal) v2 v33 v37 g be (ix2 p q)
      = ln h (fun q' => g (ix2 0 q')) (fun q' => be (ix2 0 q')) q + v2 (ix2 p q) := by
  have e38 : ∀ k, broadcastTo S5000x128 v37 broadcasts_S5000x1_S5000x128 (ix2 p k) = mean h :=
    fun k => (colBroadcast_apply v37 _ p k).trans hm
  have e39 : ∀ k, subf v33 (broadcastTo S5000x128 v37 broadcasts_S5000x1_S5000x128) (ix2 p k) = h k - mean h :=
    fun k => congrArg₂ (· - ·) (hh k) (e38 k)
  have e44 : meanOf (mulf (subf v33 (broadcastTo S5000x128 v37 broadcasts_S5000x1_S5000x128))
      (subf v33 (broadcastTo S5000x128 v37 broadcasts_S5000x1_S5000x128))) (ix2 p 0) = var h :=
    meanOf_apply _ p (fun k => (h k - mean h) * (h k - mean h)) fun k => congrArg₂ (· * ·) (e39 k) (e39 k)
  have e58 : broadcastTo S5000x128 (rsqrt (addf (meanOf (mulf (subf v33 (broadcastTo S5000x128 v37 broadcasts_S5000x1_S5000x128))
      (subf v33 (broadcastTo S5000x128 v37 broadcasts_S5000x1_S5000x128))))
      (broadcast S5000x1 (Scalar.ofBits .f32 0x3727C5AC#32)))) broadcasts_S5000x1_S5000x128 (ix2 p q)
      = Ideal.rsqrt (var h + Ideal.ofBits .f32 0x3727C5AC#32) :=
    (colBroadcast_apply _ _ p q).trans (congrArg (fun t => Ideal.rsqrt (t + Ideal.ofBits .f32 0x3727C5AC#32)) e44)
  unfold ln
  exact congrArg₂ (· + ·)
    (congrArg₂ (· + ·) (congrArg₂ (· * ·) (congrArg₂ (· * ·) (e39 q) e58) (biasRow_apply g _ _ p q)) (biasRow_apply be _ _ p q))
    rfl

end Pay1

open Pay1

variable (x0 : Vec Ideal S5000x256 .f32) (w1 : Vec Ideal S256x128 .f32) (b1 : Vec Ideal S1x128 .f32)
  (w2 : Vec Ideal S128x128 .f32) (b2 : Vec Ideal S1x128 .f32) (w3 : Vec Ideal S128x128 .f32) (b3 : Vec Ideal S1x128 .f32)
  (g be : Vec Ideal S1x128 .f32)

/-- The three affine layers of the body at row `p`, feature `q`. -/
theorem hid1_apply (p : Fin 5000) (q : Fin 128) :
    k1_pay4 (F := Ideal) x0 w1 b1 w2 b2 w3 b3 (ix2 p q)
      = hid (fun k : Fin 256 => x0 (ix2 p k)) (fun k q' => w1 (ix2 k q')) (fun q' => b1 (ix2 0 q'))
          (fun k q' => w2 (ix2 k q')) (fun q' => b2 (ix2 0 q')) (fun k q' => w3 (ix2 k q')) (fun q' => b3 (ix2 0 q')) q := by
  rw [k1_pay4_eq]
  unfold hid
  refine layer_apply _ rfl _ w3 b3 p q _ fun j => ?_
  refine (act_apply _ p j).trans (congrArg relu ?_)
  refine layer_apply _ rfl _ w2 b2 p j _ fun j' => ?_
  refine (act_apply _ p j').trans (congrArg relu ?_)
  exact layer_apply _ rfl _ w1 b1 p j' _ fun k => congrFun (shapeCast_self x0 _) (ix2 p k)

/-- The row mean the body keeps, at row `p`. -/
theorem mean1_apply (p : Fin 5000) :
    k1_pay5 (F := Ideal) x0 w1 b1 w2 b2 w3 b3 (ix2 p 0)
      = mean (hid (fun k : Fin 256 => x0 (ix2 p k)) (fun k q' => w1 (ix2 k q')) (fun q' => b1 (ix2 0 q'))
          (fun k q' => w2 (ix2 k q')) (fun q' => b2 (ix2 0 q')) (fun k q' => w3 (ix2 k q')) (fun q' => b3 (ix2 0 q'))) := by
  rw [k1_pay5_eq]
  exact meanOf_apply _ p _ fun k => hid1_apply x0 w1 b1 w2 b2 w3 b3 p k

/-- What the body stores in its output: the perceptron plus the row's first 128 input features. -/
theorem node_res_apply (p : Fin 5000) (q : Fin 128) :
    k1_pay1 (F := Ideal) (k1_pay3 x0) (k1_pay4 x0 w1 b1 w2 b2 w3 b3) (k1_pay5 x0 w1 b1 w2 b2 w3 b3) g be (ix2 p q)
      = mlpRow (fun k : Fin 256 => x0 (ix2 p k)) (fun k q' => w1 (ix2 k q')) (fun q' => b1 (ix2 0 q'))
          (fun k q' => w2 (ix2 k q')) (fun q' => b2 (ix2 0 q')) (fun k q' => w3 (ix2 k q')) (fun q' => b3 (ix2 0 q'))
          (fun q' => g (ix2 0 q')) (fun q' => be (ix2 0 q')) q
        + x0 (ix2 p ⟨q.val, by have := q.2; omega⟩) := by
  refine (norm_apply _ _ _ g be p q _ (fun k => hid1_apply x0 w1 b1 w2 b2 w3 b3 p k)
    (mean1_apply x0 w1 b1 w2 b2 w3 b3 p)).trans ?_
  unfold mlpRow
  refine congrArg₂ (fun s t : EReal => s + t) rfl ?_
  unfold k1_pay3 k1_pay2
  refine (slice2_axis1_eq 0 _ _ p q).trans ?_
  refine (congrFun (shapeCast_self x0 _) _).trans ?_
  exact congrArg x0 (congrArg (ix2 p) (Fin.ext (Nat.zero_add _)))

end Cert.KernelIdeal.Hand

end
-- ==== Proof.Ref.Edge.lean ====
/-
  The reference's edge perceptron read at an entry, at the ideal values.
-/
import proofs.«166836_j55508157333731_1_alg».proof.Proof.Gen.ReferenceIdeal.Read
import proofs.«166836_j55508157333731_1_alg».proof.Proof.Spec
import proofs.«166836_j55508157333731_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Idealize.ShloMosaic Idealize.ShloMosaic.ValueIdx Cert.ReferenceIdeal Cert.ReferenceIdeal.Read Cert.GNN

variable (x0 : (⟨S50000x128, .f32⟩ : BufTy).Contents (Elt Ideal)) (x1 : (⟨S200000x128, .f32⟩ : BufTy).Contents (Elt Ideal)) (x2 x3 : (⟨S200000, .i32⟩ : BufTy).Contents (Elt Ideal))
  (x4 : (⟨S384x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
  (x8 : (⟨S128x128, .f32⟩ : BufTy).Contents (Elt Ideal)) (x9 x10 x11 : (⟨S128, .f32⟩ : BufTy).Contents (Elt Ideal))

/-! ## The index maps of the stages at an entry `(i, q)` -/

theorem lidx15 (i : Fin 200000) (q : Fin 128) (k : Fin 384) : lidx_main_v15 (ix2 i q) k = ix2 i k := funext fun a => Fin.ext (by match a with | ⟨0, _⟩ => rfl | ⟨1, _⟩ => rfl)
theorem ridx15 (i : Fin 200000) (q : Fin 128) (k : Fin 384) : ridx_main_v15 (ix2 i q) k = ix2 k q := funext fun a => Fin.ext (by match a with | ⟨0, _⟩ => rfl | ⟨1, _⟩ => rfl)
theorem lidx20 (i : Fin 200000) (q : Fin 128) (k : Fin 128) : lidx_main_v20 (ix2 i q) k = ix2 i k := funext fun a => Fin.ext (by match a with | ⟨0, _⟩ => rfl | ⟨1, _⟩ => rfl)
theorem ridx20 (i : Fin 200000) (q : Fin 128) (k : Fin 128) : ridx_main_v20 (ix2 i q) k = ix2 k q := funext fun a => Fin.ext (by match a with | ⟨0, _⟩ => rfl | ⟨1, _⟩ => rfl)
theorem lidx25 (i : Fin 200000) (q : Fin 128) (k : Fin 128) : lidx_main_v25 (ix2 i q) k = ix2 i k := funext fun a => Fin.ext (by match a with | ⟨0, _⟩ => rfl | ⟨1, _⟩ => rfl)
theorem ridx25 (i : Fin 200000) (q : Fin 128) (k : Fin 128) : ridx_main_v25 (ix2 i q) k = ix2 k q := funext fun a => Fin.ext (by match a with | ⟨0, _⟩ => rfl | ⟨1, _⟩ => rfl)
theorem idx29 (i : Fin 200000) (k : Fin 128) : idx_main_v29 (ix1 i) k = ix2 i k := funext fun a => Fin.ext (by match a with | ⟨0, _⟩ => rfl | ⟨1, _⟩ => rfl)
theorem idx36 (i : Fin 200000) (k : Fin 128) : idx_main_v36 (ix1 i) k = ix2 i k := funext fun a => Fin.ext (by match a with | ⟨0, _⟩ => rfl | ⟨1, _⟩ => rfl)
theorem idx30 (i : Fin 200000) (z : Fin 1) : idx_main_v30 (ix2 i z) = ix1 i := funext fun a => Fin.ext (by match a with | ⟨0, _⟩ => rfl)
theorem idx37 (i : Fin 200000) (z : Fin 1) : idx_main_v37 (ix2 i z) = ix1 i := funext fun a => Fin.ext (by match a with | ⟨0, _⟩ => rfl)
theorem idx33 (i : Fin 200000) (q : Fin 128) : idx_main_v33 (ix2 i q) = ix2 i (⟨0, Nat.one_pos⟩ : Fin 1) := funext fun a => Fin.ext (by match a with | ⟨0, _⟩ => rfl | ⟨1, _⟩ => rfl)
theorem idx40 (i : Fin 200000) (q : Fin 128) : idx_main_v40 (ix2 i q) = ix2 i (⟨0, Nat.one_pos⟩ : Fin 1) := funext fun a => Fin.ext (by match a with | ⟨0, _⟩ => rfl | ⟨1, _⟩ => rfl)
theorem idx45 (i : Fin 200000) (q : Fin 128) : idx_main_v45 (ix2 i q) = ix2 i (⟨0, Nat.one_pos⟩ : Fin 1) := funext fun a => Fin.ext (by match a with | ⟨0, _⟩ => rfl | ⟨1, _⟩ => rfl)

/-! ## The broadcast rows: a bias, the scale and the shift at `(i, q)` are the vector at `q` -/

theorem bias17 (i : Fin 200000) (q : Fin 128) : val_main_v17 (F := Ideal) x5 (ix2 i q) = x5 (ix1 q) := by
  rw [val_main_v17_apply, val_main_v16_apply]
  exact congrArg x5 (funext fun a => Fin.ext (by match a with | ⟨0, _⟩ => rfl))
theorem bias22 (i : Fin 200000) (q : Fin 128) : val_main_v22 (F := Ideal) x7 (ix2 i q) = x7 (ix1 q) := by
  rw [val_main_v22_apply, val_main_v21_apply]
  exact congrArg x7 (funext fun a => Fin.ext (by match a with | ⟨0, _⟩ => rfl))
theorem bias27 (i : Fin 200000) (q : Fin 128) : val_main_v27 (F := Ideal) x9 (ix2 i q) = x9 (ix1 q) := by
  rw [val_main_v27_apply, val_main_v26_apply]
  exact congrArg x9 (funext fun a => Fin.ext (by match a with | ⟨0, _⟩ => rfl))
theorem scale48 (i : Fin 200000) (q : Fin 128) : val_main_v48 (F := Ideal) x10 (ix2 i q) = x10 (ix1 q) := by
  rw [val_main_v48_apply, val_main_v47_apply]
  exact congrArg x10 (funext fun a => Fin.ext (by match a with | ⟨0, _⟩ => rfl))
theorem shift51 (i : Fin 200000) (q : Fin 128) : val_main_v51 (F := Ideal) x11 (ix2 i q) = x11 (ix1 q) := by
  rw [val_main_v51_apply, val_main_v50_apply]
  exact congrArg x11 (funext fun a => Fin.ext (by match a with | ⟨0, _⟩ => rfl))

/-! ## The rectifier's zero -/

theorem zero0 (j : S200000x128.Idx) : val_main_call0_v0 (F := Ideal) j = Ideal.ofBits .f32 0x00000000#32 := by
  rw [val_main_call0_v0_apply, val_main_call0_cst_apply]; rfl
theorem zero1 (j : S200000x128.Idx) : val_main_call1_v0 (F := Ideal) j = Ideal.ofBits .f32 0x00000000#32 := by
  rw [val_main_call1_v0_apply, val_main_call1_cst_apply]; rfl

/-! ## The three affine layers -/

/-- The first affine layer. -/
theorem v18_at (i : Fin 200000) (q : Fin 128) :
    val_main_v18 (F := Ideal) x0 x1 x2 x3 x4 x5 (ix2 i q) = lin (fun k : Fin 384 => val_main_v14 (F := Ideal) x0 x1 x2 x3 (ix2 i k)) (fun k q' => x4 (ix2 k q')) (fun q' => x5 (ix1 q')) q := by
  rw [val_main_v18_apply, val_main_v15_apply, bias17]
  simp only [lidx15, ridx15]
  rfl

/-- The first rectifier. -/
theorem v19_at (i : Fin 200000) (q : Fin 128) :
    val_main_v19 (F := Ideal) x0 x1 x2 x3 x4 x5 (ix2 i q) = relu (val_main_v18 (F := Ideal) x0 x1 x2 x3 x4 x5 (ix2 i q)) := by
  rw [val_main_v19_apply, zero0]; rfl

/-- The second affine layer. -/
theorem v23_at (i : Fin 200000) (q : Fin 128) :
    val_main_v23 (F := Ideal) x0 x1 x2 x3 x4 x5 x6 x7 (ix2 i q)
      = lin (fun j => relu (lin (fun k : Fin 384 => val_main_v14 (F := Ideal) x0 x1 x2 x3 (ix2 i k)) (fun k q' => x4 (ix2 k q')) (fun q' => x5 (ix1 q')) j)) (fun k q' => x6 (ix2 k q')) (fun q' => x7 (ix1 q')) q := by
  rw [val_main_v23_apply, val_main_v20_apply, bias22]
  simp only [lidx20, ridx20, v19_at, v18_at]
  rfl

/-- The second rectifier. -/
theorem v24_at (i : Fin 200000) (q : Fin 128) :
    val_main_v24 (F := Ideal) x0 x1 x2 x3 x4 x5 x6 x7 (ix2 i q) = relu (val_main_v23 (F := Ideal) x0 x1 x2 x3 x4 x5 x6 x7 (ix2 i q)) := by
  rw [val_main_v24_apply, zero1]; rfl

/-- The third affine layer: the three layers together. -/
theorem v28_at (i : Fin 200000) (q : Fin 128) :
    val_main_v28 (F := Ideal) x0 x1 x2 x3 x4 x5 x6 x7 x8 x9 (ix2 i q)
      = hid (fun k : Fin 384 => val_main_v14 (F := Ideal) x0 x1 x2 x3 (ix2 i k)) (fun k q' => x4 (ix2 k q')) (fun q' => x5 (ix1 q')) (fun k q' => x6 (ix2 k q')) (fun q' => x7 (ix1 q')) (fun k q' => x8 (ix2 k q')) (fun q' => x9 (ix1 q')) q := by
  rw [val_main_v28_apply, val_main_v25_apply, bias27]
  simp only [lidx25, ridx25, v24_at, v23_at]
  rfl

/-! ## The row's mean and variance -/

/-- The row sum of the third layer's output. -/
theorem v29_at (i : Fin 200000) :
    val_main_v29 (F := Ideal) x0 x1 x2 x3 x4 x5 x6 x7 x8 x9 (ix1 i) = ∑ k : Fin 128, val_main_v28 (F := Ideal) x0 x1 x2 x3 x4 x5 x6 x7 x8 x9 (ix2 i k) := by
  rw [val_main_v29_apply, val_main_cst_apply]
  simp only [idx29]
  show Ideal.ofBits .f32 0x00000000#32 + _ = _
  rw [Ideal.ofBits_zero_f32, zero_add]

/-- The row mean, kept as a column. -/
theorem v32_at (i : Fin 200000) (z : Fin 1) :
    val_main_v32 (F := Ideal) x0 x1 x2 x3 x4 x5 x6 x7 x8 x9 (ix2 i z) = mean (fun k : Fin 128 => val_main_v28 (F := Ideal) x0 x1 x2 x3 x4 x5 x6 x7 x8 x9 (ix2 i k)) := by
  rw [val_main_v32_apply, val_main_v30_apply, val_main_v31_apply, val_main_cst_3_apply, idx30, v29_at]
  rfl

/-- The deviation from the mean. -/
theorem v34_at (i : Fin 200000) (k : Fin 128) :
    val_main_v34 (F := Ideal) x0 x1 x2 x3 x4 x5 x6 x7 x8 x9 (ix2 i k) = val_main_v28 (F := Ideal) x0 x1 x2 x3 x4 x5 x6 x7 x8 x9 (ix2 i k) - mean (fun k : Fin 128 => val_main_v28 (F := Ideal) x0 x1 x2 x3 x4 x5 x6 x7 x8 x9 (ix2 i k)) := by
  rw [val_main_v34_apply, val_main_v33_apply, idx33, v32_at]
  rfl

/-- The row sum of the squared deviations. -/
theorem v36_at (i : Fin 200000) :
    val_main_v36 (F := Ideal) x0 x1 x2 x3 x4 x5 x6 x7 x8 x9 (ix1 i)
      = ∑ k : Fin 128, (val_main_v28 (F := Ideal) x0 x1 x2 x3 x4 x5 x6 x7 x8 x9 (ix2 i k) - mean (fun k : Fin 128 => val_main_v28 (F := Ideal) x0 x1 x2 x3 x4 x5 x6 x7 x8 x9 (ix2 i k))) * (val_main_v28 (F := Ideal) x0 x1 x2 x3 x4 x5 x6 x7 x8 x9 (ix2 i k) - mean (fun k : Fin 128 => val_main_v28 (F := Ideal) x0 x1 x2 x3 x4 x5 x6 x7 x8 x9 (ix2 i k))) := by
  rw [val_main_v36_apply, val_main_cst_4_apply]
  simp only [idx36, val_main_v35_apply, v34_at]
  show Ideal.ofBits .f32 0x00000000#32 + _ = _
  rw [Ideal.ofBits_zero_f32, zero_add]
  rfl

/-- The row variance, kept as a column. -/
theorem v39_at (i : Fin 200000) (z : Fin 1) :
    val_main_v39 (F := Ideal) x0 x1 x2 x3 x4 x5 x6 x7 x8 x9 (ix2 i z) = var (fun k : Fin 128 => val_main_v28 (F := Ideal) x0 x1 x2 x3 x4 x5 x6 x7 x8 x9 (ix2 i k)) := by
  rw [val_main_v39_apply, val_main_v37_apply, val_main_v38_apply, val_main_cst_5_apply, idx37, v36_at]
  rfl

/-- The normalised row. -/
theorem v46_at (i : Fin 200000) (q : Fin 128) :
    val_main_v46 (F := Ideal) x0 x1 x2 x3 x4 x5 x6 x7 x8 x9 (ix2 i q)
      = (val_main_v28 (F := Ideal) x0 x1 x2 x3 x4 x5 x6 x7 x8 x9 (ix2 i q) - mean (fun k : Fin 128 => val_main_v28 (F := Ideal) x0 x1 x2 x3 x4 x5 x6 x7 x8 x9 (ix2 i k))) * Ideal.rsqrt (var (fun k : Fin 128 => val_main_v28 (F := Ideal) x0 x1 x2 x3 x4 x5 x6 x7 x8 x9 (ix2 i k)) + Ideal.ofBits .f32 0x3727C5AC#32) := by
  rw [val_main_v46_apply, val_main_v41_apply, val_main_v40_apply, idx40, v32_at, val_main_v45_apply, idx45,
    val_main_v44_apply, val_main_v43_apply, v39_at, val_main_v42_apply, val_main_cst_6_apply]
  rfl

/-- The edge perceptron's output (before the residual) at edge `i`, feature `q`: the row-wise network on row `i` of the
    concatenated edge input. -/
theorem v52_apply (i : Fin 200000) (q : Fin 128) :
    val_main_v52 (F := Ideal) x0 x1 x2 x3 x4 x5 x6 x7 x8 x9 x10 x11 (ix2 i q)
      = mlpRow (fun k : Fin 384 => val_main_v14 (F := Ideal) x0 x1 x2 x3 (ix2 i k))
          (fun k q' => x4 (ix2 k q')) (fun q' => x5 (ix1 q'))
          (fun k q' => x6 (ix2 k q')) (fun q' => x7 (ix1 q'))
          (fun k q' => x8 (ix2 k q')) (fun q' => x9 (ix1 q'))
          (fun q' => x10 (ix1 q')) (fun q' => x11 (ix1 q')) q := by
  rw [val_main_v52_apply, val_main_v49_apply, v46_at, scale48, shift51]
  simp only [v28_at]
  rfl

/-- The last 128 columns of the concatenated edge input are the edge features. -/
theorem v14_right (i : Fin 200000) (q : Fin 128) :
    val_main_v14 (F := Ideal) x0 x1 x2 x3 (ix2 i ⟨256 + q.val, by have := q.2; omega⟩) = x1 (ix2 i q) := by
  unfold val_main_v14
  exact concatenate_apply_piece (1 : Fin S200000x384.rank) _ _ _ 2 (by show (2 : Nat) < 3; omega) S200000x128 x1 rfl rfl 256 rfl (ix2 i q)
    (fun b hb => by match b with | ⟨0, _⟩ => rfl | ⟨1, _⟩ => exact absurd rfl hb) rfl

end Cert.ReferenceIdeal.Hand

end
-- ==== Proof.Ref.Node.lean ====
/-
  The reference's node perceptron read at an entry, at the ideal values.
-/
import proofs.«166836_j55508157333731_1_alg».proof.Proof.Gen.ReferenceIdeal.Read
import proofs.«166836_j55508157333731_1_alg».proof.Proof.Spec
import proofs.«166836_j55508157333731_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Idealize.ShloMosaic Idealize.ShloMosaic.ValueIdx Cert.ReferenceIdeal Cert.ReferenceIdeal.Read Cert.GNN

variable (x0 : (⟨S50000x128, .f32⟩ : BufTy).Contents (Elt Ideal)) (x1 : (⟨S200000x128, .f32⟩ : BufTy).Contents (Elt Ideal)) (x2 x3 : (⟨S200000, .i32⟩ : BufTy).Contents (Elt Ideal))
  (x4 : (⟨S384x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
  (x8 : (⟨S128x128, .f32⟩ : BufTy).Contents (Elt Ideal)) (x9 x10 x11 : (⟨S128, .f32⟩ : BufTy).Contents (Elt Ideal))
  (x12 : (⟨S256x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))
  (x16 : (⟨S128x128, .f32⟩ : BufTy).Contents (Elt Ideal)) (x17 x18 x19 : (⟨S128, .f32⟩ : BufTy).Contents (Elt Ideal))

/-! ## Index equations

Each layout stage reads its operand at an index computed from the result's index. At the entry `(i, q)` these composed
indices are the plain coordinate pairs below. -/

theorem lidx57 (i : Fin 50000) (q : Fin 128) (k : Fin 256) : lidx_main_v57 (ix2 i q) k = ix2 i k :=
  funext fun a => Fin.ext (by match a with | ⟨0, _⟩ => rfl | ⟨1, _⟩ => rfl)
theorem ridx57 (i : Fin 50000) (q : Fin 128) (k : Fin 256) : ridx_main_v57 (ix2 i q) k = ix2 k q :=
  funext fun a => Fin.ext (by match a with | ⟨0, _⟩ => rfl | ⟨1, _⟩ => rfl)
theorem lidx62 (i : Fin 50000) (q : Fin 128) (k : Fin 128) : lidx_main_v62 (ix2 i q) k = ix2 i k :=
  funext fun a => Fin.ext (by match a with | ⟨0, _⟩ => rfl | ⟨1, _⟩ => rfl)
theorem ridx62 (i : Fin 50000) (q : Fin 128) (k : Fin 128) : ridx_main_v62 (ix2 i q) k = ix2 k q :=
  funext fun a => Fin.ext (by match a with | ⟨0, _⟩ => rfl | ⟨1, _⟩ => rfl)
theorem lidx67 (i : Fin 50000) (q : Fin 128) (k : Fin 128) : lidx_main_v67 (ix2 i q) k = ix2 i k :=
  funext fun a => Fin.ext (by match a with | ⟨0, _⟩ => rfl | ⟨1, _⟩ => rfl)
theorem ridx67 (i : Fin 50000) (q : Fin 128) (k : Fin 128) : ridx_main_v67 (ix2 i q) k = ix2 k q :=
  funext fun a => Fin.ext (by match a with | ⟨0, _⟩ => rfl | ⟨1, _⟩ => rfl)

/-- A length-128 vector broadcast first to one row and then to every row is read, at `(i, q)`, at `q`. -/
theorem idx_row (i : Fin 50000) (q : Fin 128) : idx_main_v58 (idx_main_v59 (ix2 i q)) = ix1 q :=
  funext fun a => Fin.ext (by match a with | ⟨0, _⟩ => rfl)

/-- The row sum's `k`-th summand sits at `(i, k)`. -/
theorem idx_sum (i : Fin 50000) (k : Fin 128) : idx_main_v71 (ix1 i) k = ix2 i k :=
  funext fun a => Fin.ext (by match a with | ⟨0, _⟩ => rfl | ⟨1, _⟩ => rfl)

/-- The column of row statistics is read from the vector of row statistics at the row. -/
theorem idx_col (i : Fin 50000) : idx_main_v72 (ix2 i (⟨0, Nat.one_pos⟩ : Fin 1)) = ix1 i :=
  funext fun a => Fin.ext (by match a with | ⟨0, _⟩ => rfl)

/-- A column of row statistics broadcast along the features is read, at `(i, q)`, at row `i`. -/
theorem idx_stat (i : Fin 50000) (q : Fin 128) : idx_main_v75 (ix2 i q) = ix2 i (⟨0, Nat.one_pos⟩ : Fin 1) :=
  funext fun a => Fin.ext (by match a with | ⟨0, _⟩ => rfl | ⟨1, _⟩ => rfl)

/-! ## The three affine layers -/

/-- The first affine layer. -/
theorem v60_at (i : Fin 50000) (q : Fin 128) :
    val_main_v60 (F := Ideal) x0 x1 x2 x3 x4 x5 x6 x7 x8 x9 x10 x11 x12 x13 (ix2 i q) = lin (fun k : Fin 256 => val_main_v56 (F := Ideal) x0 x1 x2 x3 x4 x5 x6 x7 x8 x9 x10 x11 (ix2 i k)) (fun k q' => x12 (ix2 k q')) (fun q' => x13 (ix1 q')) q := by
  rw [val_main_v60_apply, val_main_v57_apply, val_main_v59_apply, val_main_v58_apply, idx_row]
  unfold lin
  refine congrArg (· + _) (Finset.sum_congr rfl fun k _ => ?_)
  rw [lidx57, ridx57]

/-- The first rectifier. -/
theorem v61_at (i : Fin 50000) (q : Fin 128) :
    val_main_v61 (F := Ideal) x0 x1 x2 x3 x4 x5 x6 x7 x8 x9 x10 x11 x12 x13 (ix2 i q) = relu (val_main_v60 (F := Ideal) x0 x1 x2 x3 x4 x5 x6 x7 x8 x9 x10 x11 x12 x13 (ix2 i q)) := by
  rw [val_main_v61_apply, val_main_call2_v0_apply, val_main_call2_cst_apply]
  rfl

/-- The second affine layer. -/
theorem v65_at (i : Fin 50000) (q : Fin 128) :
    val_main_v65 (F := Ideal) x0 x1 x2 x3 x4 x5 x6 x7 x8 x9 x10 x11 x12 x13 x14 x15 (ix2 i q)
      = lin (fun k : Fin 128 => val_main_v61 (F := Ideal) x0 x1 x2 x3 x4 x5 x6 x7 x8 x9 x10 x11 x12 x13 (ix2 i k)) (fun k q' => x14 (ix2 k q')) (fun q' => x15 (ix1 q')) q := by
  rw [val_main_v65_apply, val_main_v62_apply, val_main_v64_apply, val_main_v63_apply]
  unfold lin
  refine congrArg₂ (· + ·) (Finset.sum_congr rfl fun k _ => ?_) (congrArg x15 (idx_row i q))
  rw [lidx62, ridx62]

/-- The second rectifier. -/
theorem v66_at (i : Fin 50000) (q : Fin 128) :
    val_main_v66 (F := Ideal) x0 x1 x2 x3 x4 x5 x6 x7 x8 x9 x10 x11 x12 x13 x14 x15 (ix2 i q) = relu (val_main_v65 (F := Ideal) x0 x1 x2 x3 x4 x5 x6 x7 x8 x9 x10 x11 x12 x13 x14 x15 (ix2 i q)) := by
  rw [val_main_v66_apply, val_main_call3_v0_apply, val_main_call3_cst_apply]
  rfl

/-- The third affine layer. -/
theorem v70_at (i : Fin 50000) (q : Fin 128) :
    val_main_v70 (F := Ideal) x0 x1 x2 x3 x4 x5 x6 x7 x8 x9 x10 x11 x12 x13 x14 x15 x16 x17 (ix2 i q)
      = lin (fun k : Fin 128 => val_main_v66 (F := Ideal) x0 x1 x2 x3 x4 x5 x6 x7 x8 x9 x10 x11 x12 x13 x14 x15 (ix2 i k)) (fun k q' => x16 (ix2 k q')) (fun q' => x17 (ix1 q')) q := by
  rw [val_main_v70_apply, val_main_v67_apply, val_main_v69_apply, val_main_v68_apply]
  unfold lin
  refine congrArg₂ (· + ·) (Finset.sum_congr rfl fun k _ => ?_) (congrArg x17 (idx_row i q))
  rw [lidx67, ridx67]

/-- The three layers together: the hidden row of node `i`. -/
theorem v70_hid (i : Fin 50000) :
    (fun k : Fin 128 => val_main_v70 (F := Ideal) x0 x1 x2 x3 x4 x5 x6 x7 x8 x9 x10 x11 x12 x13 x14 x15 x16 x17 (ix2 i k)) = hid (fun k : Fin 256 => val_main_v56 (F := Ideal) x0 x1 x2 x3 x4 x5 x6 x7 x8 x9 x10 x11 (ix2 i k)) (fun k q' => x12 (ix2 k q')) (fun q' => x13 (ix1 q')) (fun k q' => x14 (ix2 k q')) (fun q' => x15 (ix1 q')) (fun k q' => x16 (ix2 k q')) (fun q' => x17 (ix1 q')) := by
  funext q
  rw [v70_at]
  unfold hid
  refine congrArg (fun x => lin x _ _ q) (funext fun j => ?_)
  rw [v66_at, v65_at]
  refine congrArg (fun x => relu (lin x _ _ j)) (funext fun j' => ?_)
  rw [v61_at, v60_at]

/-! ## The row statistics -/

/-- The row mean. -/
theorem v74_at (i : Fin 50000) :
    val_main_v74 (F := Ideal) x0 x1 x2 x3 x4 x5 x6 x7 x8 x9 x10 x11 x12 x13 x14 x15 x16 x17 (ix2 i (⟨0, Nat.one_pos⟩ : Fin 1)) = mean (fun k : Fin 128 => val_main_v70 (F := Ideal) x0 x1 x2 x3 x4 x5 x6 x7 x8 x9 x10 x11 x12 x13 x14 x15 x16 x17 (ix2 i k)) := by
  rw [val_main_v74_apply, val_main_v72_apply, val_main_v73_apply, val_main_cst_9_apply, idx_col, val_main_v71_apply,
    val_main_cst_8_apply]
  unfold mean
  refine congrArg₂ Ideal.div ?_ rfl
  refine (congrArg (· + _) Ideal.ofBits_zero_f32).trans ((zero_add _).trans (Finset.sum_congr rfl fun k _ => ?_))
  rw [idx_sum]

/-- A squared deviation from the row mean. -/
theorem v77_at (i : Fin 50000) (q : Fin 128) :
    val_main_v77 (F := Ideal) x0 x1 x2 x3 x4 x5 x6 x7 x8 x9 x10 x11 x12 x13 x14 x15 x16 x17 (ix2 i q) = (val_main_v70 (F := Ideal) x0 x1 x2 x3 x4 x5 x6 x7 x8 x9 x10 x11 x12 x13 x14 x15 x16 x17 (ix2 i q) - mean (fun k : Fin 128 => val_main_v70 (F := Ideal) x0 x1 x2 x3 x4 x5 x6 x7 x8 x9 x10 x11 x12 x13 x14 x15 x16 x17 (ix2 i k))) * (val_main_v70 (F := Ideal) x0 x1 x2 x3 x4 x5 x6 x7 x8 x9 x10 x11 x12 x13 x14 x15 x16 x17 (ix2 i q) - mean (fun k : Fin 128 => val_main_v70 (F := Ideal) x0 x1 x2 x3 x4 x5 x6 x7 x8 x9 x10 x11 x12 x13 x14 x15 x16 x17 (ix2 i k))) := by
  rw [val_main_v77_apply, val_main_v76_apply, val_main_v75_apply, idx_stat, v74_at]
  rfl

/-- The row variance. -/
theorem v81_at (i : Fin 50000) :
    val_main_v81 (F := Ideal) x0 x1 x2 x3 x4 x5 x6 x7 x8 x9 x10 x11 x12 x13 x14 x15 x16 x17 (ix2 i (⟨0, Nat.one_pos⟩ : Fin 1)) = var (fun k : Fin 128 => val_main_v70 (F := Ideal) x0 x1 x2 x3 x4 x5 x6 x7 x8 x9 x10 x11 x12 x13 x14 x15 x16 x17 (ix2 i k)) := by
  rw [val_main_v81_apply, val_main_v79_apply, val_main_v80_apply, val_main_cst_11_apply, val_main_v78_apply,
    val_main_cst_10_apply]
  unfold var
  refine congrArg₂ Ideal.div ?_ rfl
  refine (congrArg (· + _) Ideal.ofBits_zero_f32).trans ((zero_add _).trans (Finset.sum_congr rfl fun k _ => ?_))
  exact (congrArg _ (idx_sum i k)).trans (v77_at x0 x1 x2 x3 x4 x5 x6 x7 x8 x9 x10 x11 x12 x13 x14 x15 x16 x17 i k)

/-! ## The normalised, scaled and shifted row -/

/-- The layer normalisation of the hidden row. -/
theorem v94_ln (i : Fin 50000) (q : Fin 128) :
    val_main_v94 (F := Ideal) x0 x1 x2 x3 x4 x5 x6 x7 x8 x9 x10 x11 x12 x13 x14 x15 x16 x17 x18 x19 (ix2 i q) = ln (fun k : Fin 128 => val_main_v70 (F := Ideal) x0 x1 x2 x3 x4 x5 x6 x7 x8 x9 x10 x11 x12 x13 x14 x15 x16 x17 (ix2 i k)) (fun q' => x18 (ix1 q')) (fun q' => x19 (ix1 q')) q := by
  rw [val_main_v94_apply, val_main_v91_apply, val_main_v88_apply, val_main_v83_apply, val_main_v82_apply,
    val_main_v87_apply, val_main_v86_apply, val_main_v85_apply, val_main_v84_apply, val_main_cst_12_apply,
    val_main_v90_apply, val_main_v89_apply, val_main_v93_apply, val_main_v92_apply]
  unfold ln
  refine congrArg₂ (· + ·) (congrArg₂ (· * ·) (congrArg₂ (· * ·) ?_ ?_) (congrArg x18 (idx_row i q)))
    (congrArg x19 (idx_row i q))
  · exact congrArg (_ - ·) ((congrArg _ (idx_stat i q)).trans (v74_at x0 x1 x2 x3 x4 x5 x6 x7 x8 x9 x10 x11 x12 x13 x14 x15 x16 x17 i))
  · exact congrArg (fun v => Ideal.rsqrt (v + _)) ((congrArg _ (idx_stat i q)).trans (v81_at x0 x1 x2 x3 x4 x5 x6 x7 x8 x9 x10 x11 x12 x13 x14 x15 x16 x17 i))

/-- The node perceptron's output (before the residual) at node `i`, feature `q`: the row-wise network on row `i` of the
    concatenated node input. -/
theorem v94_apply (i : Fin 50000) (q : Fin 128) :
    val_main_v94 (F := Ideal) x0 x1 x2 x3 x4 x5 x6 x7 x8 x9 x10 x11 x12 x13 x14 x15 x16 x17 x18 x19 (ix2 i q)
      = mlpRow (fun k : Fin 256 => val_main_v56 (F := Ideal) x0 x1 x2 x3 x4 x5 x6 x7 x8 x9 x10 x11 (ix2 i k))
          (fun k q' => x12 (ix2 k q')) (fun q' => x13 (ix1 q'))
          (fun k q' => x14 (ix2 k q')) (fun q' => x15 (ix1 q'))
          (fun k q' => x16 (ix2 k q')) (fun q' => x17 (ix1 q'))
          (fun q' => x18 (ix1 q')) (fun q' => x19 (ix1 q')) q := by
  rw [v94_ln, v70_hid]
  rfl

/-- The first 128 columns of the concatenated node input are the node features. -/
theorem v56_left (i : Fin 50000) (q : Fin 128) :
    val_main_v56 (F := Ideal) x0 x1 x2 x3 x4 x5 x6 x7 x8 x9 x10 x11 (ix2 i ⟨q.val, by have := q.2; omega⟩) = x0 (ix2 i q) := by
  unfold val_main_v56
  refine concatenate_pair_apply_left (t := S50000x256) (s₁ := S50000x128) (s₂ := S50000x128) 1 x0 _ _
    (ix2 i ⟨q.val, by have := q.2; omega⟩) rfl (ix2 i q) fun b => ?_
  match b with
  | ⟨0, _⟩ => rfl
  | ⟨1, _⟩ => rfl

end Cert.ReferenceIdeal.Hand

end
-- ==== Proof.Bridge.lean ====
/-
  The two results of the idealized kernel, as arrays, ARE the reference's two results of the same arguments.

  Region 0 leaves in its first output the edge perceptron row by row, and in its second that plus the edge features; the
  reference's stages say the same of its own edge perceptron, both read against one row-wise network, and the region's
  row input, weights and one-row vectors are the reference's of the same arguments. The scatter-sum and the second
  concatenation are the same host operations on both sides, so region 1's row input is the reference's node input, and
  region 1 leaves the node perceptron plus the node features, as the reference's last stage does.
-/
import proofs.«166836_j55508157333731_1_alg».proof.Proof.Bridge.Host0
import proofs.«166836_j55508157333731_1_alg».proof.Proof.Bridge.Host1
import proofs.«166836_j55508157333731_1_alg».proof.Proof.KI.Arr
import proofs.«166836_j55508157333731_1_alg».proof.Proof.KI.Pay0
import proofs.«166836_j55508157333731_1_alg».proof.Proof.KI.Pay1
import proofs.«166836_j55508157333731_1_alg».proof.Proof.Ref.Edge
import proofs.«166836_j55508157333731_1_alg».proof.Proof.Ref.Node

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Hand Cert.GNN

variable (m : (ℓ : Loc nD τ sig) → Buf (Elt Ideal) ℓ) (ρ : Dev nD → PrngReg) (c : Dev nD)

/-! ## The edge perceptron -/

/-- On row `i` the edge perceptron over region 0's entry contents is the reference's stage at `(i, q)`. -/
theorem edgeRow_eq (i : Fin 200000) (q : Fin 128) :
    edgeRow (Vin0 m ρ) c i q = Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix2 i q) := by
  rw [Cert.ReferenceIdeal.Hand.v52_apply]
  unfold edgeRow
  rw [edge_in m ρ c, w_arg4 m ρ c, w_arg6 m ρ c, w_arg8 m ρ c]
  simp only [row_v15 m ρ c, row_v16 m ρ c, row_v17 m ρ c, row_v18 m ρ c, row_v19 m ρ c]

/-- Region 0's first output array is the reference's edge perceptron output. -/
theorem edge9_eq :
    (dat0 (Vin0 m ρ) c).arrAt 9 cfg0.N = Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [arr0_9 (Vin0 m ρ) (fun x0 w1 b1 w2 b2 w3 b3 g be p q => edge_mlp_apply x0 w1 b1 w2 b2 w3 b3 g be p q) c]
  funext j
  obtain ⟨p, q, rfl⟩ : ∃ (p : Fin 200000) (q : Fin 128), j = ix2 p q := ⟨j 0, j 1, eq_ix2 j⟩
  exact edgeRow_eq m ρ c p q

/-- Region 0's second output array is the reference's edge result. -/
theorem edge10_eq :
    (dat0 (Vin0 m ρ) c).arrAt 10 cfg0.N = Cert.ReferenceIdeal.Read.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [arr0_10 (Vin0 m ρ) (fun x0 w1 b1 w2 b2 w3 b3 g be p q => edge_res_apply x0 w1 b1 w2 b2 w3 b3 g be p q) c]
  funext j
  obtain ⟨p, q, rfl⟩ : ∃ (p : Fin 200000) (q : Fin 128), j = ix2 p q := ⟨j 0, j 1, eq_ix2 j⟩
  show edgeRow (Vin0 m ρ) c p q + Vin0 m ρ c main_v14 (ix2 p ⟨256 + q.val, _⟩)
      = Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix2 p q) + (m ((c.tc : Thread nD τ).loc main_arg1)) (ix2 p q)
  rw [edgeRow_eq m ρ c p q, edge_in m ρ c, Cert.ReferenceIdeal.Hand.v14_right]

/-! ## The node perceptron -/

/-- What the second host stretch scatters: region 0's first output, the reference's edge perceptron output. -/
theorem scattered_eq :
    (W2 m ρ c (Proc.devRef .tc main_v20_0) : S200000x128.Idx → EReal)
      = Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (W2_arr m ρ c 9).trans (edge9_eq m ρ c)

/-- On row `i` the node perceptron over region 1's entry contents is the reference's stage at `(i, q)`. -/
theorem nodeRow_eq (i : Fin 50000) (q : Fin 128) :
    nodeRow (Vin1 m ρ) c i q = Cert.ReferenceIdeal.Read.val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (ix2 i q) := by
  rw [Cert.ReferenceIdeal.Hand.v94_apply]
  unfold nodeRow
  rw [node_in m ρ c (scattered_eq m ρ c), w_arg12 m ρ c, w_arg14 m ρ c, w_arg16 m ρ c]
  simp only [row_v25 m ρ c, row_v26 m ρ c, row_v27 m ρ c, row_v28 m ρ c, row_v29 m ρ c]

/-- Region 1's output array is the reference's node result. -/
theorem node_eq :
    (dat1 (Vin1 m ρ) c).arrAt 9 cfg1.N = Cert.ReferenceIdeal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [arr1_9 (Vin1 m ρ) (fun x0 w1 b1 w2 b2 w3 b3 g be p q => node_res_apply x0 w1 b1 w2 b2 w3 b3 g be p q) c]
  funext j
  obtain ⟨p, q, rfl⟩ : ∃ (p : Fin 50000) (q : Fin 128), j = ix2 p q := ⟨j 0, j 1, eq_ix2 j⟩
  show nodeRow (Vin1 m ρ) c p q + Vin1 m ρ c main_v24 (ix2 p ⟨q.val, _⟩)
      = Cert.ReferenceIdeal.Read.val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (ix2 p q) + (m ((c.tc : Thread nD τ).loc main_arg0)) (ix2 p q)
  rw [nodeRow_eq m ρ c p q, node_in m ρ c (scattered_eq m ρ c), Cert.ReferenceIdeal.Hand.v56_left]

end Cert.Bridge

end
-- ==== Proof.lean ====
/-
  The certificate of a graph-network step: two perceptron kernels (an edge update tiled over 40 blocks of 5000 edges and a
  node update tiled over 10 blocks of 5000 nodes) around host gathers, a scatter-sum and two concatenations, against the
  same step written in plain array operations.

  Frames. The kernel program, read at the word level and at the ideal values, runs as four items — host stretch, region,
  host stretch, region —; each region's body overwrites its output blocks whole from its input blocks, every weight window
  keeps its one block, and every weakly fair execution terminates with every buffer at a fold of the launch memory through
  the items. No item writes an argument, so the arguments end as launched. The reference is a line of host operations.

  Values, at the ideal values. Both programs apply ONE row-wise network: three affine layers with two rectifiers, then a
  normalisation over the 128 features with the same float constants on both sides. The kernel's matrix products into a
  zero accumulator and the host's general products are the same sums over the shared axis; a change of float format is the
  identity; the kernel's lane sums and the host's reductions are the same sums; tiling by rows changes nothing because
  every operation acts within a row. The gathers, the scatter-sum and the concatenations are the same host operations on
  both sides, applied to equal arrays. So the edge result (perceptron plus edge features) and the node result (perceptron
  of the node features joined with the scattered edge perceptron, plus node features) agree entry by entry; no law used
  needs finiteness.

  Nothing was rewritten by the idealisation, so that conjunct is trivial.
-/
import proofs.«166836_j55508157333731_1_alg».proof.Defs
import proofs.«166836_j55508157333731_1_alg».proof.Proof.Gen.Kernel
import proofs.«166836_j55508157333731_1_alg».proof.Proof.Gen.KernelIdeal
import proofs.«166836_j55508157333731_1_alg».proof.Proof.Gen.ReferenceIdeal
import proofs.«166836_j55508157333731_1_alg».proof.Proof.Gen.ReferenceIdeal.Run
import proofs.«166836_j55508157333731_1_alg».proof.Proof.Gen.ReferenceIdeal.Read
import proofs.«166836_j55508157333731_1_alg».proof.Proof.Gen.Pre_finite_inputs
import proofs.«166836_j55508157333731_1_alg».proof.Proof.K.Run
import proofs.«166836_j55508157333731_1_alg».proof.Proof.KI.Run
import proofs.«166836_j55508157333731_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs, and no item of it writes an argument. -/
theorem frame_k : Cert.frame_Kernel (hKernel := Cert.Kernel.Gen.facts) (hPre_finite_inputs := Cert.Pre_finite_inputs.Gen.facts) :=
  fun m ρ _ => (θ_run Cert.Kernel.defs _ _).mono (fun r h c =>
    ⟨(h c _ (Cert.Kernel.Hand.mem_uc Cert.Kernel.main_arg0 (by decide))).trans (Cert.Kernel.Hand.W4_main_arg0 m ρ c),
      (h c _ (Cert.Kernel.Hand.mem_uc Cert.Kernel.main_arg1 (by decide))).trans (Cert.Kernel.Hand.W4_main_arg1 m ρ c),
      (h c _ (Cert.Kernel.Hand.mem_uc Cert.Kernel.main_arg2 (by decide))).trans (Cert.Kernel.Hand.W4_main_arg2 m ρ c),
      (h c _ (Cert.Kernel.Hand.mem_uc Cert.Kernel.main_arg3 (by decide))).trans (Cert.Kernel.Hand.W4_main_arg3 m ρ c),
      (h c _ (Cert.Kernel.Hand.mem_uc Cert.Kernel.main_arg4 (by decide))).trans (Cert.Kernel.Hand.W4_main_arg4 m ρ c),
      (h c _ (Cert.Kernel.Hand.mem_uc Cert.Kernel.main_arg5 (by decide))).trans (Cert.Kernel.Hand.W4_main_arg5 m ρ c),
      (h c _ (Cert.Kernel.Hand.mem_uc Cert.Kernel.main_arg6 (by decide))).trans (Cert.Kernel.Hand.W4_main_arg6 m ρ c),
      (h c _ (Cert.Kernel.Hand.mem_uc Cert.Kernel.main_arg7 (by decide))).trans (Cert.Kernel.Hand.W4_main_arg7 m ρ c),
      (h c _ (Cert.Kernel.Hand.mem_uc Cert.Kernel.main_arg8 (by decide))).trans (Cert.Kernel.Hand.W4_main_arg8 m ρ c),
      (h c _ (Cert.Kernel.Hand.mem_uc Cert.Kernel.main_arg9 (by decide))).trans (Cert.Kernel.Hand.W4_main_arg9 m ρ c),
      (h c _ (Cert.Kernel.Hand.mem_uc Cert.Kernel.main_arg10 (by decide))).trans (Cert.Kernel.Hand.W4_main_arg10 m ρ c),
      (h c _ (Cert.Kernel.Hand.mem_uc Cert.Kernel.main_arg11 (by decide))).trans (Cert.Kernel.Hand.W4_main_arg11 m ρ c),
      (h c _ (Cert.Kernel.Hand.mem_uc Cert.Kernel.main_arg12 (by decide))).trans (Cert.Kernel.Hand.W4_main_arg12 m ρ c),
      (h c _ (Cert.Kernel.Hand.mem_uc Cert.Kernel.main_arg13 (by decide))).trans (Cert.Kernel.Hand.W4_main_arg13 m ρ c),
      (h c _ (Cert.Kernel.Hand.mem_uc Cert.Kernel.main_arg14 (by decide))).trans (Cert.Kernel.Hand.W4_main_arg14 m ρ c),
      (h c _ (Cert.Kernel.Hand.mem_uc Cert.Kernel.main_arg15 (by decide))).trans (Cert.Kernel.Hand.W4_main_arg15 m ρ c),
      (h c _ (Cert.Kernel.Hand.mem_uc Cert.Kernel.main_arg16 (by decide))).trans (Cert.Kernel.Hand.W4_main_arg16 m ρ c),
      (h c _ (Cert.Kernel.Hand.mem_uc Cert.Kernel.main_arg17 (by decide))).trans (Cert.Kernel.Hand.W4_main_arg17 m ρ c),
      (h c _ (Cert.Kernel.Hand.mem_uc Cert.Kernel.main_arg18 (by decide))).trans (Cert.Kernel.Hand.W4_main_arg18 m ρ c),
      (h c _ (Cert.Kernel.Hand.mem_uc Cert.Kernel.main_arg19 (by decide))).trans (Cert.Kernel.Hand.W4_main_arg19 m ρ c)⟩)
    (Cert.Kernel.Hand.run_all (F := Bits) m ρ)

/-- The same at the ideal values. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun r h c =>
    ⟨(h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c),
      (h c _ (Cert.KernelIdeal.Hand.mem_uc Cert.KernelIdeal.main_arg7 (by decide))).trans (Cert.KernelIdeal.Hand.W4_main_arg7 m ρ c),
      (h c _ (Cert.KernelIdeal.Hand.mem_uc Cert.KernelIdeal.main_arg8 (by decide))).trans (Cert.KernelIdeal.Hand.W4_main_arg8 m ρ c),
      (h c _ (Cert.KernelIdeal.Hand.mem_uc Cert.KernelIdeal.main_arg9 (by decide))).trans (Cert.KernelIdeal.Hand.W4_main_arg9 m ρ c),
      (h c _ (Cert.KernelIdeal.Hand.mem_uc Cert.KernelIdeal.main_arg10 (by decide))).trans (Cert.KernelIdeal.Hand.W4_main_arg10 m ρ c),
      (h c _ (Cert.KernelIdeal.Hand.mem_uc Cert.KernelIdeal.main_arg11 (by decide))).trans (Cert.KernelIdeal.Hand.W4_main_arg11 m ρ c),
      (h c _ (Cert.KernelIdeal.Hand.mem_uc Cert.KernelIdeal.main_arg12 (by decide))).trans (Cert.KernelIdeal.Hand.W4_main_arg12 m ρ c),
      (h c _ (Cert.KernelIdeal.Hand.mem_uc Cert.KernelIdeal.main_arg13 (by decide))).trans (Cert.KernelIdeal.Hand.W4_main_arg13 m ρ c),
      (h c _ (Cert.KernelIdeal.Hand.mem_uc Cert.KernelIdeal.main_arg14 (by decide))).trans (Cert.KernelIdeal.Hand.W4_main_arg14 m ρ c),
      (h c _ (Cert.KernelIdeal.Hand.mem_uc Cert.KernelIdeal.main_arg15 (by decide))).trans (Cert.KernelIdeal.Hand.W4_main_arg15 m ρ c),
      (h c _ (Cert.KernelIdeal.Hand.mem_uc Cert.KernelIdeal.main_arg16 (by decide))).trans (Cert.KernelIdeal.Hand.W4_main_arg16 m ρ c),
      (h c _ (Cert.KernelIdeal.Hand.mem_uc Cert.KernelIdeal.main_arg17 (by decide))).trans (Cert.KernelIdeal.Hand.W4_main_arg17 m ρ c),
      (h c _ (Cert.KernelIdeal.Hand.mem_uc Cert.KernelIdeal.main_arg18 (by decide))).trans (Cert.KernelIdeal.Hand.W4_main_arg18 m ρ c),
      (h c _ (Cert.KernelIdeal.Hand.mem_uc Cert.KernelIdeal.main_arg19 (by decide))).trans (Cert.KernelIdeal.Hand.W4_main_arg19 m ρ c)⟩)
    (Cert.KernelIdeal.Hand.run_all (F := Ideal) m ρ)

/-- The reference is a line of host operations: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- The reference's stage `val_main_v95` at equal arguments. -/
theorem node_stage_congr {y0 z0 : (⟨Cert.ReferenceIdeal.S50000x128, .f32⟩ : BufTy).Contents (Elt Ideal)} {y1 z1 : (⟨Cert.ReferenceIdeal.S200000x128, .f32⟩ : BufTy).Contents (Elt Ideal)} {y2 z2 : (⟨Cert.ReferenceIdeal.S200000, .i32⟩ : BufTy).Contents (Elt Ideal)} {y3 z3 : (⟨Cert.ReferenceIdeal.S200000, .i32⟩ : BufTy).Contents (Elt Ideal)} {y4 z4 : (⟨Cert.ReferenceIdeal.S384x128, .f32⟩ : BufTy).Contents (Elt Ideal)} {y5 z5 : (⟨Cert.ReferenceIdeal.S128, .f32⟩ : BufTy).Contents (Elt Ideal)} {y6 z6 : (⟨Cert.ReferenceIdeal.S128x128, .f32⟩ : BufTy).Contents (Elt Ideal)} {y7 z7 : (⟨Cert.ReferenceIdeal.S128, .f32⟩ : BufTy).Contents (Elt Ideal)} {y8 z8 : (⟨Cert.ReferenceIdeal.S128x128, .f32⟩ : BufTy).Contents (Elt Ideal)} {y9 z9 : (⟨Cert.ReferenceIdeal.S128, .f32⟩ : BufTy).Contents (Elt Ideal)} {y10 z10 : (⟨Cert.ReferenceIdeal.S128, .f32⟩ : BufTy).Contents (Elt Ideal)} {y11 z11 : (⟨Cert.ReferenceIdeal.S128, .f32⟩ : BufTy).Contents (Elt Ideal)} {y12 z12 : (⟨Cert.ReferenceIdeal.S256x128, .f32⟩ : BufTy).Contents (Elt Ideal)} {y13 z13 : (⟨Cert.ReferenceIdeal.S128, .f32⟩ : BufTy).Contents (Elt Ideal)} {y14 z14 : (⟨Cert.ReferenceIdeal.S128x128, .f32⟩ : BufTy).Contents (Elt Ideal)} {y15 z15 : (⟨Cert.ReferenceIdeal.S128, .f32⟩ : BufTy).Contents (Elt Ideal)} {y16 z16 : (⟨Cert.ReferenceIdeal.S128x128, .f32⟩ : BufTy).Contents (Elt Ideal)} {y17 z17 : (⟨Cert.ReferenceIdeal.S128, .f32⟩ : BufTy).Contents (Elt Ideal)} {y18 z18 : (⟨Cert.ReferenceIdeal.S128, .f32⟩ : BufTy).Contents (Elt Ideal)} {y19 z19 : (⟨Cert.ReferenceIdeal.S128, .f32⟩ : BufTy).Contents (Elt Ideal)}
    (e0 : y0 = z0) (e1 : y1 = z1) (e2 : y2 = z2) (e3 : y3 = z3) (e4 : y4 = z4) (e5 : y5 = z5) (e6 : y6 = z6) (e7 : y7 = z7) (e8 : y8 = z8) (e9 : y9 = z9) (e10 : y10 = z10) (e11 : y11 = z11) (e12 : y12 = z12) (e13 : y13 = z13) (e14 : y14 = z14) (e15 : y15 = z15) (e16 : y16 = z16) (e17 : y17 = z17) (e18 : y18 = z18) (e19 : y19 = z19) :
    Cert.ReferenceIdeal.Read.val_main_v95 (F := Ideal) y0 y1 y2 y3 y4 y5 y6 y7 y8 y9 y10 y11 y12 y13 y14 y15 y16 y17 y18 y19
      = Cert.ReferenceIdeal.Read.val_main_v95 (F := Ideal) z0 z1 z2 z3 z4 z5 z6 z7 z8 z9 z10 z11 z12 z13 z14 z15 z16 z17 z18 z19 := by
  subst e0 e1 e2 e3 e4 e5 e6 e7 e8 e9 e10 e11 e12 e13 e14 e15 e16 e17 e18 e19
  rfl

/-- The reference's stage `val_main_v96` at equal arguments. -/
theorem edge_stage_congr {y0 z0 : (⟨Cert.ReferenceIdeal.S50000x128, .f32⟩ : BufTy).Contents (Elt Ideal)} {y1 z1 : (⟨Cert.ReferenceIdeal.S200000x128, .f32⟩ : BufTy).Contents (Elt Ideal)} {y2 z2 : (⟨Cert.ReferenceIdeal.S200000, .i32⟩ : BufTy).Contents (Elt Ideal)} {y3 z3 : (⟨Cert.ReferenceIdeal.S200000, .i32⟩ : BufTy).Contents (Elt Ideal)} {y4 z4 : (⟨Cert.ReferenceIdeal.S384x128, .f32⟩ : BufTy).Contents (Elt Ideal)} {y5 z5 : (⟨Cert.ReferenceIdeal.S128, .f32⟩ : BufTy).Contents (Elt Ideal)} {y6 z6 : (⟨Cert.ReferenceIdeal.S128x128, .f32⟩ : BufTy).Contents (Elt Ideal)} {y7 z7 : (⟨Cert.ReferenceIdeal.S128, .f32⟩ : BufTy).Contents (Elt Ideal)} {y8 z8 : (⟨Cert.ReferenceIdeal.S128x128, .f32⟩ : BufTy).Contents (Elt Ideal)} {y9 z9 : (⟨Cert.ReferenceIdeal.S128, .f32⟩ : BufTy).Contents (Elt Ideal)} {y10 z10 : (⟨Cert.ReferenceIdeal.S128, .f32⟩ : BufTy).Contents (Elt Ideal)} {y11 z11 : (⟨Cert.ReferenceIdeal.S128, .f32⟩ : BufTy).Contents (Elt Ideal)}
    (e0 : y0 = z0) (e1 : y1 = z1) (e2 : y2 = z2) (e3 : y3 = z3) (e4 : y4 = z4) (e5 : y5 = z5) (e6 : y6 = z6) (e7 : y7 = z7) (e8 : y8 = z8) (e9 : y9 = z9) (e10 : y10 = z10) (e11 : y11 = z11) :
    Cert.ReferenceIdeal.Read.val_main_v96 (F := Ideal) y0 y1 y2 y3 y4 y5 y6 y7 y8 y9 y10 y11
      = Cert.ReferenceIdeal.Read.val_main_v96 (F := Ideal) z0 z1 z2 z3 z4 z5 z6 z7 z8 z9 z10 z11 := by
  subst e0 e1 e2 e3 e4 e5 e6 e7 e8 e9 e10 e11
  rfl

/-- At the ideal values, from memories agreeing on the arguments, both programs end with the reference's two stages of
    those arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    fun c => Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c =>
      ⟨(h c _ (Cert.KernelIdeal.Hand.mem_uc Cert.KernelIdeal.main_v30 (by decide))).trans
          ((Cert.KernelIdeal.Hand.W4_main_v30 m ρ c).trans (Cert.Bridge.node_eq m ρ c)),
        (h c _ (Cert.KernelIdeal.Hand.mem_uc Cert.KernelIdeal.main_v20_1 (by decide))).trans
          ((Cert.KernelIdeal.Hand.W4_main_v20_1 m ρ c).trans (Cert.Bridge.edge10_eq m ρ c)),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c),
      (h c _ (Cert.KernelIdeal.Hand.mem_uc Cert.KernelIdeal.main_arg7 (by decide))).trans (Cert.KernelIdeal.Hand.W4_main_arg7 m ρ c),
      (h c _ (Cert.KernelIdeal.Hand.mem_uc Cert.KernelIdeal.main_arg8 (by decide))).trans (Cert.KernelIdeal.Hand.W4_main_arg8 m ρ c),
      (h c _ (Cert.KernelIdeal.Hand.mem_uc Cert.KernelIdeal.main_arg9 (by decide))).trans (Cert.KernelIdeal.Hand.W4_main_arg9 m ρ c),
      (h c _ (Cert.KernelIdeal.Hand.mem_uc Cert.KernelIdeal.main_arg10 (by decide))).trans (Cert.KernelIdeal.Hand.W4_main_arg10 m ρ c),
      (h c _ (Cert.KernelIdeal.Hand.mem_uc Cert.KernelIdeal.main_arg11 (by decide))).trans (Cert.KernelIdeal.Hand.W4_main_arg11 m ρ c),
      (h c _ (Cert.KernelIdeal.Hand.mem_uc Cert.KernelIdeal.main_arg12 (by decide))).trans (Cert.KernelIdeal.Hand.W4_main_arg12 m ρ c),
      (h c _ (Cert.KernelIdeal.Hand.mem_uc Cert.KernelIdeal.main_arg13 (by decide))).trans (Cert.KernelIdeal.Hand.W4_main_arg13 m ρ c),
      (h c _ (Cert.KernelIdeal.Hand.mem_uc Cert.KernelIdeal.main_arg14 (by decide))).trans (Cert.KernelIdeal.Hand.W4_main_arg14 m ρ c),
      (h c _ (Cert.KernelIdeal.Hand.mem_uc Cert.KernelIdeal.main_arg15 (by decide))).trans (Cert.KernelIdeal.Hand.W4_main_arg15 m ρ c),
      (h c _ (Cert.KernelIdeal.Hand.mem_uc Cert.KernelIdeal.main_arg16 (by decide))).trans (Cert.KernelIdeal.Hand.W4_main_arg16 m ρ c),
      (h c _ (Cert.KernelIdeal.Hand.mem_uc Cert.KernelIdeal.main_arg17 (by decide))).trans (Cert.KernelIdeal.Hand.W4_main_arg17 m ρ c),
      (h c _ (Cert.KernelIdeal.Hand.mem_uc Cert.KernelIdeal.main_arg18 (by decide))).trans (Cert.KernelIdeal.Hand.W4_main_arg18 m ρ c),
      (h c _ (Cert.KernelIdeal.Hand.mem_uc Cert.KernelIdeal.main_arg19 (by decide))).trans (Cert.KernelIdeal.Hand.W4_main_arg19 m ρ c)⟩)
      (Cert.KernelIdeal.Hand.run_all (F := Ideal) m ρ)
  · refine (θ_run Cert.ReferenceIdeal.defs _ _).mono (fun r h c => ⟨?_, ?_, (h c).2.2⟩)
      (Cert.ReferenceIdeal.Value.run (F := Ideal) m' ρ')
    · exact (h c).1.trans ((Cert.ReferenceIdeal.Read.val_main_v95_eq m' c).trans
        (node_stage_congr (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2))
    · exact (h c).2.1.trans ((Cert.ReferenceIdeal.Read.val_main_v96_eq m' c).trans
        (edge_stage_congr (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
